-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨4, ![2, 64, 64, 64]⟩ ⟨4, ![2, 256, 64, 64]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨4, ![2, 64, 64, 128]⟩ ⟨4, ![2, 256, 64, 128]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2x64x64x64 : Shape := ⟨4, ![2, 64, 64, 64]⟩
abbrev S64x128 : Shape := ⟨2, ![64, 128]⟩
abbrev S_ : Shape := ⟨0, ![]⟩

class Facts : Prop where
  bcast_S_S2x64x64x64 : S_.BroadcastsInDim S2x64x64x64 (![] : Fin 0 → Fin S2x64x64x64.rank)
  reducesTo_S2x64x64x64_S_d0_1_2_3 : S2x64x64x64.ReducesTo [0, 1, 2, 3] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S2x64x64x64 .f32) (main_arg1 : FVec F S64x128 .f32) : IVec S_ 1 :=
  let main_v0 : FVec F S2x64x64x64 .f32 := Host.absf main_arg0
  let main_cst : FVec F S_ .f32 := constant S_ .f32 0x7F800000#32
  let main_v1 : FVec F S2x64x64x64 .f32 := broadcastInDim S2x64x64x64 ![] bcast_S_S2x64x64x64 main_cst
  let main_v2 : IVec S2x64x64x64 1 := cmpf .olt main_v0 main_v1
  let main_c : IVec S_ 1 := constantI S_ 1 1#1
  let main_v3 : IVec S_ 1 := (fun x v => Host.reduce IntOp.andi x v reducesTo_S2x64x64x64_S_d0_1_2_3 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Pre_finite_inputs_ReferenceIdeal.lean ====
abbrev S2x256x64x64 : Shape := ⟨4, ![2, 256, 64, 64]⟩
abbrev S64x128 : Shape := ⟨2, ![64, 128]⟩
abbrev S_ : Shape := ⟨0, ![]⟩

class Facts : Prop where
  bcast_S_S2x256x64x64 : S_.BroadcastsInDim S2x256x64x64 (![] : Fin 0 → Fin S2x256x64x64.rank)
  reducesTo_S2x256x64x64_S_d0_1_2_3 : S2x256x64x64.ReducesTo [0, 1, 2, 3] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S2x256x64x64 .f32) (main_arg1 : FVec F S64x128 .f32) : IVec S_ 1 :=
  let main_v0 : FVec F S2x256x64x64 .f32 := Host.absf main_arg0
  let main_cst : FVec F S_ .f32 := constant S_ .f32 0x7F800000#32
  let main_v1 : FVec F S2x256x64x64 .f32 := broadcastInDim S2x256x64x64 ![] bcast_S_S2x256x64x64 main_cst
  let main_v2 : IVec S2x256x64x64 1 := cmpf .olt main_v0 main_v1
  let main_c : IVec S_ 1 := constantI S_ 1 1#1
  let main_v3 : IVec S_ 1 := (fun x v => Host.reduce IntOp.andi x v reducesTo_S2x256x64x64_S_d0_1_2_3 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Kernel.lean ====
abbrev S2x64x64x64 : Shape := ⟨4, ![2, 64, 64, 64]⟩
abbrev S64x128 : Shape := ⟨2, ![64, 128]⟩
abbrev S2x64x64x128 : Shape := ⟨4, ![2, 64, 64, 128]⟩
abbrev S4x4x64 : Shape := ⟨3, ![4, 4, 64]⟩
abbrev S3 : Shape := ⟨1, ![3]⟩
abbrev S_ : Shape := ⟨0, ![]⟩
abbrev S8192x64 : Shape := ⟨2, ![8192, 64]⟩
abbrev S2x8192 : Shape := ⟨2, ![2, 8192]⟩
abbrev S2x64 : Shape := ⟨2, ![2, 64]⟩
abbrev S4x64 : Shape := ⟨2, ![4, 64]⟩
abbrev S1x4x64 : Shape := ⟨3, ![1, 4, 64]⟩
abbrev S1 : Shape := ⟨1, ![1]⟩
abbrev S2x1x1x64 : Shape := ⟨4, ![2, 1, 1, 64]⟩
abbrev S8192x128 : Shape := ⟨2, ![8192, 128]⟩

abbrev nBuf : Space → Nat
  | .hbm => 3
  | .vmem => 4
  | .smem => 0
  | _ => 0

abbrev bufTy : (tb : Table) → Fin (tcTables nBuf tb) → BufTy
  | .hbm, ⟨0, _⟩ => ⟨S2x64x64x64, .f32⟩
  | .hbm, ⟨1, _⟩ => ⟨S64x128, .f32⟩
  | .hbm, ⟨2, _⟩ => ⟨S2x64x64x128, .bf16⟩
  | .local _ .vmem, ⟨0, _⟩ => ⟨S2x64x64x64, .f32⟩
  | .local _ .vmem, ⟨1, _⟩ => ⟨S64x128, .f32⟩
  | .local _ .vmem, ⟨2, _⟩ => ⟨S2x64x64x128, .bf16⟩
  | .local _ .vmem, ⟨3, _⟩ => ⟨S4x4x64, .f32⟩
  | _, _ => ⟨S2x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v4 : BitVec 32 := Scalar.addi v2 c2_i32
  let c4_i32_0 : BitVec 32 := 4#32
  let c0_i32 : BitVec 32 := 0#32
  let v5 : BitVec 1 := Scalar.cmpi .eq c4_i32_0 c0_i32
  let c1_i32_1 : BitVec 32 := 1#32
  let v6 : BitVec 32 := Scalar.select v5 c1_i32_1 c4_i32_0
  let v7 : BitVec 32 := Scalar.remsi v4 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c1_i32_6 : BitVec 32 := 1#32
  let v15 : BitVec 32 := Scalar.muli v14 c1_i32_6
  let v16 : BitVec 32 := Scalar.addi c0_i32_7 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v17 : BitVec 32 := Scalar.addi v2 c1_i32_8
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_41 : BitVec 32 := 2#32
  let v84 : BitVec 32 := Scalar.addi v2 c2_i32_41
  let c4_i32_42 : BitVec 32 := 4#32
  let c0_i32_43 : BitVec 32 := 0#32
  let v85 : BitVec 1 := Scalar.cmpi .eq c4_i32_42 c0_i32_43
  let c1_i32_44 : BitVec 32 := 1#32
  let v86 : BitVec 32 := Scalar.select v85 c1_i32_44 c4_i32_42
  let v87 : BitVec 32 := Scalar.remsi v84 v86
  let c0_i32_46 : BitVec 32 := 0#32
  let v89 : BitVec 1 := Scalar.cmpi .slt v87 c0_i32_46
  let c0_i32_47 : BitVec 32 := 0#32
  let v90 : BitVec 1 := Scalar.cmpi .slt v86 c0_i32_47
  let v91 : BitVec 1 := Scalar.xori v89 v90
  let c0_i32_45 : BitVec 32 := 0#32
  let v88 : BitVec 1 := Scalar.cmpi .ne v87 c0_i32_45
  let v92 : BitVec 1 := Scalar.andi v91 v88
  let v93 : BitVec 32 := Scalar.addi v87 v86
  let v94 : BitVec 32 := Scalar.select v92 v93 v87
  let c1_i32_52 : BitVec 32 := 1#32
  let v95 : BitVec 32 := Scalar.muli v94 c1_i32_52
  let v96 : BitVec 32 := Scalar.addi c0_i32_53 v95
  v96.toNat
def k0_dev5 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_58 : BitVec 32 := 1#32
  let v105 : BitVec 32 := Scalar.addi v2 c1_i32_58
  let c4_i32_59 : BitVec 32 := 4#32
  let c0_i32_60 : BitVec 32 := 0#32
  let v106 : BitVec 1 := Scalar.cmpi .eq c4_i32_59 c0_i32_60
  let c1_i32_61 : BitVec 32 := 1#32
  let v107 : BitVec 32 := Scalar.select v106 c1_i32_61 c4_i32_59
  let v108 : BitVec 32 := Scalar.remsi v105 v107
  let c0_i32_63 : BitVec 32 := 0#32
  let v110 : BitVec 1 := Scalar.cmpi .slt v108 c0_i32_63
  let c0_i32_64 : BitVec 32 := 0#32
  let v111 : BitVec 1 := Scalar.cmpi .slt v107 c0_i32_64
  let v112 : BitVec 1 := Scalar.xori v110 v111
  let c0_i32_62 : BitVec 32 := 0#32
  let v109 : BitVec 1 := Scalar.cmpi .ne v108 c0_i32_62
  let v113 : BitVec 1 := Scalar.andi v112 v109
  let v114 : BitVec 32 := Scalar.addi v108 v107
  let v115 : BitVec 32 := Scalar.select v113 v114 v108
  let c1_i32_69 : BitVec 32 := 1#32
  let v116 : BitVec 32 := Scalar.muli v115 c1_i32_69
  let v117 : BitVec 32 := Scalar.addi c0_i32_70 v116
  v117.toNat
def k0_dev6 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_75 : BitVec 32 := 3#32
  let v126 : BitVec 32 := Scalar.addi v2 c3_i32_75
  let c4_i32_76 : BitVec 32 := 4#32
  let c0_i32_77 : BitVec 32 := 0#32
  let v127 : BitVec 1 := Scalar.cmpi .eq c4_i32_76 c0_i32_77
  let c1_i32_78 : BitVec 32 := 1#32
  let v128 : BitVec 32 := Scalar.select v127 c1_i32_78 c4_i32_76
  let v129 : BitVec 32 := Scalar.remsi v126 v128
  let c0_i32_80 : BitVec 32 := 0#32
  let v131 : BitVec 1 := Scalar.cmpi .slt v129 c0_i32_80
  let c0_i32_81 : BitVec 32 := 0#32
  let v132 : BitVec 1 := Scalar.cmpi .slt v128 c0_i32_81
  let v133 : BitVec 1 := Scalar.xori v131 v132
  let c0_i32_79 : BitVec 32 := 0#32
  let v130 : BitVec 1 := Scalar.cmpi .ne v129 c0_i32_79
  let v134 : BitVec 1 := Scalar.andi v133 v130
  let v135 : BitVec 32 := Scalar.addi v129 v128
  let v136 : BitVec 32 := Scalar.select v134 v135 v129
  let c1_i32_86 : BitVec 32 := 1#32
  let v137 : BitVec 32 := Scalar.muli v136 c1_i32_86
  let v138 : BitVec 32 := Scalar.addi c0_i32_87 v137
  v138.toNat
abbrev stage0_0 : Fin 1 → Memref sig .tc .vmem S2x64x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x64x64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S2x64x64x64_S2x64x64x64_0_0_0_0 : ∀ a, (![0, 0, 0, 0] : Fin 4 → Nat) a + S2x64x64x64.size a ≤ S2x64x64x64.size a
  h_S2x64x64x64 : 0 < S2x64x64x64.numel
  shapeCasts_S2x64x64x64_S2x64x64x64 : S2x64x64x64.ShapeCasts S2x64x64x64
  bitsLt_bf16_f32 : FTy.bits .bf16 < FTy.bits .f32
  shapeCasts_S2x64x64x64_S8192x64 : S2x64x64x64.ShapeCasts S8192x64
  iota_S2x8192_d0_w32 : S2x8192.Iotas .tc 32 [0]
  iota_S2x8192_d1_w32 : S2x8192.Iotas .tc 32 [1]
  natLt_1_32 : 1 < 32
  concatenates_S2x64_S2x64_S4x64_d0 : Shape.Concatenates [S2x64, S2x64] S4x64 0
  inb_S4x4x64_S1x4x64_0_0_0 : ∀ a, (![0, 0, 0] : Fin 3 → Nat) a + S1x4x64.size a ≤ S4x4x64.size a
  h_S1x4x64 : 0 < S1x4x64.numel
  shapeCasts_S1x4x64_S4x64 : S1x4x64.ShapeCasts S4x64
  shapeCasts_S4x64_S1x4x64 : S4x64.ShapeCasts S1x4x64
  hamt_3 : (3#32 : BitVec 32).msb = false
  inb_S3_S1_1 : ∀ a, (![1] : Fin 1 → Nat) a + S1.size a ≤ S3.size a
  squeezes_S1_S_ : S1.Squeezes S_
  inb_S4x4x64_S1x4x64_2_0_0 : ∀ a, (![2, 0, 0] : Fin 3 → Nat) a + S1x4x64.size a ≤ S4x4x64.size a
  squeezes_S1x4x64_S4x64 : S1x4x64.Squeezes S4x64
  inb_S3_S1_0 : ∀ a, (![0] : Fin 1 → Nat) a + S1.size a ≤ S3.size a
  inb_S4x4x64_S1x4x64_1_0_0 : ∀ a, (![1, 0, 0] : Fin 3 → Nat) a + S1x4x64.size a ≤ S4x4x64.size a
  inb_S3_S1_2 : ∀ a, (![2] : Fin 1 → Nat) a + S1.size a ≤ S3.size a
  inb_S4x4x64_S1x4x64_3_0_0 : ∀ a, (![3, 0, 0] : Fin 3 → Nat) a + S1x4x64.size a ≤ S4x4x64.size a
  inb_S64x128_S64x128_0_0 : ∀ a, (![0, 0] : Fin 2 → Nat) a + S64x128.size a ≤ S64x128.size a
  h_S64x128 : 0 < S64x128.numel
  shapeCasts_S64x128_S64x128 : S64x128.ShapeCasts S64x128
  slices_S4x64_o0_0_S2x64 : S4x64.Slices ![0, 0] S2x64
  slices_S4x64_o2_0_S2x64 : S4x64.Slices ![2, 0] S2x64
  shapeCasts_S2x64_S2x1x1x64 : S2x64.ShapeCasts S2x1x1x64
  broadcasts_S2x1x1x64_S2x64x64x64 : S2x1x1x64.Broadcasts S2x64x64x64
  shapeCasts_S8192x128_S2x64x64x128 : S8192x128.ShapeCasts S2x64x64x128
  inb_S2x64x64x128_S2x64x64x128_0_0_0_0 : ∀ a, (![0, 0, 0, 0] : Fin 4 → Nat) a + S2x64x64x128.size a ≤ S2x64x64x128.size a
  h_S2x64x64x128 : 0 < S2x64x64x128.numel
  packedbf16_S2x64x64x128_S2x64x64x128_0_0_0_0 : (Rect.unit (s := S2x64x64x128) ![0, 0, 0, 0] S2x64x64x128.size inb_S2x64x64x128_S2x64x64x128_0_0_0_0).PackedRows (EltTy.packing .bf16)
  dot_S2x8192_S8192x64_S2x64_1_0_0_1_n_n_wf : DotDims.WF S2x8192 S8192x64 S2x64 [1] [0] [0] [1] [] []
  dot_S8192x64_S64x128_S8192x128_1_0_0_1_n_n_wf : DotDims.WF S8192x64 S64x128 S8192x128 [1] [0] [0] [1] [] []
  hcc0_scratch1 : 3 + S3.numel ≤ 9
  hcc0_scratch2 : 6 + S3.numel ≤ 9
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole
  hstage0_2 : ∀ j, (stage0_2 j).IsWhole

variable [Facts₀]

abbrev cc0_scratch1 : DmaSems sig S3 := SemArray.consecutive 3 S3 hcc0_scratch1
abbrev cc0_scratch2 : DmaSems sig S3 := SemArray.consecutive 6 S3 hcc0_scratch2
def dot_S2x8192_S8192x64_S2x64_1_0_0_1_n_n : DotDims S2x8192 S8192x64 S2x64 where
  lhsContracting := [1]
  rhsContracting := [0]
  lhsNonContracting := [0]
  rhsNonContracting := [1]
  lhsBatch := []
  rhsBatch := []
  wf := dot_S2x8192_S8192x64_S2x64_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x256x64x64 : Shape := ⟨4, ![2, 256, 64, 64]⟩
abbrev S64x128 : Shape := ⟨2, ![64, 128]⟩
abbrev S_ : Shape := ⟨0, ![]⟩
abbrev S2x64 : Shape := ⟨2, ![2, 64]⟩
abbrev S2x1x1x64 : Shape := ⟨4, ![2, 1, 1, 64]⟩
abbrev S32768x64 : Shape := ⟨2, ![32768, 64]⟩
abbrev S32768x128 : Shape := ⟨2, ![32768, 128]⟩
abbrev S2x256x64x128 : Shape := ⟨4, ![2, 256, 64, 128]⟩

abbrev nBuf : Space → Nat
  | .hbm => 50
  | .vmem => 0
  | .smem => 0
  | _ => 0

abbrev bufTy : (tb : Table) → Fin (tcTables nBuf tb) → BufTy
  | .hbm, ⟨0, _⟩ => ⟨S2x256x64x64, .f32⟩
  | .hbm, ⟨1, _⟩ => ⟨S64x128, .f32⟩
  | .hbm, ⟨2, _⟩ => ⟨S_, .f32⟩
  | .hbm, ⟨3, _⟩ => ⟨S2x64, .f32⟩
  | .hbm, ⟨4, _⟩ => ⟨S2x1x1x64, .f32⟩
  | .hbm, ⟨5, _⟩ => ⟨S_, .f32⟩
  | .hbm, ⟨6, _⟩ => ⟨S2x1x1x64, .f32⟩
  | .hbm, ⟨7, _⟩ => ⟨S2x1x1x64, .f32⟩
  | .hbm, ⟨8, _⟩ => ⟨S_, .i32⟩
  | .hbm, ⟨9, _⟩ => ⟨S_, .f32⟩
  | .hbm, ⟨10, _⟩ => ⟨S2x64, .f32⟩
  | .hbm, ⟨11, _⟩ => ⟨S2x1x1x64, .f32⟩
  | .hbm, ⟨12, _⟩ => ⟨S_, .f32⟩
  | .hbm, ⟨13, _⟩ => ⟨S2x1x1x64, .f32⟩
  | .hbm, ⟨14, _⟩ => ⟨S2x1x1x64, .f32⟩
  | .hbm, ⟨15, _⟩ => ⟨S2x256x64x64, .f32⟩
  | .hbm, ⟨16, _⟩ => ⟨S2x256x64x64, .f32⟩
  | .hbm, ⟨17, _⟩ => ⟨S2x256x64x64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x64, .f32⟩
  | .hbm, ⟨23, _⟩ => ⟨S2x1x1x64, .f32⟩
  | .hbm, ⟨24, _⟩ => ⟨S2x1x1x64, .f32⟩
  | .hbm, ⟨25, _⟩ => ⟨S2x1x1x64, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S2x1x1x64, .f32⟩
  | .hbm, ⟨31, _⟩ => ⟨S2x1x1x64, .f32⟩
  | .hbm, ⟨32, _⟩ => ⟨S2x256x64x64, .f32⟩
  | .hbm, ⟨33, _⟩ => ⟨S2x256x64x64, .f32⟩
  | .hbm, ⟨34, _⟩ => ⟨S_, .f32⟩
  | .hbm, ⟨35, _⟩ => ⟨S2x1x1x64, .f32⟩
  | .hbm, ⟨36, _⟩ => ⟨S2x1x1x64, .f32⟩
  | .hbm, ⟨37, _⟩ => ⟨S2x1x1x64, .f32⟩
  | .hbm, ⟨38, _⟩ => ⟨S2x256x64x64, .f32⟩
  | .hbm, ⟨39, _⟩ => ⟨S2x256x64x64, .f32⟩
  | .hbm, ⟨40, _⟩ => ⟨S2x256x64x64, .f32⟩
  | .hbm, ⟨41, _⟩ => ⟨S2x256x64x64, .f32⟩
  | .hbm, ⟨42, _⟩ => ⟨S_, .f32⟩
  | .hbm, ⟨43, _⟩ => ⟨S2x256x64x64, .f32⟩
  | .hbm, ⟨44, _⟩ => ⟨S2x256x64x64, .f32⟩
  | .hbm, ⟨45, _⟩ => ⟨S2x256x64x64, .f32⟩
  | .hbm, ⟨46, _⟩ => ⟨S32768x64, .f32⟩
  | .hbm, ⟨47, _⟩ => ⟨S32768x128, .f32⟩
  | .hbm, ⟨48, _⟩ => ⟨S2x256x64x128, .f32⟩
  | .hbm, ⟨49, _⟩ => ⟨S2x256x64x128, .bf16⟩
  | _, _ => ⟨S2x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_cst_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_cst_2 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_cst_3 : Ref sig .tc := ⟨.hbm, 26, rfl⟩
abbrev main_call0_v13 : Ref sig .tc := ⟨.hbm, 27, rfl⟩
abbrev main_call0_cst_4 : Ref sig .tc := ⟨.hbm, 28, rfl⟩
abbrev main_call0_call0_v0 : Ref sig .tc := ⟨.hbm, 29, rfl⟩
abbrev main_call0_call0_v1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩

abbrev nD : Nat := 1
abbrev τ : Topo := Topo.v7x

variable {F : FTy → Type} [FloatOps F]

class Facts₀ : Prop where
  reducesTo_S2x256x64x64_S2x64_d1_2 : S2x256x64x64.ReducesTo [1, 2] S2x64
  h_S_ : 0 < S_.numel
  bcast_S2x64_S2x1x1x64_0_3 : S2x64.BroadcastsInDim S2x1x1x64 (![0, 3] : Fin 2 → Fin S2x1x1x64.rank)
  bcast_S_S2x1x1x64 : S_.BroadcastsInDim S2x1x1x64 (![] : Fin 0 → Fin S2x1x1x64.rank)
  bcast_S2x1x1x64_S2x256x64x64_0_1_2_3 : S2x1x1x64.BroadcastsInDim S2x256x64x64 (![0, 1, 2, 3] : Fin 4 → Fin S2x256x64x64.rank)
  bcast_S_S2x256x64x64 : S_.BroadcastsInDim S2x256x64x64 (![] : Fin 0 → Fin S2x256x64x64.rank)
  shapeCasts_S2x256x64x64_S32768x64 : S2x256x64x64.ShapeCasts S32768x64
  shapeCasts_S32768x128_S2x256x64x128 : S32768x128.ShapeCasts S2x256x64x128
  bitsLt_bf16_f32 : FTy.bits .bf16 < FTy.bits .f32
  dot_S32768x64_S64x128_S32768x128_1_0_0_1_n_n_wf : DotDims.WF S32768x64 S64x128 S32768x128 [1] [0] [0] [1] [] []

variable [Facts₀]

def dot_S32768x64_S64x128_S32768x128_1_0_0_1_n_n : DotDims S32768x64 S64x128 S32768x128 where
  lhsContracting := [1]
  rhsContracting := [0]
  lhsNonContracting := [0]
  rhsNonContracting := [1]
  lhsBatch := []
  rhsBatch := []
  wf := dot_S32768x64_S64x128_S32768x128_1_0_0_1_n_n_wf

class Facts : Prop extends Facts₀ where

variable [Facts]
-- ==== Proof.KSpec.lean ====
/- The kernel's result on one device as a pure function of the devices' argument blocks.
   A device first reduces its own rows to per-batch channel sums and sums of squares (`stat`);
   the four devices' statistics are added, and the normalised, gated rows are multiplied by the
   projection (`outOf`). -/
import proofs.«900519_g7700000000000520_dist_diff_noisepred_hshard_i_b2_h64_w64_c64_v7x_i4_bf16_1_alg».proof.Proof.Gen.KernelIdeal.Skeleton

noncomputable section

namespace Cert.KernelIdeal.KSpec

open Idealize.ShloMosaic Idealize.SL.Sem Cert.KernelIdeal Cert.KernelIdeal.Gen

variable {F : FTy → Type} [FloatOps F]

/-- The device `k` places further round the four devices. -/
def pk (c : Dev nD) (k : Nat) : Dev nD := ⟨(c.val + k) % 4, Nat.mod_lt _ (by decide)⟩

/-- One device's statistics: rows 0–1 the per-batch channel sums of its block, rows 2–3 the sums of squares. -/
def stat (x : Vec F S2x64x64x64 .f32) : Vec F S1x4x64 .f32 :=
  k0_pay4 (k0_pay2 x) (iota .tc S2x8192 32 [0] Facts₀.iota_S2x8192_d0_w32) k0_pay3

/-- The result block from a device's own rows, the projection, and the four statistics in the order they are added. -/
def outOf (x : Vec F S2x64x64x64 .f32) (w : Vec F S64x128 .f32) (s0 s1 s2 s3 : Vec F S1x4x64 .f32) : Vec F S2x64x64x128 .bf16 :=
  k0_pay6 (k0_pay1 x) (k0_pay5 w) s0 s1 s2 s3

variable (m : (ℓ : Loc nD τ sig) → Buf (Elt F) ℓ)

/-- Device `c`'s block of the first argument, and its copy of the second. -/
abbrev X (c : Dev nD) : Vec F S2x64x64x64 .f32 := m ((c.tc : Thread nD τ).loc main_arg0)
abbrev Wp (c : Dev nD) : Vec F S64x128 .f32 := m ((c.tc : Thread nD τ).loc main_arg1)

/-- Device `c`'s result: its own statistics, then those of the devices three, two and one places further round. -/
def outVal (c : Dev nD) : Vec F S2x64x64x128 .bf16 :=
  outOf (X m c) (Wp m c) (stat (X m c)) (stat (X m (pk c 3))) (stat (X m (pk c 2))) (stat (X m (pk c 1)))

end Cert.KernelIdeal.KSpec

end
-- ==== Proof.Proto.lean ====
/- The four devices' exchange: who signals whom, which row of whose scratch a copy lands in, and what each
   landing tells its receiver. Device c's scratch has four rows of statistics; row 0 is its own, row j (j = 1, 2, 3)
   is written by the device 4 - j places further round, whose row 0 it then holds. -/
import proofs.«900519_g7700000000000520_dist_diff_noisepred_hshard_i_b2_h64_w64_c64_v7x_i4_bf16_1_alg».proof.Proof.KSpec
import proofs.«900519_g7700000000000520_dist_diff_noisepred_hshard_i_b2_h64_w64_c64_v7x_i4_bf16_1_alg».proof.Proof.Gen.KernelIdeal.Launch
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.Proto

open Cert.KernelIdeal Cert.KernelIdeal.Gen Cert.KernelIdeal.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) and the exchange's (duties `Fin 4`) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## Round the four devices -/

/-- j places further and 4 - j places further undo each other. -/
theorem pk_pk (c : Dev nD) (j : Fin 4) : pk (pk c j.val) (4 - j.val) = c ∨ j = 0 := by revert c j; decide
theorem pk_inv1 (c : Dev nD) : pk (pk c 1) 3 = c := by revert c; decide
theorem pk_inv2 (c : Dev nD) : pk (pk c 2) 2 = c := by revert c; decide
theorem pk_inv3 (c : Dev nD) : pk (pk c 3) 1 = c := by revert c; decide

/-- The kernel's device chains: the signals go 2, 1, 3 places further, and so do the copies. -/
theorem dev1_eq (c : Dev nD) : (⟨k0_dev1 c, Facts₀.k0_dev1_lt c⟩ : Dev nD) = pk c 2 := by revert c; decide
theorem dev2_eq (c : Dev nD) : (⟨k0_dev2 c, Facts₀.k0_dev2_lt c⟩ : Dev nD) = pk c 1 := by revert c; decide
theorem dev3_eq (c : Dev nD) : (⟨k0_dev3 c, Facts₀.k0_dev3_lt c⟩ : Dev nD) = pk c 3 := by revert c; decide
theorem dev4_eq (c : Dev nD) : (⟨k0_dev4 c, Facts₀.k0_dev4_lt c⟩ : Dev nD) = pk c 2 := by revert c; decide
theorem dev5_eq (c : Dev nD) : (⟨k0_dev5 c, Facts₀.k0_dev5_lt c⟩ : Dev nD) = pk c 1 := by revert c; decide
theorem dev6_eq (c : Dev nD) : (⟨k0_dev6 c, Facts₀.k0_dev6_lt c⟩ : Dev nD) = pk c 3 := by revert c; decide

/-! ## The scratch rows, the semaphores, the cells -/

abbrev scrM : Memref sig .tc .vmem S4x4x64 .f32 := Memref.whole cc0_scratch0
abbrev xM : Memref sig .tc .vmem S2x64x64x64 .f32 := Memref.whole cc0_stg0_0
abbrev wM : Memref sig .tc .vmem S64x128 .f32 := Memref.whole cc0_stg1_0
abbrev oM : Memref sig .tc .vmem S2x64x64x128 .bf16 := Memref.whole cc0_stg2_0

abbrev r0 : Rect S4x4x64 := Rect.unit (s := S4x4x64) ![0, 0, 0] S1x4x64.size Facts₀.inb_S4x4x64_S1x4x64_0_0_0
abbrev r1 : Rect S4x4x64 := Rect.unit (s := S4x4x64) ![1, 0, 0] S1x4x64.size Facts₀.inb_S4x4x64_S1x4x64_1_0_0
abbrev r2 : Rect S4x4x64 := Rect.unit (s := S4x4x64) ![2, 0, 0] S1x4x64.size Facts₀.inb_S4x4x64_S1x4x64_2_0_0
abbrev r3 : Rect S4x4x64 := Rect.unit (s := S4x4x64) ![3, 0, 0] S1x4x64.size Facts₀.inb_S4x4x64_S1x4x64_3_0_0
/-- Row k of the scratch as the copies address it. -/
abbrev sl0 : Memref sig .tc .vmem S4x64 .f32 := (scrM.slice r0 (fun _ => rfl)).squeeze S4x64 Facts₀.squeezes_S1x4x64_S4x64
abbrev sl1 : Memref sig .tc .vmem S4x64 .f32 := (scrM.slice r1 (fun _ => rfl)).squeeze S4x64 Facts₀.squeezes_S1x4x64_S4x64
abbrev sl2 : Memref sig .tc .vmem S4x64 .f32 := (scrM.slice r2 (fun _ => rfl)).squeeze S4x64 Facts₀.squeezes_S1x4x64_S4x64
abbrev sl3 : Memref sig .tc .vmem S4x64 .f32 := (scrM.slice r3 (fun _ => rfl)).squeeze S4x64 Facts₀.squeezes_S1x4x64_S4x64

/-- The entries of row k. -/
def rowSet (k : Fin 4) : Finset S4x4x64.Idx := Finset.univ.filter fun i => (i 0).val = k.val

/-- The barrier semaphore; the three send and three receive semaphores (index j serves the copy j + 1 places further). -/
abbrev barS : Sem sig := (SemArray.scalar (sig.barrier 0 rfl) : Sems sig S_).sem
abbrev sendSem (j : Fin 3) : DmaSem sig := ⟨3 + j.val, by show 3 + j.val < 9; omega⟩
abbrev recvSem (j : Fin 3) : DmaSem sig := ⟨6 + j.val, by show 6 + j.val < 9; omega⟩

abbrev barCell (c : Dev nD) : GSem nD τ sig := ((c : Thread nD τ), .reg barS)
abbrev sendCell (c : Dev nD) (j : Fin 3) : GSem nD τ sig := ((c : Thread nD τ), .dma (sendSem j))
abbrev recvCell (c : Dev nD) (j : Fin 3) : GSem nD τ sig := ((c : Thread nD τ), .dma (recvSem j))

/-- The kernel's own (scoped) semaphores as the launch indexes them: three send, three receive; -/
abbrev osem : Fin 6 → SemLoc sig := fun i => .dma ⟨3 + i.val, by show 3 + i.val < 9; omega⟩
/-- all seven of the exchange's: barrier, three send, three receive. -/
abbrev csem : Fin 7 → SemLoc sig := fun i => if i.val = 0 then .reg barS else .dma ⟨2 + i.val, by show 2 + i.val < 9; omega⟩
abbrev kcell (ck : Dev nD × Fin 7) : GSem nD τ sig := ((ck.1 : Thread nD τ), csem ck.2)

/-- The units one row's copy credits. -/
abbrev N : ℕ := 128

/-- The three parts of the full share under which row 0 is read by the three copies at once. -/
def sh : Fin 3 → PosShare TreeShare := fun j => if j.val = 0 then fullShare.left else if j.val = 1 then fullShare.right.left else fullShare.right.right

/-! ## Contents -/

/-- A scratch all of whose rows hold the statistics of the block `x`: the contents every row is described against. -/
def rowsOf (c : Dev nD) (x : Vec F S2x64x64x64 .f32) : Buf (Elt F) ((c : Thread nD τ).loc cc0_scratch0) :=
  fun i => stat x (ValueIdx.ix3 (0 : Fin 1) (i 1) (i 2))

/-- Row k of device c's scratch at contents f, under share q. -/
def rowPts (c : Dev nD) (k : Fin 4) (q : PosShare TreeShare) (f : Buf (Elt F) ((c : Thread nD τ).loc cc0_scratch0)) : sProp 𝕄 :=
  ((c : Thread nD τ).loc cc0_scratch0) ↦[rowSet k]{q} f

instance rowPts_storable (c : Dev nD) (k : Fin 4) (q : PosShare TreeShare) (f) : BI.Storable (upEmb : UEmb _ 𝕄) (rowPts (F := F) c k q f) := by
  unfold rowPts; infer_instance

/-! ## The schedule -/

/-- What the signal from the device d places further hands device c: that device's row d, which c's copy d places further lands in. -/
def barPay (c : Dev nD) (d : Fin 4) : sProp 𝕄 := iprop(∃ f, rowPts (pk c d.val) d fullShare f)
/-- Receive semaphore j of c: row j + 1 holding the statistics of the device 3 - j places further (from which c is j + 1 places further). -/
def recvPay (c : Dev nD) (j : Fin 3) : sProp 𝕄 := rowPts c ⟨j.val + 1, by omega⟩ fullShare (rowsOf c (X m (pk c (3 - j.val))))
/-- Send semaphore j of c: its part of row 0 back. -/
def sendPay (c : Dev nD) (j : Fin 3) : sProp 𝕄 := rowPts c 0 (sh j) (rowsOf c (X m c))

abbrev IsBar (g : GSem nD τ sig) : Prop := g.1.2 = .tc ∧ g.2 = .reg barS
abbrev IsXfer (g : GSem nD τ sig) : Prop := g.1.2 = .tc ∧ ∃ i : Fin 6, g.2 = osem i

/-- One round: a barrier cell has the duties 1, 2, 3 (one unit each, from the devices 1, 2, 3 places further); each send and
    receive cell the one duty 0 of a row's credit. -/
def sched : Rounds.Schedule (GSem nD τ sig) (Fin 4) 𝕄 where
  duties g r := if r = 0 ∧ IsBar g then {1, 2, 3} else if r = 0 ∧ IsXfer g then {0} else ∅
  unitless _ := False
  amount g _ _ := if g.2 = .reg barS then 1 else N
  payload g _ d :=
    if g.2 = .reg barS then barPay g.1.1 d
    else if g.2 = .dma (recvSem 0) then recvPay m g.1.1 0
    else if g.2 = .dma (recvSem 1) then recvPay m g.1.1 1
    else if g.2 = .dma (recvSem 2) then recvPay m g.1.1 2
    else if g.2 = .dma (sendSem 0) then sendPay m g.1.1 0
    else if g.2 = .dma (sendSem 1) then sendPay m g.1.1 1
    else if g.2 = .dma (sendSem 2) then sendPay m g.1.1 2
    else iprop(emp)
  amount_pos g _ _ _ := by
    by_cases h : g.2 = .reg barS
    · rw [if_pos h]; exact Nat.one_pos
    · rw [if_neg h]; decide

instance sched_payload_storable (g : GSem nD τ sig) (r : ℕ) (d : Fin 4) :
    BI.Storable (upEmb : UEmb _ 𝕄) ((sched (F := F) m).payload g r d) := by
  show BI.Storable upEmb (if g.2 = .reg barS then barPay g.1.1 d
    else if g.2 = .dma (recvSem 0) then recvPay m g.1.1 0
    else if g.2 = .dma (recvSem 1) then recvPay m g.1.1 1
    else if g.2 = .dma (recvSem 2) then recvPay m g.1.1 2
    else if g.2 = .dma (sendSem 0) then sendPay m g.1.1 0
    else if g.2 = .dma (sendSem 1) then sendPay m g.1.1 1
    else if g.2 = .dma (sendSem 2) then sendPay m g.1.1 2
    else iprop(emp))
  unfold barPay recvPay sendPay
  (repeat' split) <;> infer_instance

/-! ## What each device owes at launch; the levels -/

/-- What device c still owes after each of its first five paying steps, and at launch: the three receive credits of the
    devices it copies to, and one barrier unit to each — summed so that each step pays the last summand. -/
def O₅ (c : Dev nD) : CellTallies nD τ sig Unit := tallyAt (recvCell (pk c 3) 2) () N
def O₄ (c : Dev nD) : CellTallies nD τ sig Unit := O₅ c + tallyAt (recvCell (pk c 1) 0) () N
def O₃ (c : Dev nD) : CellTallies nD τ sig Unit := O₄ c + tallyAt (recvCell (pk c 2) 1) () N
def O₂ (c : Dev nD) : CellTallies nD τ sig Unit := O₃ c + tallyAt (barCell (pk c 3)) () 1
def O₁ (c : Dev nD) : CellTallies nD τ sig Unit := O₂ c + tallyAt (barCell (pk c 1)) () 1
def O₀ (c : Dev nD) : CellTallies nD τ sig Unit := O₁ c + tallyAt (barCell (pk c 2)) () 1

def L (g : GSem nD τ sig) : Finset Unit := if g.1.2 = .tc then {()} else ∅
/-- Barrier cells at level 1, receive cells at 2, everything else (staging, send) at 0. -/
def lv (g : GSem nD τ sig) (_ : Unit) : ℕ :=
  if g.2 = .reg barS then 1 else if g.2 = .dma (recvSem 0) ∨ g.2 = .dma (recvSem 1) ∨ g.2 = .dma (recvSem 2) then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The staged arguments. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- The cells' invariants device c's body opens, under the names K the launch allocated them at: its own seven, the three
    others' barrier cells (its signals), and the receive cell j of the device j + 1 places further (its copies). -/
def invs (K : Dev nD × Fin 7 → ℕ) (c : Dev nD) : sProp 𝕄 :=
  iprop((bigSep Finset.univ fun i : Fin 7 => cellInv ER (sched m) (K (c, i)) (kcell (c, i)))
    ∗ cellInv ER (sched m) (K (pk c 1, 0)) (barCell (pk c 1)) ∗ cellInv ER (sched m) (K (pk c 2, 0)) (barCell (pk c 2)) ∗ cellInv ER (sched m) (K (pk c 3, 0)) (barCell (pk c 3))
    ∗ cellInv ER (sched m) (K (pk c 1, 4)) (recvCell (pk c 1) 0) ∗ cellInv ER (sched m) (K (pk c 2, 5)) (recvCell (pk c 2) 1) ∗ cellInv ER (sched m) (K (pk c 3, 6)) (recvCell (pk c 3) 2))

instance invs_persistent (K : Dev nD × Fin 7 → ℕ) (c : Dev nD) : BI.Persistent (invs m K c) := by unfold invs; infer_instance

/-- The exchange's ghost state device c starts from: the invariants; its positions at round 0 of its seven cells; that every
    cell it pays, and its own send and receive cells, have reached round 0; the nine duty tokens it pays with — duty 2 of the
    barrier two places further, duty 3 of the one one place further, duty 1 of the one three places further (the offset back to c);
    the receive duties of the three devices it copies to; its own three send duties. -/
def ghost (K : Dev nD × Fin 7 → ℕ) (c : Dev nD) : sProp 𝕄 :=
  iprop(invs m K c
    ∗ (bigSep Finset.univ fun i : Fin 7 => atPos ER (kcell (c, i)) 0 ∅ 0)
    ∗ (bigSep Finset.univ fun ck : Dev nD × Fin 7 => reached ER (kcell ck) 0)
    ∗ dutyTok ER (barCell (pk c 2)) 0 2 ∗ dutyTok ER (barCell (pk c 1)) 0 3 ∗ dutyTok ER (barCell (pk c 3)) 0 1
    ∗ dutyTok ER (recvCell (pk c 1) 0) 0 0 ∗ dutyTok ER (recvCell (pk c 2) 1) 0 0 ∗ dutyTok ER (recvCell (pk c 3) 2) 0 0
    ∗ dutyTok ER (sendCell c 0) 0 0 ∗ dutyTok ER (sendCell c 1) 0 0 ∗ dutyTok ER (sendCell c 2) 0 0)

/-- What device c's body starts from: that at some names, its launch credit (its barrier's three units, its three receive
    cells' credits) and the level facts. -/
def start (c : Dev nD) : sProp 𝕄 :=
  iprop((∃ K, ghost m K c) ∗ cred (tallyAt (barCell c) () 3)
    ∗ cred (tallyAt (recvCell c 0) () N) ∗ cred (tallyAt (recvCell c 1) () N) ∗ cred (tallyAt (recvCell c 2) () N) ∗ levAts L lv)

/-- The scratch whole at some contents. -/
def scrAny (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m c ∗ scrAny c)
/-- After the point: the scratch whole again, the six own cells at zero, closed (the barrier cell is the runtime's). -/
def Φ₁ (c : Dev nD) : sProp 𝕄 := iprop(scrAny c ∗ bigSep Finset.univ fun i : Fin 6 => semVal ((c : Thread nD τ), osem i) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outVal m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Proto

end
-- ==== Proof.Tables.lean ====
/- The schedule's tables read at each cell: which duties a cell has, what each contributes and hands over; and the
   level facts that make each wait admissible (barrier below receive; send and staging waits owe nothing above them). -/
import proofs.«900519_g7700000000000520_dist_diff_noisepred_hshard_i_b2_h64_w64_c64_v7x_i4_bf16_1_alg».proof.Proof.Proto

noncomputable section

namespace Cert.KernelIdeal.Proto

open Cert.KernelIdeal Cert.KernelIdeal.Gen Cert.KernelIdeal.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Sched
variable (c : Dev nD)

/-! The semaphores of the exchange are pairwise distinct: the barrier is a regular semaphore, the six others are DMA
    semaphores at six different indices. -/
private theorem send_ne_bar (j : Fin 3) : (SemLoc.dma (sendSem j) : SemLoc sig) ≠ .reg barS := fun h => by cases h
private theorem recv_ne_bar (j : Fin 3) : (SemLoc.dma (recvSem j) : SemLoc sig) ≠ .reg barS := fun h => by cases h
private theorem send_ne_recv (j k : Fin 3) : (SemLoc.dma (sendSem j) : SemLoc sig) ≠ .dma (recvSem k) := by revert j k; decide
private theorem recv_ne_recv (j k : Fin 3) (h : j ≠ k) : (SemLoc.dma (recvSem j) : SemLoc sig) ≠ .dma (recvSem k) := by revert j k; decide
private theorem send_ne_send (j k : Fin 3) (h : j ≠ k) : (SemLoc.dma (sendSem j) : SemLoc sig) ≠ .dma (sendSem k) := by revert j k; decide
/-- Send semaphore j is own semaphore j, receive semaphore j is own semaphore 3 + j. -/
private theorem send_osem (j : Fin 3) : (SemLoc.dma (sendSem j) : SemLoc sig) = osem ⟨j.val, by omega⟩ := by revert j; decide
private theorem recv_osem (j : Fin 3) : (SemLoc.dma (recvSem j) : SemLoc sig) = osem ⟨3 + j.val, by omega⟩ := by revert j; decide

theorem duties_bar : (sched (F := F) m).duties (barCell c) 0 = {1, 2, 3} := by
  dsimp only [sched]; exact if_pos ⟨rfl, rfl, rfl⟩
theorem duties_send (j : Fin 3) : (sched (F := F) m).duties (sendCell c j) 0 = {0} := by
  dsimp only [sched]
  rw [if_neg (fun h => send_ne_bar j h.2.2)]
  exact if_pos ⟨rfl, rfl, ⟨_, send_osem j⟩⟩
theorem duties_recv (j : Fin 3) : (sched (F := F) m).duties (recvCell c j) 0 = {0} := by
  dsimp only [sched]
  rw [if_neg (fun h => recv_ne_bar j h.2.2)]
  exact if_pos ⟨rfl, rfl, ⟨_, recv_osem j⟩⟩
theorem duties_later (g : GSem nD τ sig) : ∀ r, 1 ≤ r → (sched (F := F) m).duties g r = ∅ := by
  intro r hr; dsimp only [sched]; rw [if_neg fun h => by omega, if_neg fun h => by omega]

theorem amount_bar (d : Fin 4) : (sched (F := F) m).amount (barCell c) 0 d = 1 := by dsimp only [sched]; exact if_pos rfl
theorem amount_send (j : Fin 3) (d : Fin 4) : (sched (F := F) m).amount (sendCell c j) 0 d = N := by
  dsimp only [sched]; exact if_neg (send_ne_bar j)
theorem amount_recv (j : Fin 3) (d : Fin 4) : (sched (F := F) m).amount (recvCell c j) 0 d = N := by
  dsimp only [sched]; exact if_neg (recv_ne_bar j)

theorem expect_bar : (sched (F := F) m).expect (barCell c) 0 = 3 := by
  unfold Schedule.expect Schedule.amountOf
  rw [duties_bar, Finset.sum_congr rfl fun d _ => amount_bar m c d, Finset.sum_const, smul_eq_mul]
  rfl
theorem expect_send (j : Fin 3) : (sched (F := F) m).expect (sendCell c j) 0 = N := by
  unfold Schedule.expect Schedule.amountOf; rw [duties_send, Finset.sum_singleton, amount_send]
theorem expect_recv (j : Fin 3) : (sched (F := F) m).expect (recvCell c j) 0 = N := by
  unfold Schedule.expect Schedule.amountOf; rw [duties_recv, Finset.sum_singleton, amount_recv]

theorem payload_bar (d : Fin 4) : (sched (F := F) m).payload (barCell c) 0 d = barPay c d := by
  dsimp only [sched]; rw [if_pos rfl]
theorem payload_send (j : Fin 3) (d : Fin 4) : (sched (F := F) m).payload (sendCell c j) 0 d = sendPay m c j := by
  dsimp only [sched]
  rw [if_neg (send_ne_bar j), if_neg (send_ne_recv j 0), if_neg (send_ne_recv j 1), if_neg (send_ne_recv j 2)]
  fin_cases j
  · exact if_pos rfl
  · rw [if_neg (by decide)]; exact if_pos rfl
  · rw [if_neg (by decide), if_neg (by decide)]; exact if_pos rfl
theorem payload_recv (j : Fin 3) (d : Fin 4) : (sched (F := F) m).payload (recvCell c j) 0 d = recvPay m c j := by
  dsimp only [sched]
  rw [if_neg (recv_ne_bar j)]
  fin_cases j
  · exact if_pos rfl
  · rw [if_neg (by decide)]; exact if_pos rfl
  · rw [if_neg (by decide), if_neg (by decide)]; exact if_pos rfl

/-- The rest of the barrier cell's round, no duty taken: the three others' rows. -/
theorem rest_bar : bigSep ((sched (F := F) m).duties (barCell c) 0 \ ∅) (fun d => (sched (F := F) m).payload (barCell c) 0 d)
    = iprop(barPay c 1 ∗ barPay c 2 ∗ barPay c 3) := by
  rw [Finset.sdiff_empty, duties_bar, bigSep_eq_bigSepL_of_eq [1, 2, 3] (by decide) (by decide), bigSepL_cons_cons, bigSepL_cons_cons,
    bigSepL_singleton, payload_bar, payload_bar, payload_bar]
  rfl
theorem rest_send (j : Fin 3) : bigSep ((sched (F := F) m).duties (sendCell c j) 0 \ ∅) (fun d => (sched (F := F) m).payload (sendCell c j) 0 d)
    = sendPay m c j := by
  rw [Finset.sdiff_empty, duties_send, bigSep_singleton, payload_send]
theorem rest_recv (j : Fin 3) : bigSep ((sched (F := F) m).duties (recvCell c j) 0 \ ∅) (fun d => (sched (F := F) m).payload (recvCell c j) 0 d)
    = recvPay m c j := by
  rw [Finset.sdiff_empty, duties_recv, bigSep_singleton, payload_recv]

end Sched

/-! ## Levels -/

/-- The three receive credits a device still owes at its barrier wait sit at the receive cells of the devices it copies to. -/
private theorem O₃_pos {c : Dev nD} {g : GSem nD τ sig} {u : Unit} (h : 0 < O₃ c g u) :
    g = recvCell (pk c 3) 2 ∨ g = recvCell (pk c 1) 0 ∨ g = recvCell (pk c 2) 1 := by
  unfold O₃ O₄ O₅ at h
  simp only [Pi.add_apply, Finsupp.add_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

/-- A cell that device c owes at launch is one of the six it pays. -/
theorem O₀_pos {c : Dev nD} {g : GSem nD τ sig} {u : Unit} (h : 0 < O₀ c g u) :
    g = recvCell (pk c 3) 2 ∨ g = recvCell (pk c 1) 0 ∨ g = recvCell (pk c 2) 1 ∨ g = barCell (pk c 3) ∨ g = barCell (pk c 1) ∨ g = barCell (pk c 2) := by
  unfold O₀ O₁ O₂ O₃ O₄ O₅ at h
  simp only [Pi.add_apply, Finsupp.add_apply, tallyAt_apply] at h
  by_contra hn
  rw [not_or, not_or, not_or, not_or, not_or] at hn
  rw [if_neg (fun h' => hn.1 h'.1), if_neg (fun h' => hn.2.1 h'.1), if_neg (fun h' => hn.2.2.1 h'.1),
    if_neg (fun h' => hn.2.2.2.1 h'.1), if_neg (fun h' => hn.2.2.2.2.1 h'.1), if_neg (fun h' => hn.2.2.2.2.2 h'.1)] at h
  exact Nat.lt_irrefl 0 h

private theorem lv_recv (c' : Dev nD) (j : Fin 3) : lv (recvCell c' j) () = 2 := by
  dsimp only [lv]
  rw [if_neg (fun h => by cases h)]
  fin_cases j
  · exact if_pos (.inl rfl)
  · exact if_pos (.inr (.inl rfl))
  · exact if_pos (.inr (.inr rfl))
private theorem lv_bar (c' : Dev nD) : lv (barCell c') () = 1 := by dsimp only [lv]; exact if_pos rfl

/-- A wait on a semaphore that is neither the barrier nor a receive semaphore is below everything owed at launch (or nothing is owed). -/
theorem mayWait_low (c : Dev nD) (q : DmaSem sig) (hq : ∀ j, SemLoc.dma q ≠ .dma (recvSem j)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl | rfl | rfl <;> exact Finset.mem_singleton_self _)
      (fun p hp => by
        rw [Finset.mem_singleton.mp hp]; dsimp only [lv]
        rw [if_neg (fun h => by cases h), if_neg (fun h => by rcases h with h | h | h <;> exact hq _ h)])
      (fun g u hg => by
        rcases O₀_pos hg with rfl | rfl | rfl | rfl | rfl | rfl
        · rw [lv_recv]; decide
        · rw [lv_recv]; decide
        · rw [lv_recv]; decide
        · rw [lv_bar]; decide
        · rw [lv_bar]; decide
        · rw [lv_bar]; decide)
  · rw [MayWait_zero]; iintro -; iempintro

/-- At its barrier wait a device owes three receive credits only: receive cells, above its barrier cell. -/
theorem mayWait_bar (c : Dev nD) :
    (levAts L lv : sProp 𝕄) ⊢ MayWait (c : Thread nD τ) (.reg barS) () (O₃ c) := by
  exact MayOwe.of_cut (L := L) (lev := lv) 1 (fun p hp => by rw [Finset.mem_singleton.mp hp, L_tc]; exact Finset.mem_singleton_self _)
    (fun g u hg => by rcases O₃_pos hg with rfl | rfl | rfl <;> exact Finset.mem_singleton_self _)
    (fun p hp => by rw [Finset.mem_singleton.mp hp]; dsimp only [lv]; rw [if_pos rfl])
    (fun g u hg => by
      rcases O₃_pos hg with rfl | rfl | rfl
      · rw [lv_recv]; decide
      · rw [lv_recv]; decide
      · rw [lv_recv]; decide)

/-- info: 'Cert.KernelIdeal.Proto.mayWait_bar' depends on axioms: [propext, Classical.choice, Quot.sound] -/
#guard_msgs in #print axioms mayWait_bar

end Cert.KernelIdeal.Proto

end
-- ==== Proof.Geom.lean ====
/- The scratch's four rows: which entries each copy's view and each load's rectangle address, how the whole scratch
   splits into its rows and row 0 into three shares, and what the store of the statistics, a landing, and a load of a
   row say about contents. -/
import proofs.«900519_g7700000000000520_dist_diff_noisepred_hshard_i_b2_h64_w64_c64_v7x_i4_bf16_1_alg».proof.Proof.Proto
import Idealize.ShloMosaic.Lib.Pipeline.Value

noncomputable section

namespace Cert.KernelIdeal.Proto

open Cert.KernelIdeal Cert.KernelIdeal.Gen Cert.KernelIdeal.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which entries -/

/-- A unit rectangle one row deep at row k, whole on the other two axes, addresses exactly row k. -/
theorem set_unit_row (k : Fin 4) (off : Fin 3 → Nat) (h0 : off 0 = k.val) (h1 : off 1 = 0) (h2 : off 2 = 0)
    (inb : ∀ a, off a + S1x4x64.size a ≤ S4x4x64.size a) :
    (Rect.unit (s := S4x4x64) off S1x4x64.size inb).set = rowSet k := by
  ext i
  rw [Rect.mem_set_unit]
  simp only [rowSet, Finset.mem_filter, Finset.mem_univ, true_and]
  constructor
  · intro h
    have h' : off 0 ≤ (i 0).val ∧ (i 0).val < off 0 + 1 := h 0
    rw [h0] at h'
    omega
  · intro h a
    match a with
    | ⟨0, _⟩ =>
      show off 0 ≤ (i 0).val ∧ (i 0).val < off 0 + 1
      rw [h0]; omega
    | ⟨1, _⟩ =>
      have hi : (i 1).val < 4 := (i 1).isLt
      show off 1 ≤ (i 1).val ∧ (i 1).val < off 1 + 4
      rw [h1]; omega
    | ⟨2, _⟩ =>
      have hi : (i 2).val < 64 := (i 2).isLt
      show off 2 ≤ (i 2).val ∧ (i 2).val < off 2 + 64
      rw [h2]; omega

theorem set_r0 : r0.set = rowSet 0 := set_unit_row 0 _ rfl rfl rfl _
theorem set_r1 : r1.set = rowSet 1 := set_unit_row 1 _ rfl rfl rfl _
theorem set_r2 : r2.set = rowSet 2 := set_unit_row 2 _ rfl rfl rfl _
theorem set_r3 : r3.set = rowSet 3 := set_unit_row 3 _ rfl rfl rfl _
theorem set_sl0 : sl0.view.set = rowSet 0 := by
  simp only [Memref.view_squeeze, Memref.view_slice, Memref.view_whole, View.set_reshape, View.set_slice_whole]
  exact set_r0
theorem set_sl1 : sl1.view.set = rowSet 1 := by
  simp only [Memref.view_squeeze, Memref.view_slice, Memref.view_whole, View.set_reshape, View.set_slice_whole]
  exact set_r1
theorem set_sl2 : sl2.view.set = rowSet 2 := by
  simp only [Memref.view_squeeze, Memref.view_slice, Memref.view_whole, View.set_reshape, View.set_slice_whole]
  exact set_r2
theorem set_sl3 : sl3.view.set = rowSet 3 := by
  simp only [Memref.view_squeeze, Memref.view_slice, Memref.view_whole, View.set_reshape, View.set_slice_whole]
  exact set_r3
/-- The entries a load or store of row k through the whole scratch touches. -/
theorem setOn_r0 : scrM.view.setOn r0.toLoadRect.set = rowSet 0 := by
  show Finset.map (Function.Embedding.refl _) r0.toLoadRect.set = _
  rw [Finset.map_refl]; exact set_r0
theorem setOn_r1 : scrM.view.setOn r1.toLoadRect.set = rowSet 1 := by
  show Finset.map (Function.Embedding.refl _) r1.toLoadRect.set = _
  rw [Finset.map_refl]; exact set_r1
theorem setOn_r2 : scrM.view.setOn r2.toLoadRect.set = rowSet 2 := by
  show Finset.map (Function.Embedding.refl _) r2.toLoadRect.set = _
  rw [Finset.map_refl]; exact set_r2
theorem setOn_r3 : scrM.view.setOn r3.toLoadRect.set = rowSet 3 := by
  show Finset.map (Function.Embedding.refl _) r3.toLoadRect.set = _
  rw [Finset.map_refl]; exact set_r3
theorem access_r0_set : (scrM.access r0 : View sig .tc _ _ _).set = rowSet 0 := by
  show ((View.whole cc0_scratch0).slice r0 : View sig .tc _ _ _).set = _
  rw [View.set_slice_whole]; exact set_r0
theorem access_r0_setOn_univ : (scrM.access r0 : View sig .tc _ _ _).setOn Finset.univ = rowSet 0 := by
  rw [View.setOn_univ]; exact access_r0_set

theorem rowSet_disjoint (k k' : Fin 4) (h : k ≠ k') : Disjoint (rowSet k) (rowSet k') := by
  unfold rowSet
  rw [Finset.disjoint_filter]
  intro i _ hk hk'
  exact h (Fin.ext (hk.symm.trans hk'))
theorem rowSet_cover : (Finset.univ : Finset S4x4x64.Idx) = (Finset.univ : Finset (Fin 4)).biUnion rowSet := by
  ext i
  simp only [Finset.mem_univ, Finset.mem_biUnion, true_and, true_iff]
  exact ⟨⟨(i 0).val, (i 0).isLt⟩, by simp only [rowSet, Finset.mem_filter, Finset.mem_univ, true_and]⟩

/-! ## Splitting and joining -/

/-- Four things indexed by the four rows, one after the other. -/
theorem bigSep_rows (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The whole scratch is its four rows. -/
theorem scr_split (c : Dev nD) (f : Buf (Elt F) ((c : Thread nD τ).loc cc0_scratch0)) :
    ((((c : Thread nD τ).loc cc0_scratch0) ↦{fullShare} f : sProp 𝕄))
      ⊣⊢ iprop(rowPts c 0 fullShare f ∗ rowPts c 1 fullShare f ∗ rowPts c 2 fullShare f ∗ rowPts c 3 fullShare f) := by
  have h : ((((c : Thread nD τ).loc cc0_scratch0) ↦[(Finset.univ : Finset (Fin 4)).biUnion rowSet]{fullShare} f : sProp 𝕄))
      = bigSep Finset.univ fun k => rowPts c k fullShare f :=
    pointsTo_biUnion _ _ fun k _ k' _ hk => rowSet_disjoint k k' hk
  rw [← rowSet_cover, bigSep_rows] at h
  rw [h]
/-- Four rows at whatever contents are the whole scratch at some contents. -/
theorem scr_join (c : Dev nD) (f0 f1 f2 f3 : Buf (Elt F) ((c : Thread nD τ).loc cc0_scratch0)) :
    iprop(rowPts c 0 fullShare f0 ∗ rowPts c 1 fullShare f1 ∗ rowPts c 2 fullShare f2 ∗ rowPts c 3 fullShare f3) ⊢ (scrAny c : sProp 𝕄) := by
  have h := pointsTo_biUnion_join (nD := nD) (τ := τ) (sig := sig) (Ix := Unit) (Val := Elt F) (Name := ℕ) (U := UU) (Lvl := ℕ)
    (ℓ := (c : Thread nD τ).loc cc0_scratch0) (q := fullShare) (Finset.univ : Finset (Fin 4)) rowSet
    (fun k => match k with | ⟨0, _⟩ => f0 | ⟨1, _⟩ => f1 | ⟨2, _⟩ => f2 | ⟨3, _⟩ => f3) f0
    fun k _ k' _ hk => rowSet_disjoint k k' hk
  rw [bigSep_rows, ← rowSet_cover] at h
  refine BIBase.Entails.trans h ?_
  iintro ⟨%g, _, H⟩
  unfold scrAny
  iexists g
  iexact H
/-- Row 0 under the full share is row 0 under the three parts. -/
theorem row0_shares (c : Dev nD) (f : Buf (Elt F) ((c : Thread nD τ).loc cc0_scratch0)) :
    (rowPts c 0 fullShare f : sProp 𝕄) ⊣⊢ iprop(rowPts c 0 (sh 0) f ∗ rowPts c 0 (sh 1) f ∗ rowPts c 0 (sh 2) f) := by
  have e0 : sh 0 = fullShare.left := rfl
  have e1 : sh 1 = fullShare.right.left := rfl
  have e2 : sh 2 = fullShare.right.right := rfl
  rw [e0, e1, e2]
  unfold rowPts
  exact (pointsTo_share (PosShare.mem_left_op_right fullShare)).trans
    (sep_congr_right (pointsTo_share (PosShare.mem_left_op_right fullShare.right)))

/-! ## Contents -/

/-- The canonical contents at an entry of a row, read through a one-row rectangle whole on axes 1 and 2: the statistics
    at the rectangle's own index (the row offset plays no part). -/
theorem rowsOf_emb (c : Dev nD) (x : Vec F S2x64x64x64 .f32) (off : Fin 3 → Nat) (h1 : off 1 = 0) (h2 : off 2 = 0)
    (inb : ∀ a, off a + S1x4x64.size a ≤ S4x4x64.size a) (y : S1x4x64.Idx) :
    rowsOf c x ((Rect.unit (s := S4x4x64) off S1x4x64.size inb).emb y) = stat x y := by
  unfold rowsOf
  congr 1
  funext a
  match a with
  | ⟨0, _⟩ =>
    have hy : (y 0).val < 1 := (y 0).isLt
    exact Fin.ext (by show 0 = (y 0).val; omega)
  | ⟨1, _⟩ => exact Fin.ext (by show off 1 + 1 * (y 1).val = (y 1).val; omega)
  | ⟨2, _⟩ => exact Fin.ext (by show off 2 + 1 * (y 2).val = (y 2).val; omega)

/-- After the statistics are stored to row 0, row 0 holds them. -/
theorem store_row0 (c : Dev nD) (f : Buf (Elt F) ((c : Thread nD τ).loc cc0_scratch0)) (x : Vec F S2x64x64x64 .f32) :
    ∀ i ∈ rowSet 0, ((scrM.access r0 : View sig .tc _ _ _).write (Elt F) f (stat x) Finset.univ) i = rowsOf c x i := by
  intro i hi
  rw [← access_r0_set] at hi
  obtain ⟨y, rfl⟩ := View.exists_emb_of_mem_set _ hi
  rw [View.write_emb_of_mem _ _ (Finset.mem_univ y)]
  exact (rowsOf_emb c x _ rfl rfl _ y).symm

/-- A copy of the sender's row 0 landing in row k of the receiver: the row then holds the sender's statistics. -/
theorem land_row1 (c c' : Dev nD) (fd : Buf (Elt F) ((c : Thread nD τ).loc cc0_scratch0)) (x : Vec F S2x64x64x64 .f32) :
    ∀ i ∈ rowSet 1, (sl1.view.write (Elt F) fd (sl0.view.read (Elt F) (rowsOf c' x)) Finset.univ) i = rowsOf c x i := by
  intro i hi
  rw [← set_sl1] at hi
  obtain ⟨y, rfl⟩ := View.exists_emb_of_mem_set _ hi
  rw [View.write_emb_of_mem _ _ (Finset.mem_univ y)]
  exact (rowsOf_emb c' x _ rfl rfl _ _).trans (rowsOf_emb c x _ rfl rfl _ _).symm
theorem land_row2 (c c' : Dev nD) (fd : Buf (Elt F) ((c : Thread nD τ).loc cc0_scratch0)) (x : Vec F S2x64x64x64 .f32) :
    ∀ i ∈ rowSet 2, (sl2.view.write (Elt F) fd (sl0.view.read (Elt F) (rowsOf c' x)) Finset.univ) i = rowsOf c x i := by
  intro i hi
  rw [← set_sl2] at hi
  obtain ⟨y, rfl⟩ := View.exists_emb_of_mem_set _ hi
  rw [View.write_emb_of_mem _ _ (Finset.mem_univ y)]
  exact (rowsOf_emb c' x _ rfl rfl _ _).trans (rowsOf_emb c x _ rfl rfl _ _).symm
theorem land_row3 (c c' : Dev nD) (fd : Buf (Elt F) ((c : Thread nD τ).loc cc0_scratch0)) (x : Vec F S2x64x64x64 .f32) :
    ∀ i ∈ rowSet 3, (sl3.view.write (Elt F) fd (sl0.view.read (Elt F) (rowsOf c' x)) Finset.univ) i = rowsOf c x i := by
  intro i hi
  rw [← set_sl3] at hi
  obtain ⟨y, rfl⟩ := View.exists_emb_of_mem_set _ hi
  rw [View.write_emb_of_mem _ _ (Finset.mem_univ y)]
  exact (rowsOf_emb c' x _ rfl rfl _ _).trans (rowsOf_emb c x _ rfl rfl _ _).symm

/-- A load of row k of a scratch whose rows hold the statistics of x reads them. -/
theorem load_row0 (c : Dev nD) (x : Vec F S2x64x64x64 .f32) : scrM.view.readAt (Elt F) r0.toLoadRect (rowsOf c x) = stat x :=
  funext fun y => rowsOf_emb c x _ rfl rfl _ y
theorem load_row1 (c : Dev nD) (x : Vec F S2x64x64x64 .f32) : scrM.view.readAt (Elt F) r1.toLoadRect (rowsOf c x) = stat x :=
  funext fun y => rowsOf_emb c x _ rfl rfl _ y
theorem load_row2 (c : Dev nD) (x : Vec F S2x64x64x64 .f32) : scrM.view.readAt (Elt F) r2.toLoadRect (rowsOf c x) = stat x :=
  funext fun y => rowsOf_emb c x _ rfl rfl _ y
theorem load_row3 (c : Dev nD) (x : Vec F S2x64x64x64 .f32) : scrM.view.readAt (Elt F) r3.toLoadRect (rowsOf c x) = stat x :=
  funext fun y => rowsOf_emb c x _ rfl rfl _ y

/-- info: 'Cert.KernelIdeal.Proto.scr_split' depends on axioms: [propext, Classical.choice, Quot.sound] -/
#guard_msgs in #print axioms scr_split

/-- info: 'Cert.KernelIdeal.Proto.scr_join' depends on axioms: [propext, Classical.choice, Quot.sound] -/
#guard_msgs in #print axioms scr_join

/-- info: 'Cert.KernelIdeal.Proto.row0_shares' depends on axioms: [propext, Classical.choice, Quot.sound] -/
#guard_msgs in #print axioms row0_shares

/-- info: 'Cert.KernelIdeal.Proto.store_row0' depends on axioms: [propext, Classical.choice, Quot.sound] -/
#guard_msgs in #print axioms store_row0

/-- info: 'Cert.KernelIdeal.Proto.land_row3' depends on axioms: [propext, Classical.choice, Quot.sound] -/
#guard_msgs in #print axioms land_row3

/-- info: 'Cert.KernelIdeal.Proto.load_row3' depends on axioms: [propext, Classical.choice, Quot.sound] -/
#guard_msgs in #print axioms load_row3

end Cert.KernelIdeal.Proto

end
-- ==== Proof.Body.lean ====
/- One device's body, stepped from what it holds at entry: three signals, its own statistics stored to row 0, the wait for
   the three others' signals (which bring the rows it will write), three copies of row 0 read under three shares, the
   waits that bring the shares back and the three landed rows, then the loads, the arithmetic and the store of the result. -/
import proofs.«900519_g7700000000000520_dist_diff_noisepred_hshard_i_b2_h64_w64_c64_v7x_i4_bf16_1_alg».proof.Proof.Proto
import proofs.«900519_g7700000000000520_dist_diff_noisepred_hshard_i_b2_h64_w64_c64_v7x_i4_bf16_1_alg».proof.Proof.Tables
import proofs.«900519_g7700000000000520_dist_diff_noisepred_hshard_i_b2_h64_w64_c64_v7x_i4_bf16_1_alg».proof.Proof.Geom

noncomputable section

namespace Cert.KernelIdeal.Proto

open Cert.KernelIdeal Cert.KernelIdeal.Gen Cert.KernelIdeal.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body starts from and ends at -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whole at named contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Entry: the exchange's ghost state at names K, the launch credit, the levels, the scratch at some contents, what is owed,
    and the three staging buffers as the pipeline hands them over. -/
def bodyPre (K : Dev nD × Fin 7 → ℕ) (c : Dev nD) : sProp 𝕄 :=
  iprop((ghost m K c ∗ cred (tallyAt (barCell c) () 3)
      ∗ cred (tallyAt (recvCell c 0) () N) ∗ cred (tallyAt (recvCell c 1) () N) ∗ cred (tallyAt (recvCell c 2) () N) ∗ levAts L lv ∗ scrAny c)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- Exit: the scratch whole, the six own cells closed at zero, nothing owed, the arguments' buffers unchanged and the result's at
    the device's value. -/
def bodyPost (c : Dev nD) : sProp 𝕄 :=
  iprop(Φ₁ c ∗ (dats m ρ 0 c).owesAt () t₀.succ
    ∗ stg c cc0_stg0_0 (xstg m ρ c) ∗ stg c cc0_stg1_0 (wstg m ρ c) ∗ stg c cc0_stg2_0 (outVal m c))

/-! ## Seven positions; the cells by name -/

theorem bigSep_F7 {M : Type} [URA M] (Φ : Fin 7 → sProp M) :
    bigSep Finset.univ Φ = iprop(Φ (0 : Fin 7) ∗ Φ (1 : Fin 7) ∗ Φ (2 : Fin 7) ∗ Φ (3 : Fin 7) ∗ Φ (4 : Fin 7) ∗ Φ (5 : Fin 7) ∗ Φ (6 : Fin 7)) :=
  bigSep_univ_eq_bigSepL [(0 : Fin 7), (1 : Fin 7), (2 : Fin 7), (3 : Fin 7), (4 : Fin 7), (5 : Fin 7), (6 : Fin 7)] (by decide) (by decide) Φ

theorem kcell_0 (c : Dev nD) : kcell (c, (0 : Fin 7)) = barCell c := rfl
theorem kcell_1 (c : Dev nD) : kcell (c, (1 : Fin 7)) = sendCell c 0 := rfl
theorem kcell_2 (c : Dev nD) : kcell (c, (2 : Fin 7)) = sendCell c 1 := rfl
theorem kcell_3 (c : Dev nD) : kcell (c, (3 : Fin 7)) = sendCell c 2 := rfl
theorem kcell_4 (c : Dev nD) : kcell (c, (4 : Fin 7)) = recvCell c 0 := rfl
theorem kcell_5 (c : Dev nD) : kcell (c, (5 : Fin 7)) = recvCell c 1 := rfl
theorem kcell_6 (c : Dev nD) : kcell (c, (6 : Fin 7)) = recvCell c 2 := rfl

/-- Every cell of the exchange has reached round 0: one of them. -/
theorem reached_of_all (ck : Dev nD × Fin 7) :
    (bigSep Finset.univ fun ck : Dev nD × Fin 7 => reached (ER (F := F)) (kcell ck) 0) ⊢ reached (ER (F := F)) (kcell ck) 0 :=
  bigSep_elim (Finset.mem_univ ck)

/-- An addressed copy's destination device, respelt. -/
theorem send_dev {α : Type} {Q : α → sProp 𝕄} (c : Dev nD) {d c' : Dev nD} (hdc : d = c')
    {sp sp' : Space} {s : Shape} {e : EltTy}
    {src : Memref sig .tc sp s e} {dst : Memref sig .tc sp' s e} {hsc : dst.view.ref.isScScratch = false} {sS sem : SemLoc sig}
    {hsrc : src.view.WordExact} {hdst : dst.view.WordExact} {hsem : DmaTarget.Typed sp sem (.remote (Dev.tc d) dst sS hsc)}
    {k : PUnit → Prog (TpuEff nD τ sig (Elt F) Λ₀ .tc) α} {Es : Set ℕ} :
    wp (M := 𝕄) frame (wpE' (defs₀ (F := F)) 𝒱₀ (c : Thread nD τ) none PendingWaitsCtx.empty) Es (.op (.enqueueDma src (.remote (Dev.tc c') dst sS hsc) sem hsrc hdst (hdc ▸ hsem)) k) Q
      ⊢ wp (M := 𝕄) frame (wpE' (defs₀ (F := F)) 𝒱₀ (c : Thread nD τ) none PendingWaitsCtx.empty) Es (.op (.enqueueDma src (.remote (Dev.tc d) dst sS hsc) sem hsrc hdst hsem) k) Q := by
  subst hdc; exact BI.Entails.refl _

/-! ## The staged arguments as the pipeline hands them over -/

theorem xstg_eq (c : Dev nD) : xstg m ρ c = X m c := by
  unfold xstg
  exact Memref.read_access_unit_zero (Elt F) main_arg0 (funext fun a => Nat.zero_mul _) _ _
theorem wstg_eq (c : Dev nD) : wstg m ρ c = Wp m c := by
  unfold wstg
  exact Memref.read_access_unit_zero (Elt F) main_arg1 (funext fun a => Nat.zero_mul _) _ _
theorem before_x (c : Dev nD) (d) : (dats m ρ 0 c).before (0 : Fin 3) t₀ d = X m c := by
  unfold Dat.before; rw [if_pos (show (cfg0.win 0).fetch t₀ = true from rfl)]
  exact xstg_eq m ρ c
theorem before_w (c : Dev nD) (d) : (dats m ρ 0 c).before (1 : Fin 3) t₀ d = Wp m c := by
  unfold Dat.before; rw [if_pos (show (cfg0.win 1).fetch t₀ = true from rfl)]
  exact wstg_eq m ρ c

/-- A load of a whole staging buffer reads its contents. -/
theorem read_x (c : Dev nD) (f : Buf (Elt F) ((c : Thread nD τ).loc cc0_stg0_0)) :
    xM.view.readAt (Elt F) (Rect.unit (s := S2x64x64x64) ![0, 0, 0, 0] S2x64x64x64.size Facts₀.inb_S2x64x64x64_S2x64x64x64_0_0_0_0).toLoadRect f = f :=
  Memref.readAt_unit_zero (Elt F) cc0_stg0_0 (by funext a; fin_cases a <;> rfl) _ f
theorem read_w (c : Dev nD) (f : Buf (Elt F) ((c : Thread nD τ).loc cc0_stg1_0)) :
    wM.view.readAt (Elt F) (Rect.unit (s := S64x128) ![0, 0] S64x128.size Facts₀.inb_S64x128_S64x128_0_0).toLoadRect f = f :=
  Memref.readAt_unit_zero (Elt F) cc0_stg1_0 (by funext a; fin_cases a <;> rfl) _ f

/-! ## The rows and the round's payloads, spelt as the points-to they are -/

theorem scr_split' (c : Dev nD) (f : Buf (Elt F) ((c : Thread nD τ).loc cc0_scratch0)) :
    ((((c : Thread nD τ).loc cc0_scratch0) ↦{fullShare} f : sProp 𝕄))
      ⊢ iprop((((c : Thread nD τ).loc cc0_scratch0) ↦[rowSet 0]{fullShare} f) ∗ (((c : Thread nD τ).loc cc0_scratch0) ↦[rowSet 1]{fullShare} f)
          ∗ (((c : Thread nD τ).loc cc0_scratch0) ↦[rowSet 2]{fullShare} f) ∗ (((c : Thread nD τ).loc cc0_scratch0) ↦[rowSet 3]{fullShare} f)) :=
  (scr_split c f).1
theorem scr_join' (c : Dev nD) (f0 f1 f2 f3 : Buf (Elt F) ((c : Thread nD τ).loc cc0_scratch0)) :
    iprop((((c : Thread nD τ).loc cc0_scratch0) ↦[rowSet 0]{fullShare} f0) ∗ (((c : Thread nD τ).loc cc0_scratch0) ↦[rowSet 1]{fullShare} f1)
          ∗ (((c : Thread nD τ).loc cc0_scratch0) ↦[rowSet 2]{fullShare} f2) ∗ (((c : Thread nD τ).loc cc0_scratch0) ↦[rowSet 3]{fullShare} f3))
      ⊢ (iprop(∃ f : Buf (Elt F) ((c : Thread nD τ).loc cc0_scratch0), ((c : Thread nD τ).loc cc0_scratch0) ↦{fullShare} f) : sProp 𝕄) :=
  scr_join c f0 f1 f2 f3
theorem row0_split' (c : Dev nD) (f : Buf (Elt F) ((c : Thread nD τ).loc cc0_scratch0)) :
    ((((c : Thread nD τ).loc cc0_scratch0) ↦[rowSet 0]{fullShare} f : sProp 𝕄))
      ⊢ iprop((((c : Thread nD τ).loc cc0_scratch0) ↦[rowSet 0]{sh 0} f) ∗ (((c : Thread nD τ).loc cc0_scratch0) ↦[rowSet 0]{sh 1} f)
          ∗ (((c : Thread nD τ).loc cc0_scratch0) ↦[rowSet 0]{sh 2} f)) :=
  (row0_shares c f).1
theorem row0_join' (c : Dev nD) (f : Buf (Elt F) ((c : Thread nD τ).loc cc0_scratch0)) :
    iprop((((c : Thread nD τ).loc cc0_scratch0) ↦[rowSet 0]{sh 0} f) ∗ (((c : Thread nD τ).loc cc0_scratch0) ↦[rowSet 0]{sh 1} f)
          ∗ (((c : Thread nD τ).loc cc0_scratch0) ↦[rowSet 0]{sh 2} f))
      ⊢ ((((c : Thread nD τ).loc cc0_scratch0) ↦[rowSet 0]{fullShare} f : sProp 𝕄)) :=
  (row0_shares c f).2

/-- What the barrier wait brings: the three others' rows, at some contents. -/
theorem rest_bar' (c : Dev nD) :
    bigSep ((sched (F := F) m).duties (barCell c) 0 \ ∅) (fun d => (sched (F := F) m).payload (barCell c) 0 d)
      ⊢ iprop((∃ f, (((pk c 1 : Dev nD) : Thread nD τ).loc cc0_scratch0) ↦[rowSet 1]{fullShare} f)
          ∗ (∃ f, (((pk c 2 : Dev nD) : Thread nD τ).loc cc0_scratch0) ↦[rowSet 2]{fullShare} f)
          ∗ (∃ f, (((pk c 3 : Dev nD) : Thread nD τ).loc cc0_scratch0) ↦[rowSet 3]{fullShare} f)) :=
  Entails.of_eq (rest_bar m c)
/-- What a send wait brings: its share of row 0. -/
theorem rest_send' (c : Dev nD) (j : Fin 3) :
    bigSep ((sched (F := F) m).duties (sendCell c j) 0 \ ∅) (fun d => (sched (F := F) m).payload (sendCell c j) 0 d)
      ⊢ ((((c : Thread nD τ).loc cc0_scratch0) ↦[rowSet 0]{sh j} (rowsOf c (X m c)) : sProp 𝕄)) :=
  Entails.of_eq (rest_send m c j)
/-- What the receive waits bring: rows 1, 2, 3 holding the statistics of the devices 3, 2, 1 places further. -/
theorem rest_recv0' (c : Dev nD) :
    bigSep ((sched (F := F) m).duties (recvCell c 0) 0 \ ∅) (fun d => (sched (F := F) m).payload (recvCell c 0) 0 d)
      ⊢ ((((c : Thread nD τ).loc cc0_scratch0) ↦[rowSet 1]{fullShare} (rowsOf c (X m (pk c 3))) : sProp 𝕄)) :=
  Entails.of_eq (rest_recv m c 0)
theorem rest_recv1' (c : Dev nD) :
    bigSep ((sched (F := F) m).duties (recvCell c 1) 0 \ ∅) (fun d => (sched (F := F) m).payload (recvCell c 1) 0 d)
      ⊢ ((((c : Thread nD τ).loc cc0_scratch0) ↦[rowSet 2]{fullShare} (rowsOf c (X m (pk c 2))) : sProp 𝕄)) :=
  Entails.of_eq (rest_recv m c 1)
theorem rest_recv2' (c : Dev nD) :
    bigSep ((sched (F := F) m).duties (recvCell c 2) 0 \ ∅) (fun d => (sched (F := F) m).payload (recvCell c 2) 0 d)
      ⊢ ((((c : Thread nD τ).loc cc0_scratch0) ↦[rowSet 3]{fullShare} (rowsOf c (X m (pk c 1))) : sProp 𝕄)) :=
  Entails.of_eq (rest_recv m c 2)

/-- The six own cells closed at zero, as the exit states them. -/
theorem closed_six (c : Dev nD) :
    iprop(semVal (sendCell c 0) 0 ∗ semVal (sendCell c 1) 0 ∗ semVal (sendCell c 2) 0
        ∗ semVal (recvCell c 0) 0 ∗ semVal (recvCell c 1) 0 ∗ semVal (recvCell c 2) 0)
      ⊢ (bigSep Finset.univ fun i : Fin 6 => semVal ((c : Thread nD τ), osem i) 0 : sProp 𝕄) := by
  rw [bigSep_univ_eq_bigSepL [(0 : Fin 6), (1 : Fin 6), (2 : Fin 6), (3 : Fin 6), (4 : Fin 6), (5 : Fin 6)] (by decide) (by decide)]
  exact BI.Entails.refl _

/-- A row held by its entries is the row as a copy addresses it. -/
theorem row_as_sl0 (c : Dev nD) (q : PosShare TreeShare) (f : Buf (Elt F) ((c : Thread nD τ).loc cc0_scratch0)) :
    ((((c : Thread nD τ).loc cc0_scratch0) ↦[rowSet 0]{q} f : sProp 𝕄)) ⊢ (sl0.view.loc (c : Thread nD τ) ↦[sl0.view.set]{q} f) := by
  rw [set_sl0]
theorem row_as_sl1 (c : Dev nD) (q : PosShare TreeShare) (f : Buf (Elt F) ((c : Thread nD τ).loc cc0_scratch0)) :
    ((((c : Thread nD τ).loc cc0_scratch0) ↦[rowSet 1]{q} f : sProp 𝕄)) ⊢ (sl1.view.loc (c : Thread nD τ) ↦[sl1.view.set]{q} f) := by
  rw [set_sl1]
theorem row_as_sl2 (c : Dev nD) (q : PosShare TreeShare) (f : Buf (Elt F) ((c : Thread nD τ).loc cc0_scratch0)) :
    ((((c : Thread nD τ).loc cc0_scratch0) ↦[rowSet 2]{q} f : sProp 𝕄)) ⊢ (sl2.view.loc (c : Thread nD τ) ↦[sl2.view.set]{q} f) := by
  rw [set_sl2]
theorem row_as_sl3 (c : Dev nD) (q : PosShare TreeShare) (f : Buf (Elt F) ((c : Thread nD τ).loc cc0_scratch0)) :
    ((((c : Thread nD τ).loc cc0_scratch0) ↦[rowSet 3]{q} f : sProp 𝕄)) ⊢ (sl3.view.loc (c : Thread nD τ) ↦[sl3.view.set]{q} f) := by
  rw [set_sl3]

/-- The six transfer semaphores as the program spells them. -/
theorem sem_send0 : ((cc0_scratch1.slice (Rect.unit (s := S3) ![0] S1.size Facts₀.inb_S3_S1_0)).squeeze S_ Facts₀.squeezes_S1_S_).sem = sendSem 0 := rfl
theorem sem_send1 : ((cc0_scratch1.slice (Rect.unit (s := S3) ![1] S1.size Facts₀.inb_S3_S1_1)).squeeze S_ Facts₀.squeezes_S1_S_).sem = sendSem 1 := rfl
theorem sem_send2 : ((cc0_scratch1.slice (Rect.unit (s := S3) ![2] S1.size Facts₀.inb_S3_S1_2)).squeeze S_ Facts₀.squeezes_S1_S_).sem = sendSem 2 := rfl
theorem sem_recv0 : ((cc0_scratch2.slice (Rect.unit (s := S3) ![0] S1.size Facts₀.inb_S3_S1_0)).squeeze S_ Facts₀.squeezes_S1_S_).sem = recvSem 0 := rfl
theorem sem_recv1 : ((cc0_scratch2.slice (Rect.unit (s := S3) ![1] S1.size Facts₀.inb_S3_S1_1)).squeeze S_ Facts₀.squeezes_S1_S_).sem = recvSem 1 := rfl
theorem sem_recv2 : ((cc0_scratch2.slice (Rect.unit (s := S3) ![2] S1.size Facts₀.inb_S3_S1_2)).squeeze S_ Facts₀.squeezes_S1_S_).sem = recvSem 2 := rfl

/-- A store over the whole result buffer leaves what is stored. -/
theorem out_stored (c : Dev nD) (f : Buf (Elt F) ((c : Thread nD τ).loc cc0_stg2_0)) (w : Vec F S2x64x64x128 .bf16) :
    (oM.access (Rect.unit (s := S2x64x64x128) ![0, 0, 0, 0] S2x64x64x128.size Facts₀.inb_S2x64x64x128_S2x64x64x128_0_0_0_0) : View sig .tc _ _ _).write (Elt F) f w Finset.univ = w :=
  Memref.write_access_unit_zero_univ (Elt F) cc0_stg2_0 (by funext a; fin_cases a <;> rfl) _ f w

set_option maxHeartbeats 1600000 in
/-- One device's body from entry to exit. -/
theorem sound_body (K : Dev nD × Fin 7 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
        (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _) cc0_scratch1 cc0_scratch2) Kt := by
  unfold bodyPre bodyPost ghost invs
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId, bind_assoc,
    dev1_eq, dev2_eq, dev3_eq, dev4_eq, dev5_eq, dev6_eq,
    sem_send0, sem_send1, sem_send2, sem_recv0, sem_recv1, sem_recv2]
  unfold scrAny
  rw [bigSep_F7, bigSep_F7]
  simp only [kcell_0, kcell_1, kcell_2, kcell_3, kcell_4, kcell_5, kcell_6]
  iintro ⟨⟨⟨⟨⟨⟨#I0, #I1, #I2, #I3, #I4, #I5, #I6⟩, #Ib1, #Ib2, #Ib3, #Ir1, #Ir2, #Ir3⟩, ⟨A0, A1, A2, A3, A4, A5, A6⟩, #Hreach, Tb2, Tb1, Tb3, Tr1, Tr2, Tr3, Ts0, Ts1, Ts2⟩, Cbar, Cr0, Cr1, Cr2, #Hlev, ⟨%f0, Hscr⟩⟩, ⟨%W, %hW, HO⟩, ⟨%d0, %fx, %hfx, Hx⟩, ⟨%d1, %fw, %hfw, Hw⟩, ⟨%d2, %fo, %hfo, Hout⟩⟩, HK⟩
  ihave #Hrb2 := (reached_of_all (pk c 2, (0 : Fin 7))) $$ Hreach
  ihave #Hrb1 := (reached_of_all (pk c 1, (0 : Fin 7))) $$ Hreach
  ihave #Hrb3 := (reached_of_all (pk c 3, (0 : Fin 7))) $$ Hreach
  ihave #Hrs0 := (reached_of_all (c, (1 : Fin 7))) $$ Hreach
  ihave #Hrs1 := (reached_of_all (c, (2 : Fin 7))) $$ Hreach
  ihave #Hrs2 := (reached_of_all (c, (3 : Fin 7))) $$ Hreach
  ihave #Hrr1 := (reached_of_all (pk c 1, (4 : Fin 7))) $$ Hreach
  ihave #Hrr2 := (reached_of_all (pk c 2, (5 : Fin 7))) $$ Hreach
  ihave #Hrr3 := (reached_of_all (pk c 3, (6 : Fin 7))) $$ Hreach
  simp only [kcell_0, kcell_1, kcell_2, kcell_3, kcell_4, kcell_5, kcell_6]
  icases (scr_split' c f0) $$ Hscr with ⟨R0, R1, R2, R3⟩
  have hx0 : fx = X m c := hfx.trans (before_x m ρ c d0)
  have hw0 : fw = Wp m c := hfw.trans (before_w m ρ c d1)
  subst hx0; subst hw0
  -- the three signals: each hands the receiver the row of this device's scratch that its copy will write
  iapply (Rounds.wp_signal 𝒱₀ ER (sched m) (c : Thread nD τ) none (dst := (pk c 2 : Thread nD τ)) (sem := barS) (r := 0) (d := (2 : Fin 4)) (k' := 1)
    (by rw [duties_bar]; decide) (amount_bar m (pk c 2) 2) () (O₁ c) rfl) $$ [HO Tb2 R2]
  · isplitr; · iexact Ib2
    isplitl [HO]; · iexact HO
    isplitl [Tb2]; · iexact Tb2
    isplitl [R2]
    · rw [payload_bar]; unfold barPay rowPts; rw [show pk (pk c 2) ((2 : Fin 4) : ℕ) = c from pk_inv2 c]; iexists f0; iexact R2
    iexact Hrb2
  iintro HO
  iapply (Rounds.wp_signal 𝒱₀ ER (sched m) (c : Thread nD τ) none (dst := (pk c 1 : Thread nD τ)) (sem := barS) (r := 0) (d := (3 : Fin 4)) (k' := 1)
    (by rw [duties_bar]; decide) (amount_bar m (pk c 1) 3) () (O₂ c) rfl) $$ [HO Tb1 R3]
  · isplitr; · iexact Ib1
    isplitl [HO]; · iexact HO
    isplitl [Tb1]; · iexact Tb1
    isplitl [R3]
    · rw [payload_bar]; unfold barPay rowPts; rw [show pk (pk c 1) ((3 : Fin 4) : ℕ) = c from pk_inv1 c]; iexists f0; iexact R3
    iexact Hrb1
  iintro HO
  iapply (Rounds.wp_signal 𝒱₀ ER (sched m) (c : Thread nD τ) none (dst := (pk c 3 : Thread nD τ)) (sem := barS) (r := 0) (d := (1 : Fin 4)) (k' := 1)
    (by rw [duties_bar]; decide) (amount_bar m (pk c 3) 1) () (O₃ c) rfl) $$ [HO Tb3 R1]
  · isplitr; · iexact Ib3
    isplitl [HO]; · iexact HO
    isplitl [Tb3]; · iexact Tb3
    isplitl [R1]
    · rw [payload_bar]; unfold barPay rowPts; rw [show pk (pk c 3) ((1 : Fin 4) : ℕ) = c from pk_inv3 c]; iexists f0; iexact R1
    iexact Hrb3
  iintro HO
  -- the device's own block is read; its statistics go to row 0
  iapply (wp_load 𝒱₀ (c : Thread nD τ) none Set.univ (m := xM) (S := Finset.univ) (q := fullShare) (f := X m c) (Finset.subset_univ _)) $$ Hx
  iintro Hx
  rw [read_x c]
  iapply (wp_load 𝒱₀ (c : Thread nD τ) none Set.univ (m := scrM) (S := rowSet 0) (q := fullShare) (f := f0) (Finset.subset_of_eq setOn_r0)) $$ R0
  iintro R0
  iapply (wp_store 𝒱₀ (c : Thread nD τ) none Set.univ (m := scrM) (r := r0) (S := rowSet 0) (f := f0) (Finset.subset_of_eq access_r0_setOn_univ)) $$ R0
  iintro R0
  ihave R0 := (Entails.of_eq (pointsTo_congr (store_row0 c f0 (X m c)))) $$ R0
  -- the wait for the three others' signals: their rows come
  iapply (Rounds.wp_wait_rest_token 𝒱₀ ER (sched m) (c : Thread nD τ) none (wpE_semWait_eq 𝒱₀ (c : Thread nD τ) none Set.univ) (Set.mem_univ (K (c, 0)))
    () (R := 0) (T := ∅) (m := 0) (k' := 3) (by rw [expect_bar])) $$ [Cbar HO A0]
  · isplitr; · iexact I0
    isplitl [Cbar]; · iexact Cbar
    isplitl [HO]; · iexact HO
    isplitr; · iapply (mayWait_bar c); iexact Hlev
    iexact A0
  iintro ⟨HO, A0, -, Hrest⟩
  ihave Hp := (rest_bar' m c) $$ Hrest
  icases Hp with ⟨⟨%g1, P1⟩, ⟨%g2, P2⟩, ⟨%g3, P3⟩⟩
  icases (row0_split' c (rowsOf c (X m c))) $$ R0 with ⟨S0, S1, S2⟩
  -- the three copies of row 0, each read under its own share, into the rows the others handed over
  iapply (send_dev c (dev4_eq c))
  iapply (Rounds.wp_send_pointsTo 𝒱₀ ER (sched m) (c : Thread nD τ) none (c' := (pk c 2 : Thread nD τ)) (src := sl0) (dst := sl2)
    (sS := .dma (sendSem 1)) (sem := .dma (recvSem 1)) (q := sh 1) (fs := rowsOf c (X m c)) (fd := g2) (r₁ := 0) (r₂ := 0) (d₁ := (0 : Fin 4)) (d₂ := (0 : Fin 4))
    (by rw [duties_send]; exact Finset.mem_singleton_self _) (by rw [duties_recv]; exact Finset.mem_singleton_self _)
    () () N rfl (amount_send m c 1 0) (amount_recv m (pk c 2) 1 0) (O₄ c) rfl
    (by rw [payload_send, set_sl0]; exact BI.Entails.refl _)
    (by rw [payload_recv, set_sl2, pointsTo_congr (land_row2 (pk c 2) c g2 (X m c))]
        unfold recvPay rowPts
        rw [show pk (pk c 2) (3 - ((1 : Fin 3) : ℕ)) = c from pk_inv2 c]
        exact BI.Entails.refl _)) $$ [S1 P2 HO Ts1 Tr2]
  · isplitr; · iexact I2
    isplitr; · iexact Ir2
    isplitl [S1]; · iapply (row_as_sl0 c (sh 1) (rowsOf c (X m c))); iexact S1
    isplitl [P2]; · iapply (row_as_sl2 (pk c 2) fullShare g2); iexact P2
    isplitl [HO]; · iexact HO
    isplitl [Ts1]; · iexact Ts1
    isplitr; · iexact Hrs1
    isplitl [Tr2]; · iexact Tr2
    iexact Hrr2
  iintro ⟨Cs1, HO⟩
  iapply (send_dev c (dev5_eq c))
  iapply (Rounds.wp_send_pointsTo 𝒱₀ ER (sched m) (c : Thread nD τ) none (c' := (pk c 1 : Thread nD τ)) (src := sl0) (dst := sl1)
    (sS := .dma (sendSem 0)) (sem := .dma (recvSem 0)) (q := sh 0) (fs := rowsOf c (X m c)) (fd := g1) (r₁ := 0) (r₂ := 0) (d₁ := (0 : Fin 4)) (d₂ := (0 : Fin 4))
    (by rw [duties_send]; exact Finset.mem_singleton_self _) (by rw [duties_recv]; exact Finset.mem_singleton_self _)
    () () N rfl (amount_send m c 0 0) (amount_recv m (pk c 1) 0 0) (O₅ c) rfl
    (by rw [payload_send, set_sl0]; exact BI.Entails.refl _)
    (by rw [payload_recv, set_sl1, pointsTo_congr (land_row1 (pk c 1) c g1 (X m c))]
        unfold recvPay rowPts
        rw [show pk (pk c 1) (3 - ((0 : Fin 3) : ℕ)) = c from pk_inv1 c]
        exact BI.Entails.refl _)) $$ [S0 P1 HO Ts0 Tr1]
  · isplitr; · iexact I1
    isplitr; · iexact Ir1
    isplitl [S0]; · iapply (row_as_sl0 c (sh 0) (rowsOf c (X m c))); iexact S0
    isplitl [P1]; · iapply (row_as_sl1 (pk c 1) fullShare g1); iexact P1
    isplitl [HO]; · iexact HO
    isplitl [Ts0]; · iexact Ts0
    isplitr; · iexact Hrs0
    isplitl [Tr1]; · iexact Tr1
    iexact Hrr1
  iintro ⟨Cs0, HO⟩
  iapply (send_dev c (dev6_eq c))
  iapply (Rounds.wp_send_pointsTo 𝒱₀ ER (sched m) (c : Thread nD τ) none (c' := (pk c 3 : Thread nD τ)) (src := sl0) (dst := sl3)
    (sS := .dma (sendSem 2)) (sem := .dma (recvSem 2)) (q := sh 2) (fs := rowsOf c (X m c)) (fd := g3) (r₁ := 0) (r₂ := 0) (d₁ := (0 : Fin 4)) (d₂ := (0 : Fin 4))
    (by rw [duties_send]; exact Finset.mem_singleton_self _) (by rw [duties_recv]; exact Finset.mem_singleton_self _)
    () () N rfl (amount_send m c 2 0) (amount_recv m (pk c 3) 2 0) 0 (zero_add _).symm
    (by rw [payload_send, set_sl0]; exact BI.Entails.refl _)
    (by rw [payload_recv, set_sl3, pointsTo_congr (land_row3 (pk c 3) c g3 (X m c))]
        unfold recvPay rowPts
        rw [show pk (pk c 3) (3 - ((2 : Fin 3) : ℕ)) = c from pk_inv3 c]
        exact BI.Entails.refl _)) $$ [S2 P3 HO Ts2 Tr3]
  · isplitr; · iexact I3
    isplitr; · iexact Ir3
    isplitl [S2]; · iapply (row_as_sl0 c (sh 2) (rowsOf c (X m c))); iexact S2
    isplitl [P3]; · iapply (row_as_sl3 (pk c 3) fullShare g3); iexact P3
    isplitl [HO]; · iexact HO
    isplitl [Ts2]; · iexact Ts2
    isplitr; · iexact Hrs2
    isplitl [Tr3]; · iexact Tr3
    iexact Hrr3
  iintro ⟨Cs2, HO⟩
  -- the projection is read
  iapply (wp_load 𝒱₀ (c : Thread nD τ) none Set.univ (m := wM) (S := Finset.univ) (q := fullShare) (f := Wp m c) (Finset.subset_univ _)) $$ Hw
  iintro Hw
  rw [read_w c]
  -- the shares of row 0 come back as the copies have been read out
  iapply (Rounds.wp_wait_rest_token 𝒱₀ ER (sched m) (c : Thread nD τ) none (wpE_waitDma2_eq 𝒱₀ (c : Thread nD τ) none Set.univ) (Set.mem_univ (K (c, 2)))
    () (R := 0) (T := ∅) (m := 0) (Eq.trans (by rfl) (expect_send m c 1).symm)) $$ [Cs1 HO A2]
  · isplitr; · iexact I2
    isplitl [Cs1]; · rw [show (sl0 : Memref sig .tc .vmem S4x64 .f32).view.dmaCredit = N from rfl]; iexact Cs1
    isplitl [HO]; · iexact HO
    isplitr; · rw [MayWait_zero]; iempintro
    iexact A2
  iintro ⟨HO, A2, -, Hrest⟩
  ihave S1 := (rest_send' m c 1) $$ Hrest
  iapply (Rounds.wp_wait_rest_token 𝒱₀ ER (sched m) (c : Thread nD τ) none (wpE_waitDma2_eq 𝒱₀ (c : Thread nD τ) none Set.univ) (Set.mem_univ (K (c, 1)))
    () (R := 0) (T := ∅) (m := 0) (Eq.trans (by rfl) (expect_send m c 0).symm)) $$ [Cs0 HO A1]
  · isplitr; · iexact I1
    isplitl [Cs0]; · rw [show (sl0 : Memref sig .tc .vmem S4x64 .f32).view.dmaCredit = N from rfl]; iexact Cs0
    isplitl [HO]; · iexact HO
    isplitr; · rw [MayWait_zero]; iempintro
    iexact A1
  iintro ⟨HO, A1, -, Hrest⟩
  ihave S0 := (rest_send' m c 0) $$ Hrest
  iapply (Rounds.wp_wait_rest_token 𝒱₀ ER (sched m) (c : Thread nD τ) none (wpE_waitDma2_eq 𝒱₀ (c : Thread nD τ) none Set.univ) (Set.mem_univ (K (c, 3)))
    () (R := 0) (T := ∅) (m := 0) (Eq.trans (by rfl) (expect_send m c 2).symm)) $$ [Cs2 HO A3]
  · isplitr; · iexact I3
    isplitl [Cs2]; · rw [show (sl0 : Memref sig .tc .vmem S4x64 .f32).view.dmaCredit = N from rfl]; iexact Cs2
    isplitl [HO]; · iexact HO
    isplitr; · rw [MayWait_zero]; iempintro
    iexact A3
  iintro ⟨HO, A3, -, Hrest⟩
  ihave S2 := (rest_send' m c 2) $$ Hrest
  -- the three others' statistics have landed
  iapply (Rounds.wp_wait_rest_token 𝒱₀ ER (sched m) (c : Thread nD τ) none (wpE_waitDma2_eq 𝒱₀ (c : Thread nD τ) none Set.univ) (Set.mem_univ (K (c, 5)))
    () (R := 0) (T := ∅) (m := 0) (Eq.trans (by rfl) (expect_recv m c 1).symm)) $$ [Cr1 HO A5]
  · isplitr; · iexact I5
    isplitl [Cr1]; · rw [show (sl2 : Memref sig .tc .vmem S4x64 .f32).view.dmaCredit = N from rfl]; iexact Cr1
    isplitl [HO]; · iexact HO
    isplitr; · rw [MayWait_zero]; iempintro
    iexact A5
  iintro ⟨HO, A5, -, Hrest⟩
  ihave Q2 := (rest_recv1' m c) $$ Hrest
  iapply (Rounds.wp_wait_rest_token 𝒱₀ ER (sched m) (c : Thread nD τ) none (wpE_waitDma2_eq 𝒱₀ (c : Thread nD τ) none Set.univ) (Set.mem_univ (K (c, 4)))
    () (R := 0) (T := ∅) (m := 0) (Eq.trans (by rfl) (expect_recv m c 0).symm)) $$ [Cr0 HO A4]
  · isplitr; · iexact I4
    isplitl [Cr0]; · rw [show (sl1 : Memref sig .tc .vmem S4x64 .f32).view.dmaCredit = N from rfl]; iexact Cr0
    isplitl [HO]; · iexact HO
    isplitr; · rw [MayWait_zero]; iempintro
    iexact A4
  iintro ⟨HO, A4, -, Hrest⟩
  ihave Q1 := (rest_recv0' m c) $$ Hrest
  iapply (Rounds.wp_wait_rest_token 𝒱₀ ER (sched m) (c : Thread nD τ) none (wpE_waitDma2_eq 𝒱₀ (c : Thread nD τ) none Set.univ) (Set.mem_univ (K (c, 6)))
    () (R := 0) (T := ∅) (m := 0) (Eq.trans (by rfl) (expect_recv m c 2).symm)) $$ [Cr2 HO A6]
  · isplitr; · iexact I6
    isplitl [Cr2]; · rw [show (sl3 : Memref sig .tc .vmem S4x64 .f32).view.dmaCredit = N from rfl]; iexact Cr2
    isplitl [HO]; · iexact HO
    isplitr; · rw [MayWait_zero]; iempintro
    iexact A6
  iintro ⟨HO, A6, -, Hrest⟩
  ihave Q3 := (rest_recv2' m c) $$ Hrest
  ihave R0 := (row0_join' c (rowsOf c (X m c))) $$ [S0 S1 S2]
  · isplitl [S0]; · iexact S0
    isplitl [S1]; · iexact S1
    iexact S2
  -- the four rows are read: the device's own statistics and the three others'
  iapply (wp_load 𝒱₀ (c : Thread nD τ) none Set.univ (m := scrM) (S := rowSet 0) (q := fullShare) (f := rowsOf c (X m c)) (Finset.subset_of_eq setOn_r0)) $$ R0
  iintro R0
  rw [load_row0 c (X m c)]
  iapply (wp_load 𝒱₀ (c : Thread nD τ) none Set.univ (m := scrM) (S := rowSet 1) (q := fullShare) (f := rowsOf c (X m (pk c 3))) (Finset.subset_of_eq setOn_r1)) $$ Q1
  iintro Q1
  rw [load_row1 c (X m (pk c 3))]
  iapply (wp_load 𝒱₀ (c : Thread nD τ) none Set.univ (m := scrM) (S := rowSet 2) (q := fullShare) (f := rowsOf c (X m (pk c 2))) (Finset.subset_of_eq setOn_r2)) $$ Q2
  iintro Q2
  rw [load_row2 c (X m (pk c 2))]
  iapply (wp_load 𝒱₀ (c : Thread nD τ) none Set.univ (m := scrM) (S := rowSet 3) (q := fullShare) (f := rowsOf c (X m (pk c 1))) (Finset.subset_of_eq setOn_r3)) $$ Q3
  iintro Q3
  rw [load_row3 c (X m (pk c 1))]
  -- the result is stored over the whole staging buffer
  iapply (wp_load 𝒱₀ (c : Thread nD τ) none Set.univ (m := oM) (S := Finset.univ) (q := fullShare) (f := fo) (Finset.subset_univ _)) $$ Hout
  iintro Hout
  iapply (wp_store 𝒱₀ (c : Thread nD τ) none Set.univ (m := oM) (r := Rect.unit (s := S2x64x64x128) ![0, 0, 0, 0] S2x64x64x128.size Facts₀.inb_S2x64x64x128_S2x64x64x128_0_0_0_0) (S := Finset.univ) (f := fo) (Finset.subset_univ _)) $$ Hout
  iintro Hout
  rw [out_stored c fo]
  -- the six own cells are closed; the exit's assertions
  rw [wp_ret]
  imod (Rounds.cell_close ER (sched m) (Set.mem_univ (K (c, 1))) id (R := 0 + 1) (duties_later m (sendCell c 0))) $$ [A1] with V0
  · isplitr; · iexact I1
    iexact A1
  imod (Rounds.cell_close ER (sched m) (Set.mem_univ (K (c, 2))) id (R := 0 + 1) (duties_later m (sendCell c 1))) $$ [A2] with V1
  · isplitr; · iexact I2
    iexact A2
  imod (Rounds.cell_close ER (sched m) (Set.mem_univ (K (c, 3))) id (R := 0 + 1) (duties_later m (sendCell c 2))) $$ [A3] with V2
  · isplitr; · iexact I3
    iexact A3
  imod (Rounds.cell_close ER (sched m) (Set.mem_univ (K (c, 4))) id (R := 0 + 1) (duties_later m (recvCell c 0))) $$ [A4] with V3
  · isplitr; · iexact I4
    iexact A4
  imod (Rounds.cell_close ER (sched m) (Set.mem_univ (K (c, 5))) id (R := 0 + 1) (duties_later m (recvCell c 1))) $$ [A5] with V4
  · isplitr; · iexact I5
    iexact A5
  imod (Rounds.cell_close ER (sched m) (Set.mem_univ (K (c, 6))) id (R := 0 + 1) (duties_later m (recvCell c 2))) $$ [A6] with V5
  · isplitr; · iexact I6
    iexact A6
  imodintro
  iapply HK
  unfold Φ₁ scrAny
  isplitl [R0 Q1 Q2 Q3 V0 V1 V2 V3 V4 V5]
  · isplitl [R0 Q1 Q2 Q3]
    · iapply (scr_join' c (rowsOf c (X m c)) (rowsOf c (X m (pk c 3))) (rowsOf c (X m (pk c 2))) (rowsOf c (X m (pk c 1))))
      isplitl [R0]; · iexact R0
      isplitl [Q1]; · iexact Q1
      isplitl [Q2]; · iexact Q2
      iexact Q3
    · iapply (closed_six c)
      isplitl [V0]; · iexact V0
      isplitl [V1]; · iexact V1
      isplitl [V2]; · iexact V2
      isplitl [V3]; · iexact V3
      isplitl [V4]; · iexact V4
      iexact V5
  isplitl [HO]
  · iexists (insert (SemLoc.dma (recvSem 2), ()) (insert (SemLoc.dma (recvSem 0), ()) (insert (SemLoc.dma (recvSem 1), ()) (insert (SemLoc.dma (sendSem 2), ())
      (insert (SemLoc.dma (sendSem 0), ()) (insert (SemLoc.dma (sendSem 1), ()) (insert (SemLoc.reg barS, ()) W)))))) : Waits sig Unit)
    isplitr; · ipureintro; exact fun x _ => Or.inl (Set.mem_univ x)
    iexact HO
  isplitl [Hx]
  · iexists _
    isplitr; · ipureintro; exact (xstg_eq m ρ c).symm
    iexact Hx
  isplitl [Hw]
  · iexists _
    isplitr; · ipureintro; exact (wstg_eq m ρ c).symm
    iexact Hw
  iexists _
  isplitr; · ipureintro; unfold outVal outOf; rfl
  iexact Hout

/-- The obligation's precondition, named. -/
def bodyPre' (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 4000 in
/-- The pipeline's body obligation on device c. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hw, Hout⟩
  iapply (sound_body m ρ K c fun _ => bodyPost m ρ c)
  unfold bodyPre
  isplitr []
  · isplitl [Hg Hrest Hscr]
    · isplitl [Hg]; · iexact Hg
      icases Hrest with ⟨H1, H2, H3, H4, H5⟩
      isplitl [H1]; · iexact H1
      isplitl [H2]; · iexact H2
      isplitl [H3]; · iexact H3
      isplitl [H4]; · iexact H4
      isplitl [H5]; · iexact H5
      iexact Hscr
    isplitl [Ho]; · iexact Ho
    isplitl [Hx]; · iexact Hx
    isplitl [Hw] <;> iassumption
  · iintro H; iexact H

/-- info: 'Cert.KernelIdeal.Proto.body_obligation' depends on axioms: [propext, Classical.choice, Quot.sound] -/
#guard_msgs in #print axioms body_obligation

end Cert.KernelIdeal.Proto

end
-- ==== Proof.Launch.lean ====
/- The launch: the exchange's cells allocated for all four devices at once, each device dealt the tokens of the duties
   it pays and the credit of the units it is owed, and the run of the whole program with each device's result named. -/
import proofs.«900519_g7700000000000520_dist_diff_noisepred_hshard_i_b2_h64_w64_c64_v7x_i4_bf16_1_alg».proof.Proof.Proto
import proofs.«900519_g7700000000000520_dist_diff_noisepred_hshard_i_b2_h64_w64_c64_v7x_i4_bf16_1_alg».proof.Proof.Tables
import proofs.«900519_g7700000000000520_dist_diff_noisepred_hshard_i_b2_h64_w64_c64_v7x_i4_bf16_1_alg».proof.Proof.Body

noncomputable section

namespace Cert.KernelIdeal.Proto

open Cert.KernelIdeal Cert.KernelIdeal.Gen Cert.KernelIdeal.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
/-- The exchange's cells: seven on each device. -/
def exCells : Finset (GSem nD τ sig) := Finset.univ.map ⟨kcell, kcell_injective⟩

/-- A device's own cells' duties: the barrier's 1, 2, 3; duty 0 of each send and each receive cell. -/
abbrev tokIdx : Fin 9 → Fin 7 × Fin 4
  | 0 => (0, 1) | 1 => (0, 2) | 2 => (0, 3) | 3 => (1, 0) | 4 => (2, 0) | 5 => (3, 0) | 6 => (4, 0) | 7 => (5, 0) | 8 => (6, 0)
theorem tokIdx_injective : Function.Injective tokIdx := by decide
abbrev tokOf (cj : Dev nD × Fin 9) : GSem nD τ sig × ℕ × Fin 4 := (kcell (cj.1, (tokIdx cj.2).1), 0, (tokIdx cj.2).2)
theorem tokOf_injective : Function.Injective (tokOf : Dev nD × Fin 9 → GSem nD τ sig × ℕ × Fin 4) := by
  rintro ⟨c, j⟩ ⟨c', j'⟩ h
  have h1 : ((c, (tokIdx j).1) : Dev nD × Fin 7) = (c', (tokIdx j').1) := kcell_injective (congrArg (fun x : GSem nD τ sig × ℕ × Fin 4 => x.1) h)
  have h2 : (tokIdx j).2 = (tokIdx j').2 := congrArg (fun x : GSem nD τ sig × ℕ × Fin 4 => x.2.2) h
  have hc : c = c' := congrArg Prod.fst h1
  have hi : (tokIdx j).1 = (tokIdx j').1 := congrArg Prod.snd h1
  have hj : j = j' := tokIdx_injective (Prod.ext hi h2)
  subst hc; subst hj; rfl
def exToks : Finset (GSem nD τ sig × ℕ × Fin 4) := Finset.univ.map ⟨tokOf, tokOf_injective⟩

def u₀ : UU :=
  (initOf (Pipeline.cells cfgs cellOf_inj) (Pipeline.launchToks cfgs cellOf_inj), initOf exCells exToks)

/-- The duty tokens of device c's own cells. -/
def toks (c : Dev nD) : sProp 𝕄 :=
  iprop(dutyTok ER (barCell c) 0 1 ∗ dutyTok ER (barCell c) 0 2 ∗ dutyTok ER (barCell c) 0 3
    ∗ dutyTok ER (sendCell c 0) 0 0 ∗ dutyTok ER (sendCell c 1) 0 0 ∗ dutyTok ER (sendCell c 2) 0 0
    ∗ dutyTok ER (recvCell c 0) 0 0 ∗ dutyTok ER (recvCell c 1) 0 0 ∗ dutyTok ER (recvCell c 2) 0 0)

/-- What the launch element deals device c. -/
def G (c : Dev nD) : sProp 𝕄 :=
  iprop((bigSep Finset.univ fun k : Fin 7 => roundState ER (sched m) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 7 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin9]; rfl
  iintro HX
  imod (Rounds.fund ER (sched m) exCells exToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The three send and three receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (recvCell c 0) 0 ∗ semVal (recvCell c 1) 0 ∗ semVal (recvCell c 2) 0) := by
  rw [Pipeline.ownSems0_eq_of_list c osem [0, 1, 2, 3, 4, 5] (by decide) (by decide)]; rfl
/-- and as the proof data spell them; -/
theorem ownSems0_fin6 (c : Dev nD) : (Pipeline.ownSems0 (Ix := Unit) (Name := ℕ) (U := UU) (Lvl := ℕ) (Val := Elt F) (τ := τ) osem c : sProp 𝕄)
    = bigSep Finset.univ fun i : Fin 6 => semVal ((c : Thread nD τ), osem i) 0 := rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H0, H1, H2, H3, H4, H5⟩, HB⟩
  isplitl [HB]; · iexact HB
  isplitl [H0]; · iexact H0
  isplitl [H1]; · iexact H1
  isplitl [H2]; · iexact H2
  isplitl [H3]; · iexact H3
  isplitl [H4]; · iexact H4
  iexact H5

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant at its name, and that every cell has reached round 0. -/
def records (K : Dev nD × Fin 7 → ℕ) : sProp 𝕄 :=
  iprop((bigSep Finset.univ fun ck : Dev nD × Fin 7 => cellInv ER (sched m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) :
    (bigSep Finset.univ fun ck : Dev nD × Fin 7 => (cellInv ER (sched m) (K ck) (kcell ck) : sProp 𝕄)) ⊢ cellInv ER (sched m) (K ck) (kcell ck) :=
  bigSep_elim (Finset.mem_univ ck)
theorem inv_row (K : Dev nD × Fin 7 → ℕ) (c : Dev nD) :
    (bigSep Finset.univ fun ck : Dev nD × Fin 7 => (cellInv ER (sched m) (K ck) (kcell ck) : sProp 𝕄))
      ⊢ bigSep Finset.univ fun i : Fin 7 => cellInv ER (sched m) (K (c, i)) (kcell (c, i)) := by
  rw [bigSep_univ_prod]; exact bigSep_elim (Finset.mem_univ c)
theorem inv_bar (K : Dev nD × Fin 7 → ℕ) (a : Dev nD) :
    (bigSep Finset.univ fun ck : Dev nD × Fin 7 => (cellInv ER (sched m) (K ck) (kcell ck) : sProp 𝕄)) ⊢ cellInv ER (sched m) (K (a, 0)) (barCell a) :=
  inv_at m K (a, 0)
theorem inv_recv0 (K : Dev nD × Fin 7 → ℕ) (a : Dev nD) :
    (bigSep Finset.univ fun ck : Dev nD × Fin 7 => (cellInv ER (sched m) (K ck) (kcell ck) : sProp 𝕄)) ⊢ cellInv ER (sched m) (K (a, 4)) (recvCell a 0) :=
  inv_at m K (a, 4)
theorem inv_recv1 (K : Dev nD × Fin 7 → ℕ) (a : Dev nD) :
    (bigSep Finset.univ fun ck : Dev nD × Fin 7 => (cellInv ER (sched m) (K ck) (kcell ck) : sProp 𝕄)) ⊢ cellInv ER (sched m) (K (a, 5)) (recvCell a 1) :=
  inv_at m K (a, 5)
theorem inv_recv2 (K : Dev nD × Fin 7 → ℕ) (a : Dev nD) :
    (bigSep Finset.univ fun ck : Dev nD × Fin 7 => (cellInv ER (sched m) (K ck) (kcell ck) : sProp 𝕄)) ⊢ cellInv ER (sched m) (K (a, 6)) (recvCell a 2) :=
  inv_at m K (a, 6)

/-- What stays with device c: its positions, and the tokens of the duties it pays. -/
def payToks (c : Dev nD) : sProp 𝕄 :=
  iprop(dutyTok ER (barCell (pk c 2)) 0 2 ∗ dutyTok ER (barCell (pk c 1)) 0 3 ∗ dutyTok ER (barCell (pk c 3)) 0 1
    ∗ dutyTok ER (recvCell (pk c 1) 0) 0 0 ∗ dutyTok ER (recvCell (pk c 2) 1) 0 0 ∗ dutyTok ER (recvCell (pk c 3) 2) 0 0
    ∗ dutyTok ER (sendCell c 0) 0 0 ∗ dutyTok ER (sendCell c 1) 0 0 ∗ dutyTok ER (sendCell c 2) 0 0)
def linear (c : Dev nD) : sProp 𝕄 :=
  iprop((bigSep Finset.univ fun i : Fin 7 => atPos ER (kcell (c, i)) 0 ∅ 0) ∗ payToks c)

theorem ghost_intro (K : Dev nD × Fin 7 → ℕ) (c : Dev nD) : iprop(records m K ∗ linear c) ⊢ G' m c := by
  unfold records linear payToks G' ghost invs
  iintro ⟨⟨#HI, #HR⟩, Hat, Hb2, Hb3, Hb1, Hr0, Hr1, Hr2, Hs0, Hs1, Hs2⟩
  iexists K
  isplitr
  · isplitr; · iapply (inv_row m K c); iexact HI
    isplitr; · iapply (inv_bar m K (pk c 1)); iexact HI
    isplitr; · iapply (inv_bar m K (pk c 2)); iexact HI
    isplitr; · iapply (inv_bar m K (pk c 3)); iexact HI
    isplitr; · iapply (inv_recv0 m K (pk c 1)); iexact HI
    isplitr; · iapply (inv_recv1 m K (pk c 2)); iexact HI
    iapply (inv_recv2 m K (pk c 3)); iexact HI
  isplitl [Hat]; · iexact Hat
  isplitr; · iexact HR
  isplitl [Hb2]; · iexact Hb2
  isplitl [Hb3]; · iexact Hb3
  isplitl [Hb1]; · iexact Hb1
  isplitl [Hr0]; · iexact Hr0
  isplitl [Hr1]; · iexact Hr1
  isplitl [Hr2]; · iexact Hr2
  isplitl [Hs0]; · iexact Hs0
  isplitl [Hs1]; · iexact Hs1
  iexact Hs2

/-- One, two and three places further round, as bijections of the devices. -/
def rot1 : Dev nD ≃ Dev nD := ⟨fun c => pk c 1, fun c => pk c 3, pk_inv1, pk_inv3⟩
def rot2 : Dev nD ≃ Dev nD := ⟨fun c => pk c 2, fun c => pk c 2, pk_inv2, pk_inv2⟩
def rot3 : Dev nD ≃ Dev nD := ⟨fun c => pk c 3, fun c => pk c 1, pk_inv3, pk_inv1⟩

/-- The tokens dealt round the devices: a barrier's duty d goes to the device d places further, which pays it; a receive
    cell's duty to the device that copies into it. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep',
    bigSep_univ_equiv rot3 (fun c : Dev nD => (dutyTok ER (barCell c) 0 1 : sProp 𝕄)),
    bigSep_univ_equiv rot2 (fun c : Dev nD => (dutyTok ER (barCell c) 0 2 : sProp 𝕄)),
    bigSep_univ_equiv rot1 (fun c : Dev nD => (dutyTok ER (barCell c) 0 3 : sProp 𝕄)),
    bigSep_univ_equiv rot1 (fun c : Dev nD => (dutyTok ER (recvCell c 0) 0 0 : sProp 𝕄)),
    bigSep_univ_equiv rot2 (fun c : Dev nD => (dutyTok ER (recvCell c 1) 0 0 : sProp 𝕄)),
    bigSep_univ_equiv rot3 (fun c : Dev nD => (dutyTok ER (recvCell c 2) 0 0 : sProp 𝕄))]
  iintro ⟨Hb1, Hb2, Hb3, Hs0, Hs1, Hs2, Hr0, Hr1, Hr2⟩
  isplitl [Hb2]; · iexact Hb2
  isplitl [Hb3]; · iexact Hb3
  isplitl [Hb1]; · iexact Hb1
  isplitl [Hr0]; · iexact Hr0
  isplitl [Hr1]; · iexact Hr1
  isplitl [Hr2]; · iexact Hr2
  isplitl [Hs0]; · iexact Hs0
  isplitl [Hs1]; · iexact Hs1
  iexact Hs2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (sched m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- Three units on one cell, one by one, are the three at once. -/
theorem cred_three (g : GSem nD τ sig) :
    iprop(cred (tallyAt g () 1) ∗ cred (tallyAt g () 1) ∗ cred (tallyAt g () 1)) ⊢ (cred (tallyAt g () 3) : sProp 𝕄) := by
  have e : (tallyAt g () 3 : CellTallies nD τ sig Unit) = tallyAt g () 1 + (tallyAt g () 1 + tallyAt g () 1) := by
    rw [tallyAt_add, tallyAt_add]
  rw [e]
  exact (sep_mono_right (cred_add _ _).2).trans (cred_add _ _).2

/-- What the four devices owe device c's cells at launch: a unit to its barrier cell from each of the three others, a row's
    credit to each of its receive cells from the device that copies into it. -/
theorem creds (c : Dev nD) :
    (Pipeline.launchCred O₀ c : sProp 𝕄) ⊢ iprop(cred (tallyAt (barCell c) () 3)
      ∗ cred (tallyAt (recvCell c 0) () N) ∗ cred (tallyAt (recvCell c 1) () N) ∗ cred (tallyAt (recvCell c 2) () N)) := by
  have e : (O₀ : Dev nD → CellTallies nD τ sig Unit) = fun d =>
      ((((tallyAt (recvCell (pk d 3) 2) () N + tallyAt (recvCell (pk d 1) 0) () N) + tallyAt (recvCell (pk d 2) 1) () N)
        + tallyAt (barCell (pk d 3)) () 1) + tallyAt (barCell (pk d 1)) () 1) + tallyAt (barCell (pk d 2)) () 1 := rfl
  rw [e, Pipeline.launchCred_add, Pipeline.launchCred_add, Pipeline.launchCred_add, Pipeline.launchCred_add, Pipeline.launchCred_add]
  iintro ⟨⟨⟨⟨⟨Hr2, Hr0⟩, Hr1⟩, Hb3⟩, Hb1⟩, Hb2⟩
  ihave C2 := (Pipeline.launchCred_tallyAt (SemLoc.dma (recvSem 2)) (fun d => pk d 3) (fun d => pk d 1) pk_inv1 pk_inv3 () N c) $$ Hr2
  ihave C0 := (Pipeline.launchCred_tallyAt (SemLoc.dma (recvSem 0)) (fun d => pk d 1) (fun d => pk d 3) pk_inv3 pk_inv1 () N c) $$ Hr0
  ihave C1 := (Pipeline.launchCred_tallyAt (SemLoc.dma (recvSem 1)) (fun d => pk d 2) (fun d => pk d 2) pk_inv2 pk_inv2 () N c) $$ Hr1
  ihave B3 := (Pipeline.launchCred_tallyAt (SemLoc.reg barS) (fun d => pk d 3) (fun d => pk d 1) pk_inv1 pk_inv3 () 1 c) $$ Hb3
  ihave B1 := (Pipeline.launchCred_tallyAt (SemLoc.reg barS) (fun d => pk d 1) (fun d => pk d 3) pk_inv3 pk_inv1 () 1 c) $$ Hb1
  ihave B2 := (Pipeline.launchCred_tallyAt (SemLoc.reg barS) (fun d => pk d 2) (fun d => pk d 2) pk_inv2 pk_inv2 () 1 c) $$ Hb2
  isplitl [B1 B2 B3]
  · iapply (cred_three (F := F) (barCell c))
    isplitl [B1]; · iexact B1
    isplitl [B2]; · iexact B2
    iexact B3
  isplitl [C0]; · iexact C0
  isplitl [C1]; · iexact C1
  iexact C2

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H3, HN0, HN1, HN2⟩
  imodintro
  unfold start G'
  isplitl
  · isplitl [HG]; · iexact HG
    isplitl [H3]; · iexact H3
    isplitl [HN0]; · iexact HN0
    isplitl [HN1]; · iexact HN1
    isplitl [HN2]; · iexact HN2
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scrAny
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_fin6]
  unfold Φ₁ scrAny
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ### The final arrays -/

/-- The argument arrays are the kernel's inputs: after the run they hold what they held. -/
theorem final_arg0 (c : Dev nD) : (dats m ρ 0 c).arrAt (0 : Fin 3) cfg0.N = m ((c.tc : Thread nD τ).loc main_arg0) :=
  (dats (F := F) m ρ 0 c).arrAt_in (0 : Fin 3) rfl _
theorem final_arg1 (c : Dev nD) : (dats m ρ 0 c).arrAt (1 : Fin 3) cfg0.N = m ((c.tc : Thread nD τ).loc main_arg1) :=
  (dats (F := F) m ρ 0 c).arrAt_in (1 : Fin 3) rfl _

/-- The result array's one block is the whole array: written back at the one point, it holds what the body left staged. -/
theorem final_out (c : Dev nD) : (dats m ρ 0 c).arrAt (2 : Fin 3) cfg0.N = outVal m c := by
  have hz : (fun a => (win0_2.index t₀) a * main_v1.ty.shape.size a) = fun _ => 0 := funext fun a => Nat.zero_mul _
  rw [show cfg0.N = (t₀ : Fin cfg0.N).val + 1 from rfl, (dats (F := F) m ρ 0 c).arrAt_succ (2 : Fin 3) t₀,
    if_pos (show (cfg0.win (2 : Fin 3)).flush t₀ = true by decide)]
  exact Memref.write_access_unit_zero_univ (Elt F) main_v1 hz (fun a => Nat.le_of_eq (by
      rw [show win0_2.index t₀ a * main_v1.ty.shape.size a = 0 from Nat.zero_mul _, Nat.zero_add])) _ _

/-! ### The run -/

/-- From any memory with zero counters: every weakly fair execution of the four devices' program terminates, and every
    final state has each device's result array at `outVal` and its arguments unchanged. -/
theorem run_main : θ_run (defs (F := F)) (onTc (τ := τ) (main (F := F))) ⟨m, fun _ => 0, ρ⟩ (fun r => ∀ c : Dev nD,
    r.2.mem ((c.tc : Thread nD τ).loc main_v1) = outVal m c
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun s h c => ⟨((h c).1 (2 : Fin 3)).trans (final_out m ρ c), ((h c).1 (0 : Fin 3)).trans (final_arg0 m ρ c), ((h c).1 (1 : Fin 3)).trans (final_arg1 m ρ c)⟩)

/-- info: 'Cert.KernelIdeal.Proto.run_main' depends on axioms: [propext, Classical.choice, Quot.sound] -/
#guard_msgs in #print axioms run_main

end Cert.KernelIdeal.Proto

end
-- ==== Proof.Bits.KSpec.lean ====
/- The kernel's result on one device as a pure function of the devices' argument blocks.
   A device first reduces its own rows to per-batch channel sums and sums of squares (`stat`);
   the four devices' statistics are added, and the normalised, gated rows are multiplied by the
   projection (`outOf`). -/
import proofs.«900519_g7700000000000520_dist_diff_noisepred_hshard_i_b2_h64_w64_c64_v7x_i4_bf16_1_alg».proof.Proof.Gen.Kernel.Skeleton

noncomputable section

namespace Cert.Kernel.KSpec

open Idealize.ShloMosaic Idealize.SL.Sem Cert.Kernel Cert.Kernel.Gen

variable {F : FTy → Type} [FloatOps F]

/-- The device `k` places further round the four devices. -/
def pk (c : Dev nD) (k : Nat) : Dev nD := ⟨(c.val + k) % 4, Nat.mod_lt _ (by decide)⟩

/-- One device's statistics: rows 0–1 the per-batch channel sums of its block, rows 2–3 the sums of squares. -/
def stat (x : Vec F S2x64x64x64 .f32) : Vec F S1x4x64 .f32 :=
  k0_pay4 (k0_pay2 x) (iota .tc S2x8192 32 [0] Facts₀.iota_S2x8192_d0_w32) k0_pay3

/-- The result block from a device's own rows, the projection, and the four statistics in the order they are added. -/
def outOf (x : Vec F S2x64x64x64 .f32) (w : Vec F S64x128 .f32) (s0 s1 s2 s3 : Vec F S1x4x64 .f32) : Vec F S2x64x64x128 .bf16 :=
  k0_pay6 (k0_pay1 x) (k0_pay5 w) s0 s1 s2 s3

variable (m : (ℓ : Loc nD τ sig) → Buf (Elt F) ℓ)

/-- Device `c`'s block of the first argument, and its copy of the second. -/
abbrev X (c : Dev nD) : Vec F S2x64x64x64 .f32 := m ((c.tc : Thread nD τ).loc main_arg0)
abbrev Wp (c : Dev nD) : Vec F S64x128 .f32 := m ((c.tc : Thread nD τ).loc main_arg1)

/-- Device `c`'s result: its own statistics, then those of the devices three, two and one places further round. -/
def outVal (c : Dev nD) : Vec F S2x64x64x128 .bf16 :=
  outOf (X m c) (Wp m c) (stat (X m c)) (stat (X m (pk c 3))) (stat (X m (pk c 2))) (stat (X m (pk c 1)))

end Cert.Kernel.KSpec

end
-- ==== Proof.Bits.Proto.lean ====
/- The four devices' exchange: who signals whom, which row of whose scratch a copy lands in, and what each
   landing tells its receiver. Device c's scratch has four rows of statistics; row 0 is its own, row j (j = 1, 2, 3)
   is written by the device 4 - j places further round, whose row 0 it then holds. -/
import proofs.«900519_g7700000000000520_dist_diff_noisepred_hshard_i_b2_h64_w64_c64_v7x_i4_bf16_1_alg».proof.Proof.Bits.KSpec
import proofs.«900519_g7700000000000520_dist_diff_noisepred_hshard_i_b2_h64_w64_c64_v7x_i4_bf16_1_alg».proof.Proof.Gen.Kernel.Launch
import Idealize.ShloMosaic.Lib.Pipeline.Launch
import Idealize.ShloMosaic.Lib.Pipeline.Kit
import Idealize.ShloMosaic.Lib.Tactic
import Idealize.ShloMosaic.Lib.ValueIdx

noncomputable section

namespace Cert.Kernel.Proto

open Cert.Kernel Cert.Kernel.Gen Cert.Kernel.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) and the exchange's (duties `Fin 4`) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## Round the four devices -/

/-- j places further and 4 - j places further undo each other. -/
theorem pk_pk (c : Dev nD) (j : Fin 4) : pk (pk c j.val) (4 - j.val) = c ∨ j = 0 := by revert c j; decide
theorem pk_inv1 (c : Dev nD) : pk (pk c 1) 3 = c := by revert c; decide
theorem pk_inv2 (c : Dev nD) : pk (pk c 2) 2 = c := by revert c; decide
theorem pk_inv3 (c : Dev nD) : pk (pk c 3) 1 = c := by revert c; decide

/-- The kernel's device chains: the signals go 2, 1, 3 places further, and so do the copies. -/
theorem dev1_eq (c : Dev nD) : (⟨k0_dev1 c, Facts₀.k0_dev1_lt c⟩ : Dev nD) = pk c 2 := by revert c; decide
theorem dev2_eq (c : Dev nD) : (⟨k0_dev2 c, Facts₀.k0_dev2_lt c⟩ : Dev nD) = pk c 1 := by revert c; decide
theorem dev3_eq (c : Dev nD) : (⟨k0_dev3 c, Facts₀.k0_dev3_lt c⟩ : Dev nD) = pk c 3 := by revert c; decide
theorem dev4_eq (c : Dev nD) : (⟨k0_dev4 c, Facts₀.k0_dev4_lt c⟩ : Dev nD) = pk c 2 := by revert c; decide
theorem dev5_eq (c : Dev nD) : (⟨k0_dev5 c, Facts₀.k0_dev5_lt c⟩ : Dev nD) = pk c 1 := by revert c; decide
theorem dev6_eq (c : Dev nD) : (⟨k0_dev6 c, Facts₀.k0_dev6_lt c⟩ : Dev nD) = pk c 3 := by revert c; decide

/-! ## The scratch rows, the semaphores, the cells -/

abbrev scrM : Memref sig .tc .vmem S4x4x64 .f32 := Memref.whole cc0_scratch0
abbrev xM : Memref sig .tc .vmem S2x64x64x64 .f32 := Memref.whole cc0_stg0_0
abbrev wM : Memref sig .tc .vmem S64x128 .f32 := Memref.whole cc0_stg1_0
abbrev oM : Memref sig .tc .vmem S2x64x64x128 .bf16 := Memref.whole cc0_stg2_0

abbrev r0 : Rect S4x4x64 := Rect.unit (s := S4x4x64) ![0, 0, 0] S1x4x64.size Facts₀.inb_S4x4x64_S1x4x64_0_0_0
abbrev r1 : Rect S4x4x64 := Rect.unit (s := S4x4x64) ![1, 0, 0] S1x4x64.size Facts₀.inb_S4x4x64_S1x4x64_1_0_0
abbrev r2 : Rect S4x4x64 := Rect.unit (s := S4x4x64) ![2, 0, 0] S1x4x64.size Facts₀.inb_S4x4x64_S1x4x64_2_0_0
abbrev r3 : Rect S4x4x64 := Rect.unit (s := S4x4x64) ![3, 0, 0] S1x4x64.size Facts₀.inb_S4x4x64_S1x4x64_3_0_0
/-- Row k of the scratch as the copies address it. -/
abbrev sl0 : Memref sig .tc .vmem S4x64 .f32 := (scrM.slice r0 (fun _ => rfl)).squeeze S4x64 Facts₀.squeezes_S1x4x64_S4x64
abbrev sl1 : Memref sig .tc .vmem S4x64 .f32 := (scrM.slice r1 (fun _ => rfl)).squeeze S4x64 Facts₀.squeezes_S1x4x64_S4x64
abbrev sl2 : Memref sig .tc .vmem S4x64 .f32 := (scrM.slice r2 (fun _ => rfl)).squeeze S4x64 Facts₀.squeezes_S1x4x64_S4x64
abbrev sl3 : Memref sig .tc .vmem S4x64 .f32 := (scrM.slice r3 (fun _ => rfl)).squeeze S4x64 Facts₀.squeezes_S1x4x64_S4x64

/-- The entries of row k. -/
def rowSet (k : Fin 4) : Finset S4x4x64.Idx := Finset.univ.filter fun i => (i 0).val = k.val

/-- The barrier semaphore; the three send and three receive semaphores (index j serves the copy j + 1 places further). -/
abbrev barS : Sem sig := (SemArray.scalar (sig.barrier 0 rfl) : Sems sig S_).sem
abbrev sendSem (j : Fin 3) : DmaSem sig := ⟨3 + j.val, by show 3 + j.val < 9; omega⟩
abbrev recvSem (j : Fin 3) : DmaSem sig := ⟨6 + j.val, by show 6 + j.val < 9; omega⟩

abbrev barCell (c : Dev nD) : GSem nD τ sig := ((c : Thread nD τ), .reg barS)
abbrev sendCell (c : Dev nD) (j : Fin 3) : GSem nD τ sig := ((c : Thread nD τ), .dma (sendSem j))
abbrev recvCell (c : Dev nD) (j : Fin 3) : GSem nD τ sig := ((c : Thread nD τ), .dma (recvSem j))

/-- The kernel's own (scoped) semaphores as the launch indexes them: three send, three receive; -/
abbrev osem : Fin 6 → SemLoc sig := fun i => .dma ⟨3 + i.val, by show 3 + i.val < 9; omega⟩
/-- all seven of the exchange's: barrier, three send, three receive. -/
abbrev csem : Fin 7 → SemLoc sig := fun i => if i.val = 0 then .reg barS else .dma ⟨2 + i.val, by show 2 + i.val < 9; omega⟩
abbrev kcell (ck : Dev nD × Fin 7) : GSem nD τ sig := ((ck.1 : Thread nD τ), csem ck.2)

/-- The units one row's copy credits. -/
abbrev N : ℕ := 128

/-- The three parts of the full share under which row 0 is read by the three copies at once. -/
def sh : Fin 3 → PosShare TreeShare := fun j => if j.val = 0 then fullShare.left else if j.val = 1 then fullShare.right.left else fullShare.right.right

/-! ## Contents -/

/-- A scratch all of whose rows hold the statistics of the block `x`: the contents every row is described against. -/
def rowsOf (c : Dev nD) (x : Vec F S2x64x64x64 .f32) : Buf (Elt F) ((c : Thread nD τ).loc cc0_scratch0) :=
  fun i => stat x (ValueIdx.ix3 (0 : Fin 1) (i 1) (i 2))

/-- Row k of device c's scratch at contents f, under share q. -/
def rowPts (c : Dev nD) (k : Fin 4) (q : PosShare TreeShare) (f : Buf (Elt F) ((c : Thread nD τ).loc cc0_scratch0)) : sProp 𝕄 :=
  ((c : Thread nD τ).loc cc0_scratch0) ↦[rowSet k]{q} f

instance rowPts_storable (c : Dev nD) (k : Fin 4) (q : PosShare TreeShare) (f) : BI.Storable (upEmb : UEmb _ 𝕄) (rowPts (F := F) c k q f) := by
  unfold rowPts; infer_instance

/-! ## The schedule -/

/-- What the signal from the device d places further hands device c: that device's row d, which c's copy d places further lands in. -/
def barPay (c : Dev nD) (d : Fin 4) : sProp 𝕄 := iprop(∃ f, rowPts (pk c d.val) d fullShare f)
/-- Receive semaphore j of c: row j + 1 holding the statistics of the device 3 - j places further (from which c is j + 1 places further). -/
def recvPay (c : Dev nD) (j : Fin 3) : sProp 𝕄 := rowPts c ⟨j.val + 1, by omega⟩ fullShare (rowsOf c (X m (pk c (3 - j.val))))
/-- Send semaphore j of c: its part of row 0 back. -/
def sendPay (c : Dev nD) (j : Fin 3) : sProp 𝕄 := rowPts c 0 (sh j) (rowsOf c (X m c))

abbrev IsBar (g : GSem nD τ sig) : Prop := g.1.2 = .tc ∧ g.2 = .reg barS
abbrev IsXfer (g : GSem nD τ sig) : Prop := g.1.2 = .tc ∧ ∃ i : Fin 6, g.2 = osem i

/-- One round: a barrier cell has the duties 1, 2, 3 (one unit each, from the devices 1, 2, 3 places further); each send and
    receive cell the one duty 0 of a row's credit. -/
def sched : Rounds.Schedule (GSem nD τ sig) (Fin 4) 𝕄 where
  duties g r := if r = 0 ∧ IsBar g then {1, 2, 3} else if r = 0 ∧ IsXfer g then {0} else ∅
  unitless _ := False
  amount g _ _ := if g.2 = .reg barS then 1 else N
  payload g _ d :=
    if g.2 = .reg barS then barPay g.1.1 d
    else if g.2 = .dma (recvSem 0) then recvPay m g.1.1 0
    else if g.2 = .dma (recvSem 1) then recvPay m g.1.1 1
    else if g.2 = .dma (recvSem 2) then recvPay m g.1.1 2
    else if g.2 = .dma (sendSem 0) then sendPay m g.1.1 0
    else if g.2 = .dma (sendSem 1) then sendPay m g.1.1 1
    else if g.2 = .dma (sendSem 2) then sendPay m g.1.1 2
    else iprop(emp)
  amount_pos g _ _ _ := by
    by_cases h : g.2 = .reg barS
    · rw [if_pos h]; exact Nat.one_pos
    · rw [if_neg h]; decide

instance sched_payload_storable (g : GSem nD τ sig) (r : ℕ) (d : Fin 4) :
    BI.Storable (upEmb : UEmb _ 𝕄) ((sched (F := F) m).payload g r d) := by
  show BI.Storable upEmb (if g.2 = .reg barS then barPay g.1.1 d
    else if g.2 = .dma (recvSem 0) then recvPay m g.1.1 0
    else if g.2 = .dma (recvSem 1) then recvPay m g.1.1 1
    else if g.2 = .dma (recvSem 2) then recvPay m g.1.1 2
    else if g.2 = .dma (sendSem 0) then sendPay m g.1.1 0
    else if g.2 = .dma (sendSem 1) then sendPay m g.1.1 1
    else if g.2 = .dma (sendSem 2) then sendPay m g.1.1 2
    else iprop(emp))
  unfold barPay recvPay sendPay
  (repeat' split) <;> infer_instance

/-! ## What each device owes at launch; the levels -/

/-- What device c still owes after each of its first five paying steps, and at launch: the three receive credits of the
    devices it copies to, and one barrier unit to each — summed so that each step pays the last summand. -/
def O₅ (c : Dev nD) : CellTallies nD τ sig Unit := tallyAt (recvCell (pk c 3) 2) () N
def O₄ (c : Dev nD) : CellTallies nD τ sig Unit := O₅ c + tallyAt (recvCell (pk c 1) 0) () N
def O₃ (c : Dev nD) : CellTallies nD τ sig Unit := O₄ c + tallyAt (recvCell (pk c 2) 1) () N
def O₂ (c : Dev nD) : CellTallies nD τ sig Unit := O₃ c + tallyAt (barCell (pk c 3)) () 1
def O₁ (c : Dev nD) : CellTallies nD τ sig Unit := O₂ c + tallyAt (barCell (pk c 1)) () 1
def O₀ (c : Dev nD) : CellTallies nD τ sig Unit := O₁ c + tallyAt (barCell (pk c 2)) () 1

def L (g : GSem nD τ sig) : Finset Unit := if g.1.2 = .tc then {()} else ∅
/-- Barrier cells at level 1, receive cells at 2, everything else (staging, send) at 0. -/
def lv (g : GSem nD τ sig) (_ : Unit) : ℕ :=
  if g.2 = .reg barS then 1 else if g.2 = .dma (recvSem 0) ∨ g.2 = .dma (recvSem 1) ∨ g.2 = .dma (recvSem 2) then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The staged arguments. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- The cells' invariants device c's body opens, under the names K the launch allocated them at: its own seven, the three
    others' barrier cells (its signals), and the receive cell j of the device j + 1 places further (its copies). -/
def invs (K : Dev nD × Fin 7 → ℕ) (c : Dev nD) : sProp 𝕄 :=
  iprop((bigSep Finset.univ fun i : Fin 7 => cellInv ER (sched m) (K (c, i)) (kcell (c, i)))
    ∗ cellInv ER (sched m) (K (pk c 1, 0)) (barCell (pk c 1)) ∗ cellInv ER (sched m) (K (pk c 2, 0)) (barCell (pk c 2)) ∗ cellInv ER (sched m) (K (pk c 3, 0)) (barCell (pk c 3))
    ∗ cellInv ER (sched m) (K (pk c 1, 4)) (recvCell (pk c 1) 0) ∗ cellInv ER (sched m) (K (pk c 2, 5)) (recvCell (pk c 2) 1) ∗ cellInv ER (sched m) (K (pk c 3, 6)) (recvCell (pk c 3) 2))

instance invs_persistent (K : Dev nD × Fin 7 → ℕ) (c : Dev nD) : BI.Persistent (invs m K c) := by unfold invs; infer_instance

/-- The exchange's ghost state device c starts from: the invariants; its positions at round 0 of its seven cells; that every
    cell it pays, and its own send and receive cells, have reached round 0; the nine duty tokens it pays with — duty 2 of the
    barrier two places further, duty 3 of the one one place further, duty 1 of the one three places further (the offset back to c);
    the receive duties of the three devices it copies to; its own three send duties. -/
def ghost (K : Dev nD × Fin 7 → ℕ) (c : Dev nD) : sProp 𝕄 :=
  iprop(invs m K c
    ∗ (bigSep Finset.univ fun i : Fin 7 => atPos ER (kcell (c, i)) 0 ∅ 0)
    ∗ (bigSep Finset.univ fun ck : Dev nD × Fin 7 => reached ER (kcell ck) 0)
    ∗ dutyTok ER (barCell (pk c 2)) 0 2 ∗ dutyTok ER (barCell (pk c 1)) 0 3 ∗ dutyTok ER (barCell (pk c 3)) 0 1
    ∗ dutyTok ER (recvCell (pk c 1) 0) 0 0 ∗ dutyTok ER (recvCell (pk c 2) 1) 0 0 ∗ dutyTok ER (recvCell (pk c 3) 2) 0 0
    ∗ dutyTok ER (sendCell c 0) 0 0 ∗ dutyTok ER (sendCell c 1) 0 0 ∗ dutyTok ER (sendCell c 2) 0 0)

/-- What device c's body starts from: that at some names, its launch credit (its barrier's three units, its three receive
    cells' credits) and the level facts. -/
def start (c : Dev nD) : sProp 𝕄 :=
  iprop((∃ K, ghost m K c) ∗ cred (tallyAt (barCell c) () 3)
    ∗ cred (tallyAt (recvCell c 0) () N) ∗ cred (tallyAt (recvCell c 1) () N) ∗ cred (tallyAt (recvCell c 2) () N) ∗ levAts L lv)

/-- The scratch whole at some contents. -/
def scrAny (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m c ∗ scrAny c)
/-- After the point: the scratch whole again, the six own cells at zero, closed (the barrier cell is the runtime's). -/
def Φ₁ (c : Dev nD) : sProp 𝕄 := iprop(scrAny c ∗ bigSep Finset.univ fun i : Fin 6 => semVal ((c : Thread nD τ), osem i) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outVal m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.Kernel.Proto

end
-- ==== Proof.Bits.Tables.lean ====
/- The schedule's tables read at each cell: which duties a cell has, what each contributes and hands over; and the
   level facts that make each wait admissible (barrier below receive; send and staging waits owe nothing above them). -/
import proofs.«900519_g7700000000000520_dist_diff_noisepred_hshard_i_b2_h64_w64_c64_v7x_i4_bf16_1_alg».proof.Proof.Bits.Proto

noncomputable section

namespace Cert.Kernel.Proto

open Cert.Kernel Cert.Kernel.Gen Cert.Kernel.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Sched
variable (c : Dev nD)

/-! The semaphores of the exchange are pairwise distinct: the barrier is a regular semaphore, the six others are DMA
    semaphores at six different indices. -/
private theorem send_ne_bar (j : Fin 3) : (SemLoc.dma (sendSem j) : SemLoc sig) ≠ .reg barS := fun h => by cases h
private theorem recv_ne_bar (j : Fin 3) : (SemLoc.dma (recvSem j) : SemLoc sig) ≠ .reg barS := fun h => by cases h
private theorem send_ne_recv (j k : Fin 3) : (SemLoc.dma (sendSem j) : SemLoc sig) ≠ .dma (recvSem k) := by revert j k; decide
private theorem recv_ne_recv (j k : Fin 3) (h : j ≠ k) : (SemLoc.dma (recvSem j) : SemLoc sig) ≠ .dma (recvSem k) := by revert j k; decide
private theorem send_ne_send (j k : Fin 3) (h : j ≠ k) : (SemLoc.dma (sendSem j) : SemLoc sig) ≠ .dma (sendSem k) := by revert j k; decide
/-- Send semaphore j is own semaphore j, receive semaphore j is own semaphore 3 + j. -/
private theorem send_osem (j : Fin 3) : (SemLoc.dma (sendSem j) : SemLoc sig) = osem ⟨j.val, by omega⟩ := by revert j; decide
private theorem recv_osem (j : Fin 3) : (SemLoc.dma (recvSem j) : SemLoc sig) = osem ⟨3 + j.val, by omega⟩ := by revert j; decide

theorem duties_bar : (sched (F := F) m).duties (barCell c) 0 = {1, 2, 3} := by
  dsimp only [sched]; exact if_pos ⟨rfl, rfl, rfl⟩
theorem duties_send (j : Fin 3) : (sched (F := F) m).duties (sendCell c j) 0 = {0} := by
  dsimp only [sched]
  rw [if_neg (fun h => send_ne_bar j h.2.2)]
  exact if_pos ⟨rfl, rfl, ⟨_, send_osem j⟩⟩
theorem duties_recv (j : Fin 3) : (sched (F := F) m).duties (recvCell c j) 0 = {0} := by
  dsimp only [sched]
  rw [if_neg (fun h => recv_ne_bar j h.2.2)]
  exact if_pos ⟨rfl, rfl, ⟨_, recv_osem j⟩⟩
theorem duties_later (g : GSem nD τ sig) : ∀ r, 1 ≤ r → (sched (F := F) m).duties g r = ∅ := by
  intro r hr; dsimp only [sched]; rw [if_neg fun h => by omega, if_neg fun h => by omega]

theorem amount_bar (d : Fin 4) : (sched (F := F) m).amount (barCell c) 0 d = 1 := by dsimp only [sched]; exact if_pos rfl
theorem amount_send (j : Fin 3) (d : Fin 4) : (sched (F := F) m).amount (sendCell c j) 0 d = N := by
  dsimp only [sched]; exact if_neg (send_ne_bar j)
theorem amount_recv (j : Fin 3) (d : Fin 4) : (sched (F := F) m).amount (recvCell c j) 0 d = N := by
  dsimp only [sched]; exact if_neg (recv_ne_bar j)

theorem expect_bar : (sched (F := F) m).expect (barCell c) 0 = 3 := by
  unfold Schedule.expect Schedule.amountOf
  rw [duties_bar, Finset.sum_congr rfl fun d _ => amount_bar m c d, Finset.sum_const, smul_eq_mul]
  rfl
theorem expect_send (j : Fin 3) : (sched (F := F) m).expect (sendCell c j) 0 = N := by
  unfold Schedule.expect Schedule.amountOf; rw [duties_send, Finset.sum_singleton, amount_send]
theorem expect_recv (j : Fin 3) : (sched (F := F) m).expect (recvCell c j) 0 = N := by
  unfold Schedule.expect Schedule.amountOf; rw [duties_recv, Finset.sum_singleton, amount_recv]

theorem payload_bar (d : Fin 4) : (sched (F := F) m).payload (barCell c) 0 d = barPay c d := by
  dsimp only [sched]; rw [if_pos rfl]
theorem payload_send (j : Fin 3) (d : Fin 4) : (sched (F := F) m).payload (sendCell c j) 0 d = sendPay m c j := by
  dsimp only [sched]
  rw [if_neg (send_ne_bar j), if_neg (send_ne_recv j 0), if_neg (send_ne_recv j 1), if_neg (send_ne_recv j 2)]
  fin_cases j
  · exact if_pos rfl
  · rw [if_neg (by decide)]; exact if_pos rfl
  · rw [if_neg (by decide), if_neg (by decide)]; exact if_pos rfl
theorem payload_recv (j : Fin 3) (d : Fin 4) : (sched (F := F) m).payload (recvCell c j) 0 d = recvPay m c j := by
  dsimp only [sched]
  rw [if_neg (recv_ne_bar j)]
  fin_cases j
  · exact if_pos rfl
  · rw [if_neg (by decide)]; exact if_pos rfl
  · rw [if_neg (by decide), if_neg (by decide)]; exact if_pos rfl

/-- The rest of the barrier cell's round, no duty taken: the three others' rows. -/
theorem rest_bar : bigSep ((sched (F := F) m).duties (barCell c) 0 \ ∅) (fun d => (sched (F := F) m).payload (barCell c) 0 d)
    = iprop(barPay c 1 ∗ barPay c 2 ∗ barPay c 3) := by
  rw [Finset.sdiff_empty, duties_bar, bigSep_eq_bigSepL_of_eq [1, 2, 3] (by decide) (by decide), bigSepL_cons_cons, bigSepL_cons_cons,
    bigSepL_singleton, payload_bar, payload_bar, payload_bar]
  rfl
theorem rest_send (j : Fin 3) : bigSep ((sched (F := F) m).duties (sendCell c j) 0 \ ∅) (fun d => (sched (F := F) m).payload (sendCell c j) 0 d)
    = sendPay m c j := by
  rw [Finset.sdiff_empty, duties_send, bigSep_singleton, payload_send]
theorem rest_recv (j : Fin 3) : bigSep ((sched (F := F) m).duties (recvCell c j) 0 \ ∅) (fun d => (sched (F := F) m).payload (recvCell c j) 0 d)
    = recvPay m c j := by
  rw [Finset.sdiff_empty, duties_recv, bigSep_singleton, payload_recv]

end Sched

/-! ## Levels -/

/-- The three receive credits a device still owes at its barrier wait sit at the receive cells of the devices it copies to. -/
private theorem O₃_pos {c : Dev nD} {g : GSem nD τ sig} {u : Unit} (h : 0 < O₃ c g u) :
    g = recvCell (pk c 3) 2 ∨ g = recvCell (pk c 1) 0 ∨ g = recvCell (pk c 2) 1 := by
  unfold O₃ O₄ O₅ at h
  simp only [Pi.add_apply, Finsupp.add_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

/-- A cell that device c owes at launch is one of the six it pays. -/
theorem O₀_pos {c : Dev nD} {g : GSem nD τ sig} {u : Unit} (h : 0 < O₀ c g u) :
    g = recvCell (pk c 3) 2 ∨ g = recvCell (pk c 1) 0 ∨ g = recvCell (pk c 2) 1 ∨ g = barCell (pk c 3) ∨ g = barCell (pk c 1) ∨ g = barCell (pk c 2) := by
  unfold O₀ O₁ O₂ O₃ O₄ O₅ at h
  simp only [Pi.add_apply, Finsupp.add_apply, tallyAt_apply] at h
  by_contra hn
  rw [not_or, not_or, not_or, not_or, not_or] at hn
  rw [if_neg (fun h' => hn.1 h'.1), if_neg (fun h' => hn.2.1 h'.1), if_neg (fun h' => hn.2.2.1 h'.1),
    if_neg (fun h' => hn.2.2.2.1 h'.1), if_neg (fun h' => hn.2.2.2.2.1 h'.1), if_neg (fun h' => hn.2.2.2.2.2 h'.1)] at h
  exact Nat.lt_irrefl 0 h

private theorem lv_recv (c' : Dev nD) (j : Fin 3) : lv (recvCell c' j) () = 2 := by
  dsimp only [lv]
  rw [if_neg (fun h => by cases h)]
  fin_cases j
  · exact if_pos (.inl rfl)
  · exact if_pos (.inr (.inl rfl))
  · exact if_pos (.inr (.inr rfl))
private theorem lv_bar (c' : Dev nD) : lv (barCell c') () = 1 := by dsimp only [lv]; exact if_pos rfl

/-- A wait on a semaphore that is neither the barrier nor a receive semaphore is below everything owed at launch (or nothing is owed). -/
theorem mayWait_low (c : Dev nD) (q : DmaSem sig) (hq : ∀ j, SemLoc.dma q ≠ .dma (recvSem j)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl | rfl | rfl <;> exact Finset.mem_singleton_self _)
      (fun p hp => by
        rw [Finset.mem_singleton.mp hp]; dsimp only [lv]
        rw [if_neg (fun h => by cases h), if_neg (fun h => by rcases h with h | h | h <;> exact hq _ h)])
      (fun g u hg => by
        rcases O₀_pos hg with rfl | rfl | rfl | rfl | rfl | rfl
        · rw [lv_recv]; decide
        · rw [lv_recv]; decide
        · rw [lv_recv]; decide
        · rw [lv_bar]; decide
        · rw [lv_bar]; decide
        · rw [lv_bar]; decide)
  · rw [MayWait_zero]; iintro -; iempintro

/-- At its barrier wait a device owes three receive credits only: receive cells, above its barrier cell. -/
theorem mayWait_bar (c : Dev nD) :
    (levAts L lv : sProp 𝕄) ⊢ MayWait (c : Thread nD τ) (.reg barS) () (O₃ c) := by
  exact MayOwe.of_cut (L := L) (lev := lv) 1 (fun p hp => by rw [Finset.mem_singleton.mp hp, L_tc]; exact Finset.mem_singleton_self _)
    (fun g u hg => by rcases O₃_pos hg with rfl | rfl | rfl <;> exact Finset.mem_singleton_self _)
    (fun p hp => by rw [Finset.mem_singleton.mp hp]; dsimp only [lv]; rw [if_pos rfl])
    (fun g u hg => by
      rcases O₃_pos hg with rfl | rfl | rfl
      · rw [lv_recv]; decide
      · rw [lv_recv]; decide
      · rw [lv_recv]; decide)

/-- info: 'Cert.Kernel.Proto.mayWait_bar' depends on axioms: [propext, Classical.choice, Quot.sound] -/
#guard_msgs in #print axioms mayWait_bar

end Cert.Kernel.Proto

end
-- ==== Proof.Bits.Geom.lean ====
/- The scratch's four rows: which entries each copy's view and each load's rectangle address, how the whole scratch
   splits into its rows and row 0 into three shares, and what the store of the statistics, a landing, and a load of a
   row say about contents. -/
import proofs.«900519_g7700000000000520_dist_diff_noisepred_hshard_i_b2_h64_w64_c64_v7x_i4_bf16_1_alg».proof.Proof.Bits.Proto
import Idealize.ShloMosaic.Lib.Pipeline.Value

noncomputable section

namespace Cert.Kernel.Proto

open Cert.Kernel Cert.Kernel.Gen Cert.Kernel.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which entries -/

/-- A unit rectangle one row deep at row k, whole on the other two axes, addresses exactly row k. -/
theorem set_unit_row (k : Fin 4) (off : Fin 3 → Nat) (h0 : off 0 = k.val) (h1 : off 1 = 0) (h2 : off 2 = 0)
    (inb : ∀ a, off a + S1x4x64.size a ≤ S4x4x64.size a) :
    (Rect.unit (s := S4x4x64) off S1x4x64.size inb).set = rowSet k := by
  ext i
  rw [Rect.mem_set_unit]
  simp only [rowSet, Finset.mem_filter, Finset.mem_univ, true_and]
  constructor
  · intro h
    have h' : off 0 ≤ (i 0).val ∧ (i 0).val < off 0 + 1 := h 0
    rw [h0] at h'
    omega
  · intro h a
    match a with
    | ⟨0, _⟩ =>
      show off 0 ≤ (i 0).val ∧ (i 0).val < off 0 + 1
      rw [h0]; omega
    | ⟨1, _⟩ =>
      have hi : (i 1).val < 4 := (i 1).isLt
      show off 1 ≤ (i 1).val ∧ (i 1).val < off 1 + 4
      rw [h1]; omega
    | ⟨2, _⟩ =>
      have hi : (i 2).val < 64 := (i 2).isLt
      show off 2 ≤ (i 2).val ∧ (i 2).val < off 2 + 64
      rw [h2]; omega

theorem set_r0 : r0.set = rowSet 0 := set_unit_row 0 _ rfl rfl rfl _
theorem set_r1 : r1.set = rowSet 1 := set_unit_row 1 _ rfl rfl rfl _
theorem set_r2 : r2.set = rowSet 2 := set_unit_row 2 _ rfl rfl rfl _
theorem set_r3 : r3.set = rowSet 3 := set_unit_row 3 _ rfl rfl rfl _
theorem set_sl0 : sl0.view.set = rowSet 0 := by
  simp only [Memref.view_squeeze, Memref.view_slice, Memref.view_whole, View.set_reshape, View.set_slice_whole]
  exact set_r0
theorem set_sl1 : sl1.view.set = rowSet 1 := by
  simp only [Memref.view_squeeze, Memref.view_slice, Memref.view_whole, View.set_reshape, View.set_slice_whole]
  exact set_r1
theorem set_sl2 : sl2.view.set = rowSet 2 := by
  simp only [Memref.view_squeeze, Memref.view_slice, Memref.view_whole, View.set_reshape, View.set_slice_whole]
  exact set_r2
theorem set_sl3 : sl3.view.set = rowSet 3 := by
  simp only [Memref.view_squeeze, Memref.view_slice, Memref.view_whole, View.set_reshape, View.set_slice_whole]
  exact set_r3
/-- The entries a load or store of row k through the whole scratch touches. -/
theorem setOn_r0 : scrM.view.setOn r0.toLoadRect.set = rowSet 0 := by
  show Finset.map (Function.Embedding.refl _) r0.toLoadRect.set = _
  rw [Finset.map_refl]; exact set_r0
theorem setOn_r1 : scrM.view.setOn r1.toLoadRect.set = rowSet 1 := by
  show Finset.map (Function.Embedding.refl _) r1.toLoadRect.set = _
  rw [Finset.map_refl]; exact set_r1
theorem setOn_r2 : scrM.view.setOn r2.toLoadRect.set = rowSet 2 := by
  show Finset.map (Function.Embedding.refl _) r2.toLoadRect.set = _
  rw [Finset.map_refl]; exact set_r2
theorem setOn_r3 : scrM.view.setOn r3.toLoadRect.set = rowSet 3 := by
  show Finset.map (Function.Embedding.refl _) r3.toLoadRect.set = _
  rw [Finset.map_refl]; exact set_r3
theorem access_r0_set : (scrM.access r0 : View sig .tc _ _ _).set = rowSet 0 := by
  show ((View.whole cc0_scratch0).slice r0 : View sig .tc _ _ _).set = _
  rw [View.set_slice_whole]; exact set_r0
theorem access_r0_setOn_univ : (scrM.access r0 : View sig .tc _ _ _).setOn Finset.univ = rowSet 0 := by
  rw [View.setOn_univ]; exact access_r0_set

theorem rowSet_disjoint (k k' : Fin 4) (h : k ≠ k') : Disjoint (rowSet k) (rowSet k') := by
  unfold rowSet
  rw [Finset.disjoint_filter]
  intro i _ hk hk'
  exact h (Fin.ext (hk.symm.trans hk'))
theorem rowSet_cover : (Finset.univ : Finset S4x4x64.Idx) = (Finset.univ : Finset (Fin 4)).biUnion rowSet := by
  ext i
  simp only [Finset.mem_univ, Finset.mem_biUnion, true_and, true_iff]
  exact ⟨⟨(i 0).val, (i 0).isLt⟩, by simp only [rowSet, Finset.mem_filter, Finset.mem_univ, true_and]⟩

/-! ## Splitting and joining -/

/-- Four things indexed by the four rows, one after the other. -/
theorem bigSep_rows (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The whole scratch is its four rows. -/
theorem scr_split (c : Dev nD) (f : Buf (Elt F) ((c : Thread nD τ).loc cc0_scratch0)) :
    ((((c : Thread nD τ).loc cc0_scratch0) ↦{fullShare} f : sProp 𝕄))
      ⊣⊢ iprop(rowPts c 0 fullShare f ∗ rowPts c 1 fullShare f ∗ rowPts c 2 fullShare f ∗ rowPts c 3 fullShare f) := by
  have h : ((((c : Thread nD τ).loc cc0_scratch0) ↦[(Finset.univ : Finset (Fin 4)).biUnion rowSet]{fullShare} f : sProp 𝕄))
      = bigSep Finset.univ fun k => rowPts c k fullShare f :=
    pointsTo_biUnion _ _ fun k _ k' _ hk => rowSet_disjoint k k' hk
  rw [← rowSet_cover, bigSep_rows] at h
  rw [h]
/-- Four rows at whatever contents are the whole scratch at some contents. -/
theorem scr_join (c : Dev nD) (f0 f1 f2 f3 : Buf (Elt F) ((c : Thread nD τ).loc cc0_scratch0)) :
    iprop(rowPts c 0 fullShare f0 ∗ rowPts c 1 fullShare f1 ∗ rowPts c 2 fullShare f2 ∗ rowPts c 3 fullShare f3) ⊢ (scrAny c : sProp 𝕄) := by
  have h := pointsTo_biUnion_join (nD := nD) (τ := τ) (sig := sig) (Ix := Unit) (Val := Elt F) (Name := ℕ) (U := UU) (Lvl := ℕ)
    (ℓ := (c : Thread nD τ).loc cc0_scratch0) (q := fullShare) (Finset.univ : Finset (Fin 4)) rowSet
    (fun k => match k with | ⟨0, _⟩ => f0 | ⟨1, _⟩ => f1 | ⟨2, _⟩ => f2 | ⟨3, _⟩ => f3) f0
    fun k _ k' _ hk => rowSet_disjoint k k' hk
  rw [bigSep_rows, ← rowSet_cover] at h
  refine BIBase.Entails.trans h ?_
  iintro ⟨%g, _, H⟩
  unfold scrAny
  iexists g
  iexact H
/-- Row 0 under the full share is row 0 under the three parts. -/
theorem row0_shares (c : Dev nD) (f : Buf (Elt F) ((c : Thread nD τ).loc cc0_scratch0)) :
    (rowPts c 0 fullShare f : sProp 𝕄) ⊣⊢ iprop(rowPts c 0 (sh 0) f ∗ rowPts c 0 (sh 1) f ∗ rowPts c 0 (sh 2) f) := by
  have e0 : sh 0 = fullShare.left := rfl
  have e1 : sh 1 = fullShare.right.left := rfl
  have e2 : sh 2 = fullShare.right.right := rfl
  rw [e0, e1, e2]
  unfold rowPts
  exact (pointsTo_share (PosShare.mem_left_op_right fullShare)).trans
    (sep_congr_right (pointsTo_share (PosShare.mem_left_op_right fullShare.right)))

/-! ## Contents -/

/-- The canonical contents at an entry of a row, read through a one-row rectangle whole on axes 1 and 2: the statistics
    at the rectangle's own index (the row offset plays no part). -/
theorem rowsOf_emb (c : Dev nD) (x : Vec F S2x64x64x64 .f32) (off : Fin 3 → Nat) (h1 : off 1 = 0) (h2 : off 2 = 0)
    (inb : ∀ a, off a + S1x4x64.size a ≤ S4x4x64.size a) (y : S1x4x64.Idx) :
    rowsOf c x ((Rect.unit (s := S4x4x64) off S1x4x64.size inb).emb y) = stat x y := by
  unfold rowsOf
  congr 1
  funext a
  match a with
  | ⟨0, _⟩ =>
    have hy : (y 0).val < 1 := (y 0).isLt
    exact Fin.ext (by show 0 = (y 0).val; omega)
  | ⟨1, _⟩ => exact Fin.ext (by show off 1 + 1 * (y 1).val = (y 1).val; omega)
  | ⟨2, _⟩ => exact Fin.ext (by show off 2 + 1 * (y 2).val = (y 2).val; omega)

/-- After the statistics are stored to row 0, row 0 holds them. -/
theorem store_row0 (c : Dev nD) (f : Buf (Elt F) ((c : Thread nD τ).loc cc0_scratch0)) (x : Vec F S2x64x64x64 .f32) :
    ∀ i ∈ rowSet 0, ((scrM.access r0 : View sig .tc _ _ _).write (Elt F) f (stat x) Finset.univ) i = rowsOf c x i := by
  intro i hi
  rw [← access_r0_set] at hi
  obtain ⟨y, rfl⟩ := View.exists_emb_of_mem_set _ hi
  rw [View.write_emb_of_mem _ _ (Finset.mem_univ y)]
  exact (rowsOf_emb c x _ rfl rfl _ y).symm

/-- A copy of the sender's row 0 landing in row k of the receiver: the row then holds the sender's statistics. -/
theorem land_row1 (c c' : Dev nD) (fd : Buf (Elt F) ((c : Thread nD τ).loc cc0_scratch0)) (x : Vec F S2x64x64x64 .f32) :
    ∀ i ∈ rowSet 1, (sl1.view.write (Elt F) fd (sl0.view.read (Elt F) (rowsOf c' x)) Finset.univ) i = rowsOf c x i := by
  intro i hi
  rw [← set_sl1] at hi
  obtain ⟨y, rfl⟩ := View.exists_emb_of_mem_set _ hi
  rw [View.write_emb_of_mem _ _ (Finset.mem_univ y)]
  exact (rowsOf_emb c' x _ rfl rfl _ _).trans (rowsOf_emb c x _ rfl rfl _ _).symm
theorem land_row2 (c c' : Dev nD) (fd : Buf (Elt F) ((c : Thread nD τ).loc cc0_scratch0)) (x : Vec F S2x64x64x64 .f32) :
    ∀ i ∈ rowSet 2, (sl2.view.write (Elt F) fd (sl0.view.read (Elt F) (rowsOf c' x)) Finset.univ) i = rowsOf c x i := by
  intro i hi
  rw [← set_sl2] at hi
  obtain ⟨y, rfl⟩ := View.exists_emb_of_mem_set _ hi
  rw [View.write_emb_of_mem _ _ (Finset.mem_univ y)]
  exact (rowsOf_emb c' x _ rfl rfl _ _).trans (rowsOf_emb c x _ rfl rfl _ _).symm
theorem land_row3 (c c' : Dev nD) (fd : Buf (Elt F) ((c : Thread nD τ).loc cc0_scratch0)) (x : Vec F S2x64x64x64 .f32) :
    ∀ i ∈ rowSet 3, (sl3.view.write (Elt F) fd (sl0.view.read (Elt F) (rowsOf c' x)) Finset.univ) i = rowsOf c x i := by
  intro i hi
  rw [← set_sl3] at hi
  obtain ⟨y, rfl⟩ := View.exists_emb_of_mem_set _ hi
  rw [View.write_emb_of_mem _ _ (Finset.mem_univ y)]
  exact (rowsOf_emb c' x _ rfl rfl _ _).trans (rowsOf_emb c x _ rfl rfl _ _).symm

/-- A load of row k of a scratch whose rows hold the statistics of x reads them. -/
theorem load_row0 (c : Dev nD) (x : Vec F S2x64x64x64 .f32) : scrM.view.readAt (Elt F) r0.toLoadRect (rowsOf c x) = stat x :=
  funext fun y => rowsOf_emb c x _ rfl rfl _ y
theorem load_row1 (c : Dev nD) (x : Vec F S2x64x64x64 .f32) : scrM.view.readAt (Elt F) r1.toLoadRect (rowsOf c x) = stat x :=
  funext fun y => rowsOf_emb c x _ rfl rfl _ y
theorem load_row2 (c : Dev nD) (x : Vec F S2x64x64x64 .f32) : scrM.view.readAt (Elt F) r2.toLoadRect (rowsOf c x) = stat x :=
  funext fun y => rowsOf_emb c x _ rfl rfl _ y
theorem load_row3 (c : Dev nD) (x : Vec F S2x64x64x64 .f32) : scrM.view.readAt (Elt F) r3.toLoadRect (rowsOf c x) = stat x :=
  funext fun y => rowsOf_emb c x _ rfl rfl _ y

/-- info: 'Cert.Kernel.Proto.scr_split' depends on axioms: [propext, Classical.choice, Quot.sound] -/
#guard_msgs in #print axioms scr_split

/-- info: 'Cert.Kernel.Proto.scr_join' depends on axioms: [propext, Classical.choice, Quot.sound] -/
#guard_msgs in #print axioms scr_join

/-- info: 'Cert.Kernel.Proto.row0_shares' depends on axioms: [propext, Classical.choice, Quot.sound] -/
#guard_msgs in #print axioms row0_shares

/-- info: 'Cert.Kernel.Proto.store_row0' depends on axioms: [propext, Classical.choice, Quot.sound] -/
#guard_msgs in #print axioms store_row0

/-- info: 'Cert.Kernel.Proto.land_row3' depends on axioms: [propext, Classical.choice, Quot.sound] -/
#guard_msgs in #print axioms land_row3

/-- info: 'Cert.Kernel.Proto.load_row3' depends on axioms: [propext, Classical.choice, Quot.sound] -/
#guard_msgs in #print axioms load_row3

end Cert.Kernel.Proto

end
-- ==== Proof.Bits.Body.lean ====
/- One device's body, stepped from what it holds at entry: three signals, its own statistics stored to row 0, the wait for
   the three others' signals (which bring the rows it will write), three copies of row 0 read under three shares, the
   waits that bring the shares back and the three landed rows, then the loads, the arithmetic and the store of the result. -/
import proofs.«900519_g7700000000000520_dist_diff_noisepred_hshard_i_b2_h64_w64_c64_v7x_i4_bf16_1_alg».proof.Proof.Bits.Proto
import proofs.«900519_g7700000000000520_dist_diff_noisepred_hshard_i_b2_h64_w64_c64_v7x_i4_bf16_1_alg».proof.Proof.Bits.Tables
import proofs.«900519_g7700000000000520_dist_diff_noisepred_hshard_i_b2_h64_w64_c64_v7x_i4_bf16_1_alg».proof.Proof.Bits.Geom

noncomputable section

namespace Cert.Kernel.Proto

open Cert.Kernel Cert.Kernel.Gen Cert.Kernel.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body starts from and ends at -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whole at named contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Entry: the exchange's ghost state at names K, the launch credit, the levels, the scratch at some contents, what is owed,
    and the three staging buffers as the pipeline hands them over. -/
def bodyPre (K : Dev nD × Fin 7 → ℕ) (c : Dev nD) : sProp 𝕄 :=
  iprop((ghost m K c ∗ cred (tallyAt (barCell c) () 3)
      ∗ cred (tallyAt (recvCell c 0) () N) ∗ cred (tallyAt (recvCell c 1) () N) ∗ cred (tallyAt (recvCell c 2) () N) ∗ levAts L lv ∗ scrAny c)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- Exit: the scratch whole, the six own cells closed at zero, nothing owed, the arguments' buffers unchanged and the result's at
    the device's value. -/
def bodyPost (c : Dev nD) : sProp 𝕄 :=
  iprop(Φ₁ c ∗ (dats m ρ 0 c).owesAt () t₀.succ
    ∗ stg c cc0_stg0_0 (xstg m ρ c) ∗ stg c cc0_stg1_0 (wstg m ρ c) ∗ stg c cc0_stg2_0 (outVal m c))

/-! ## Seven positions; the cells by name -/

theorem bigSep_F7 {M : Type} [URA M] (Φ : Fin 7 → sProp M) :
    bigSep Finset.univ Φ = iprop(Φ (0 : Fin 7) ∗ Φ (1 : Fin 7) ∗ Φ (2 : Fin 7) ∗ Φ (3 : Fin 7) ∗ Φ (4 : Fin 7) ∗ Φ (5 : Fin 7) ∗ Φ (6 : Fin 7)) :=
  bigSep_univ_eq_bigSepL [(0 : Fin 7), (1 : Fin 7), (2 : Fin 7), (3 : Fin 7), (4 : Fin 7), (5 : Fin 7), (6 : Fin 7)] (by decide) (by decide) Φ

theorem kcell_0 (c : Dev nD) : kcell (c, (0 : Fin 7)) = barCell c := rfl
theorem kcell_1 (c : Dev nD) : kcell (c, (1 : Fin 7)) = sendCell c 0 := rfl
theorem kcell_2 (c : Dev nD) : kcell (c, (2 : Fin 7)) = sendCell c 1 := rfl
theorem kcell_3 (c : Dev nD) : kcell (c, (3 : Fin 7)) = sendCell c 2 := rfl
theorem kcell_4 (c : Dev nD) : kcell (c, (4 : Fin 7)) = recvCell c 0 := rfl
theorem kcell_5 (c : Dev nD) : kcell (c, (5 : Fin 7)) = recvCell c 1 := rfl
theorem kcell_6 (c : Dev nD) : kcell (c, (6 : Fin 7)) = recvCell c 2 := rfl

/-- Every cell of the exchange has reached round 0: one of them. -/
theorem reached_of_all (ck : Dev nD × Fin 7) :
    (bigSep Finset.univ fun ck : Dev nD × Fin 7 => reached (ER (F := F)) (kcell ck) 0) ⊢ reached (ER (F := F)) (kcell ck) 0 :=
  bigSep_elim (Finset.mem_univ ck)

/-- An addressed copy's destination device, respelt. -/
theorem send_dev {α : Type} {Q : α → sProp 𝕄} (c : Dev nD) {d c' : Dev nD} (hdc : d = c')
    {sp sp' : Space} {s : Shape} {e : EltTy}
    {src : Memref sig .tc sp s e} {dst : Memref sig .tc sp' s e} {hsc : dst.view.ref.isScScratch = false} {sS sem : SemLoc sig}
    {hsrc : src.view.WordExact} {hdst : dst.view.WordExact} {hsem : DmaTarget.Typed sp sem (.remote (Dev.tc d) dst sS hsc)}
    {k : PUnit → Prog (TpuEff nD τ sig (Elt F) Λ₀ .tc) α} {Es : Set ℕ} :
    wp (M := 𝕄) frame (wpE' (defs₀ (F := F)) 𝒱₀ (c : Thread nD τ) none PendingWaitsCtx.empty) Es (.op (.enqueueDma src (.remote (Dev.tc c') dst sS hsc) sem hsrc hdst (hdc ▸ hsem)) k) Q
      ⊢ wp (M := 𝕄) frame (wpE' (defs₀ (F := F)) 𝒱₀ (c : Thread nD τ) none PendingWaitsCtx.empty) Es (.op (.enqueueDma src (.remote (Dev.tc d) dst sS hsc) sem hsrc hdst hsem) k) Q := by
  subst hdc; exact BI.Entails.refl _

/-! ## The staged arguments as the pipeline hands them over -/

theorem xstg_eq (c : Dev nD) : xstg m ρ c = X m c := by
  unfold xstg
  exact Memref.read_access_unit_zero (Elt F) main_arg0 (funext fun a => Nat.zero_mul _) _ _
theorem wstg_eq (c : Dev nD) : wstg m ρ c = Wp m c := by
  unfold wstg
  exact Memref.read_access_unit_zero (Elt F) main_arg1 (funext fun a => Nat.zero_mul _) _ _
theorem before_x (c : Dev nD) (d) : (dats m ρ 0 c).before (0 : Fin 3) t₀ d = X m c := by
  unfold Dat.before; rw [if_pos (show (cfg0.win 0).fetch t₀ = true from rfl)]
  exact xstg_eq m ρ c
theorem before_w (c : Dev nD) (d) : (dats m ρ 0 c).before (1 : Fin 3) t₀ d = Wp m c := by
  unfold Dat.before; rw [if_pos (show (cfg0.win 1).fetch t₀ = true from rfl)]
  exact wstg_eq m ρ c

/-- A load of a whole staging buffer reads its contents. -/
theorem read_x (c : Dev nD) (f : Buf (Elt F) ((c : Thread nD τ).loc cc0_stg0_0)) :
    xM.view.readAt (Elt F) (Rect.unit (s := S2x64x64x64) ![0, 0, 0, 0] S2x64x64x64.size Facts₀.inb_S2x64x64x64_S2x64x64x64_0_0_0_0).toLoadRect f = f :=
  Memref.readAt_unit_zero (Elt F) cc0_stg0_0 (by funext a; fin_cases a <;> rfl) _ f
theorem read_w (c : Dev nD) (f : Buf (Elt F) ((c : Thread nD τ).loc cc0_stg1_0)) :
    wM.view.readAt (Elt F) (Rect.unit (s := S64x128) ![0, 0] S64x128.size Facts₀.inb_S64x128_S64x128_0_0).toLoadRect f = f :=
  Memref.readAt_unit_zero (Elt F) cc0_stg1_0 (by funext a; fin_cases a <;> rfl) _ f

/-! ## The rows and the round's payloads, spelt as the points-to they are -/

theorem scr_split' (c : Dev nD) (f : Buf (Elt F) ((c : Thread nD τ).loc cc0_scratch0)) :
    ((((c : Thread nD τ).loc cc0_scratch0) ↦{fullShare} f : sProp 𝕄))
      ⊢ iprop((((c : Thread nD τ).loc cc0_scratch0) ↦[rowSet 0]{fullShare} f) ∗ (((c : Thread nD τ).loc cc0_scratch0) ↦[rowSet 1]{fullShare} f)
          ∗ (((c : Thread nD τ).loc cc0_scratch0) ↦[rowSet 2]{fullShare} f) ∗ (((c : Thread nD τ).loc cc0_scratch0) ↦[rowSet 3]{fullShare} f)) :=
  (scr_split c f).1
theorem scr_join' (c : Dev nD) (f0 f1 f2 f3 : Buf (Elt F) ((c : Thread nD τ).loc cc0_scratch0)) :
    iprop((((c : Thread nD τ).loc cc0_scratch0) ↦[rowSet 0]{fullShare} f0) ∗ (((c : Thread nD τ).loc cc0_scratch0) ↦[rowSet 1]{fullShare} f1)
          ∗ (((c : Thread nD τ).loc cc0_scratch0) ↦[rowSet 2]{fullShare} f2) ∗ (((c : Thread nD τ).loc cc0_scratch0) ↦[rowSet 3]{fullShare} f3))
      ⊢ (iprop(∃ f : Buf (Elt F) ((c : Thread nD τ).loc cc0_scratch0), ((c : Thread nD τ).loc cc0_scratch0) ↦{fullShare} f) : sProp 𝕄) :=
  scr_join c f0 f1 f2 f3
theorem row0_split' (c : Dev nD) (f : Buf (Elt F) ((c : Thread nD τ).loc cc0_scratch0)) :
    ((((c : Thread nD τ).loc cc0_scratch0) ↦[rowSet 0]{fullShare} f : sProp 𝕄))
      ⊢ iprop((((c : Thread nD τ).loc cc0_scratch0) ↦[rowSet 0]{sh 0} f) ∗ (((c : Thread nD τ).loc cc0_scratch0) ↦[rowSet 0]{sh 1} f)
          ∗ (((c : Thread nD τ).loc cc0_scratch0) ↦[rowSet 0]{sh 2} f)) :=
  (row0_shares c f).1
theorem row0_join' (c : Dev nD) (f : Buf (Elt F) ((c : Thread nD τ).loc cc0_scratch0)) :
    iprop((((c : Thread nD τ).loc cc0_scratch0) ↦[rowSet 0]{sh 0} f) ∗ (((c : Thread nD τ).loc cc0_scratch0) ↦[rowSet 0]{sh 1} f)
          ∗ (((c : Thread nD τ).loc cc0_scratch0) ↦[rowSet 0]{sh 2} f))
      ⊢ ((((c : Thread nD τ).loc cc0_scratch0) ↦[rowSet 0]{fullShare} f : sProp 𝕄)) :=
  (row0_shares c f).2

/-- What the barrier wait brings: the three others' rows, at some contents. -/
theorem rest_bar' (c : Dev nD) :
    bigSep ((sched (F := F) m).duties (barCell c) 0 \ ∅) (fun d => (sched (F := F) m).payload (barCell c) 0 d)
      ⊢ iprop((∃ f, (((pk c 1 : Dev nD) : Thread nD τ).loc cc0_scratch0) ↦[rowSet 1]{fullShare} f)
          ∗ (∃ f, (((pk c 2 : Dev nD) : Thread nD τ).loc cc0_scratch0) ↦[rowSet 2]{fullShare} f)
          ∗ (∃ f, (((pk c 3 : Dev nD) : Thread nD τ).loc cc0_scratch0) ↦[rowSet 3]{fullShare} f)) :=
  Entails.of_eq (rest_bar m c)
/-- What a send wait brings: its share of row 0. -/
theorem rest_send' (c : Dev nD) (j : Fin 3) :
    bigSep ((sched (F := F) m).duties (sendCell c j) 0 \ ∅) (fun d => (sched (F := F) m).payload (sendCell c j) 0 d)
      ⊢ ((((c : Thread nD τ).loc cc0_scratch0) ↦[rowSet 0]{sh j} (rowsOf c (X m c)) : sProp 𝕄)) :=
  Entails.of_eq (rest_send m c j)
/-- What the receive waits bring: rows 1, 2, 3 holding the statistics of the devices 3, 2, 1 places further. -/
theorem rest_recv0' (c : Dev nD) :
    bigSep ((sched (F := F) m).duties (recvCell c 0) 0 \ ∅) (fun d => (sched (F := F) m).payload (recvCell c 0) 0 d)
      ⊢ ((((c : Thread nD τ).loc cc0_scratch0) ↦[rowSet 1]{fullShare} (rowsOf c (X m (pk c 3))) : sProp 𝕄)) :=
  Entails.of_eq (rest_recv m c 0)
theorem rest_recv1' (c : Dev nD) :
    bigSep ((sched (F := F) m).duties (recvCell c 1) 0 \ ∅) (fun d => (sched (F := F) m).payload (recvCell c 1) 0 d)
      ⊢ ((((c : Thread nD τ).loc cc0_scratch0) ↦[rowSet 2]{fullShare} (rowsOf c (X m (pk c 2))) : sProp 𝕄)) :=
  Entails.of_eq (rest_recv m c 1)
theorem rest_recv2' (c : Dev nD) :
    bigSep ((sched (F := F) m).duties (recvCell c 2) 0 \ ∅) (fun d => (sched (F := F) m).payload (recvCell c 2) 0 d)
      ⊢ ((((c : Thread nD τ).loc cc0_scratch0) ↦[rowSet 3]{fullShare} (rowsOf c (X m (pk c 1))) : sProp 𝕄)) :=
  Entails.of_eq (rest_recv m c 2)

/-- The six own cells closed at zero, as the exit states them. -/
theorem closed_six (c : Dev nD) :
    iprop(semVal (sendCell c 0) 0 ∗ semVal (sendCell c 1) 0 ∗ semVal (sendCell c 2) 0
        ∗ semVal (recvCell c 0) 0 ∗ semVal (recvCell c 1) 0 ∗ semVal (recvCell c 2) 0)
      ⊢ (bigSep Finset.univ fun i : Fin 6 => semVal ((c : Thread nD τ), osem i) 0 : sProp 𝕄) := by
  rw [bigSep_univ_eq_bigSepL [(0 : Fin 6), (1 : Fin 6), (2 : Fin 6), (3 : Fin 6), (4 : Fin 6), (5 : Fin 6)] (by decide) (by decide)]
  exact BI.Entails.refl _

/-- A row held by its entries is the row as a copy addresses it. -/
theorem row_as_sl0 (c : Dev nD) (q : PosShare TreeShare) (f : Buf (Elt F) ((c : Thread nD τ).loc cc0_scratch0)) :
    ((((c : Thread nD τ).loc cc0_scratch0) ↦[rowSet 0]{q} f : sProp 𝕄)) ⊢ (sl0.view.loc (c : Thread nD τ) ↦[sl0.view.set]{q} f) := by
  rw [set_sl0]
theorem row_as_sl1 (c : Dev nD) (q : PosShare TreeShare) (f : Buf (Elt F) ((c : Thread nD τ).loc cc0_scratch0)) :
    ((((c : Thread nD τ).loc cc0_scratch0) ↦[rowSet 1]{q} f : sProp 𝕄)) ⊢ (sl1.view.loc (c : Thread nD τ) ↦[sl1.view.set]{q} f) := by
  rw [set_sl1]
theorem row_as_sl2 (c : Dev nD) (q : PosShare TreeShare) (f : Buf (Elt F) ((c : Thread nD τ).loc cc0_scratch0)) :
    ((((c : Thread nD τ).loc cc0_scratch0) ↦[rowSet 2]{q} f : sProp 𝕄)) ⊢ (sl2.view.loc (c : Thread nD τ) ↦[sl2.view.set]{q} f) := by
  rw [set_sl2]
theorem row_as_sl3 (c : Dev nD) (q : PosShare TreeShare) (f : Buf (Elt F) ((c : Thread nD τ).loc cc0_scratch0)) :
    ((((c : Thread nD τ).loc cc0_scratch0) ↦[rowSet 3]{q} f : sProp 𝕄)) ⊢ (sl3.view.loc (c : Thread nD τ) ↦[sl3.view.set]{q} f) := by
  rw [set_sl3]

/-- The six transfer semaphores as the program spells them. -/
theorem sem_send0 : ((cc0_scratch1.slice (Rect.unit (s := S3) ![0] S1.size Facts₀.inb_S3_S1_0)).squeeze S_ Facts₀.squeezes_S1_S_).sem = sendSem 0 := rfl
theorem sem_send1 : ((cc0_scratch1.slice (Rect.unit (s := S3) ![1] S1.size Facts₀.inb_S3_S1_1)).squeeze S_ Facts₀.squeezes_S1_S_).sem = sendSem 1 := rfl
theorem sem_send2 : ((cc0_scratch1.slice (Rect.unit (s := S3) ![2] S1.size Facts₀.inb_S3_S1_2)).squeeze S_ Facts₀.squeezes_S1_S_).sem = sendSem 2 := rfl
theorem sem_recv0 : ((cc0_scratch2.slice (Rect.unit (s := S3) ![0] S1.size Facts₀.inb_S3_S1_0)).squeeze S_ Facts₀.squeezes_S1_S_).sem = recvSem 0 := rfl
theorem sem_recv1 : ((cc0_scratch2.slice (Rect.unit (s := S3) ![1] S1.size Facts₀.inb_S3_S1_1)).squeeze S_ Facts₀.squeezes_S1_S_).sem = recvSem 1 := rfl
theorem sem_recv2 : ((cc0_scratch2.slice (Rect.unit (s := S3) ![2] S1.size Facts₀.inb_S3_S1_2)).squeeze S_ Facts₀.squeezes_S1_S_).sem = recvSem 2 := rfl

/-- A store over the whole result buffer leaves what is stored. -/
theorem out_stored (c : Dev nD) (f : Buf (Elt F) ((c : Thread nD τ).loc cc0_stg2_0)) (w : Vec F S2x64x64x128 .bf16) :
    (oM.access (Rect.unit (s := S2x64x64x128) ![0, 0, 0, 0] S2x64x64x128.size Facts₀.inb_S2x64x64x128_S2x64x64x128_0_0_0_0) : View sig .tc _ _ _).write (Elt F) f w Finset.univ = w :=
  Memref.write_access_unit_zero_univ (Elt F) cc0_stg2_0 (by funext a; fin_cases a <;> rfl) _ f w

set_option maxHeartbeats 1600000 in
/-- One device's body from entry to exit. -/
theorem sound_body (K : Dev nD × Fin 7 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
        (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _) cc0_scratch1 cc0_scratch2) Kt := by
  unfold bodyPre bodyPost ghost invs
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId, bind_assoc,
    dev1_eq, dev2_eq, dev3_eq, dev4_eq, dev5_eq, dev6_eq,
    sem_send0, sem_send1, sem_send2, sem_recv0, sem_recv1, sem_recv2]
  unfold scrAny
  rw [bigSep_F7, bigSep_F7]
  simp only [kcell_0, kcell_1, kcell_2, kcell_3, kcell_4, kcell_5, kcell_6]
  iintro ⟨⟨⟨⟨⟨⟨#I0, #I1, #I2, #I3, #I4, #I5, #I6⟩, #Ib1, #Ib2, #Ib3, #Ir1, #Ir2, #Ir3⟩, ⟨A0, A1, A2, A3, A4, A5, A6⟩, #Hreach, Tb2, Tb1, Tb3, Tr1, Tr2, Tr3, Ts0, Ts1, Ts2⟩, Cbar, Cr0, Cr1, Cr2, #Hlev, ⟨%f0, Hscr⟩⟩, ⟨%W, %hW, HO⟩, ⟨%d0, %fx, %hfx, Hx⟩, ⟨%d1, %fw, %hfw, Hw⟩, ⟨%d2, %fo, %hfo, Hout⟩⟩, HK⟩
  ihave #Hrb2 := (reached_of_all (pk c 2, (0 : Fin 7))) $$ Hreach
  ihave #Hrb1 := (reached_of_all (pk c 1, (0 : Fin 7))) $$ Hreach
  ihave #Hrb3 := (reached_of_all (pk c 3, (0 : Fin 7))) $$ Hreach
  ihave #Hrs0 := (reached_of_all (c, (1 : Fin 7))) $$ Hreach
  ihave #Hrs1 := (reached_of_all (c, (2 : Fin 7))) $$ Hreach
  ihave #Hrs2 := (reached_of_all (c, (3 : Fin 7))) $$ Hreach
  ihave #Hrr1 := (reached_of_all (pk c 1, (4 : Fin 7))) $$ Hreach
  ihave #Hrr2 := (reached_of_all (pk c 2, (5 : Fin 7))) $$ Hreach
  ihave #Hrr3 := (reached_of_all (pk c 3, (6 : Fin 7))) $$ Hreach
  simp only [kcell_0, kcell_1, kcell_2, kcell_3, kcell_4, kcell_5, kcell_6]
  icases (scr_split' c f0) $$ Hscr with ⟨R0, R1, R2, R3⟩
  have hx0 : fx = X m c := hfx.trans (before_x m ρ c d0)
  have hw0 : fw = Wp m c := hfw.trans (before_w m ρ c d1)
  subst hx0; subst hw0
  -- the three signals: each hands the receiver the row of this device's scratch that its copy will write
  iapply (Rounds.wp_signal 𝒱₀ ER (sched m) (c : Thread nD τ) none (dst := (pk c 2 : Thread nD τ)) (sem := barS) (r := 0) (d := (2 : Fin 4)) (k' := 1)
    (by rw [duties_bar]; decide) (amount_bar m (pk c 2) 2) () (O₁ c) rfl) $$ [HO Tb2 R2]
  · isplitr; · iexact Ib2
    isplitl [HO]; · iexact HO
    isplitl [Tb2]; · iexact Tb2
    isplitl [R2]
    · rw [payload_bar]; unfold barPay rowPts; rw [show pk (pk c 2) ((2 : Fin 4) : ℕ) = c from pk_inv2 c]; iexists f0; iexact R2
    iexact Hrb2
  iintro HO
  iapply (Rounds.wp_signal 𝒱₀ ER (sched m) (c : Thread nD τ) none (dst := (pk c 1 : Thread nD τ)) (sem := barS) (r := 0) (d := (3 : Fin 4)) (k' := 1)
    (by rw [duties_bar]; decide) (amount_bar m (pk c 1) 3) () (O₂ c) rfl) $$ [HO Tb1 R3]
  · isplitr; · iexact Ib1
    isplitl [HO]; · iexact HO
    isplitl [Tb1]; · iexact Tb1
    isplitl [R3]
    · rw [payload_bar]; unfold barPay rowPts; rw [show pk (pk c 1) ((3 : Fin 4) : ℕ) = c from pk_inv1 c]; iexists f0; iexact R3
    iexact Hrb1
  iintro HO
  iapply (Rounds.wp_signal 𝒱₀ ER (sched m) (c : Thread nD τ) none (dst := (pk c 3 : Thread nD τ)) (sem := barS) (r := 0) (d := (1 : Fin 4)) (k' := 1)
    (by rw [duties_bar]; decide) (amount_bar m (pk c 3) 1) () (O₃ c) rfl) $$ [HO Tb3 R1]
  · isplitr; · iexact Ib3
    isplitl [HO]; · iexact HO
    isplitl [Tb3]; · iexact Tb3
    isplitl [R1]
    · rw [payload_bar]; unfold barPay rowPts; rw [show pk (pk c 3) ((1 : Fin 4) : ℕ) = c from pk_inv3 c]; iexists f0; iexact R1
    iexact Hrb3
  iintro HO
  -- the device's own block is read; its statistics go to row 0
  iapply (wp_load 𝒱₀ (c : Thread nD τ) none Set.univ (m := xM) (S := Finset.univ) (q := fullShare) (f := X m c) (Finset.subset_univ _)) $$ Hx
  iintro Hx
  rw [read_x c]
  iapply (wp_load 𝒱₀ (c : Thread nD τ) none Set.univ (m := scrM) (S := rowSet 0) (q := fullShare) (f := f0) (Finset.subset_of_eq setOn_r0)) $$ R0
  iintro R0
  iapply (wp_store 𝒱₀ (c : Thread nD τ) none Set.univ (m := scrM) (r := r0) (S := rowSet 0) (f := f0) (Finset.subset_of_eq access_r0_setOn_univ)) $$ R0
  iintro R0
  ihave R0 := (Entails.of_eq (pointsTo_congr (store_row0 c f0 (X m c)))) $$ R0
  -- the wait for the three others' signals: their rows come
  iapply (Rounds.wp_wait_rest_token 𝒱₀ ER (sched m) (c : Thread nD τ) none (wpE_semWait_eq 𝒱₀ (c : Thread nD τ) none Set.univ) (Set.mem_univ (K (c, 0)))
    () (R := 0) (T := ∅) (m := 0) (k' := 3) (by rw [expect_bar])) $$ [Cbar HO A0]
  · isplitr; · iexact I0
    isplitl [Cbar]; · iexact Cbar
    isplitl [HO]; · iexact HO
    isplitr; · iapply (mayWait_bar c); iexact Hlev
    iexact A0
  iintro ⟨HO, A0, -, Hrest⟩
  ihave Hp := (rest_bar' m c) $$ Hrest
  icases Hp with ⟨⟨%g1, P1⟩, ⟨%g2, P2⟩, ⟨%g3, P3⟩⟩
  icases (row0_split' c (rowsOf c (X m c))) $$ R0 with ⟨S0, S1, S2⟩
  -- the three copies of row 0, each read under its own share, into the rows the others handed over
  iapply (send_dev c (dev4_eq c))
  iapply (Rounds.wp_send_pointsTo 𝒱₀ ER (sched m) (c : Thread nD τ) none (c' := (pk c 2 : Thread nD τ)) (src := sl0) (dst := sl2)
    (sS := .dma (sendSem 1)) (sem := .dma (recvSem 1)) (q := sh 1) (fs := rowsOf c (X m c)) (fd := g2) (r₁ := 0) (r₂ := 0) (d₁ := (0 : Fin 4)) (d₂ := (0 : Fin 4))
    (by rw [duties_send]; exact Finset.mem_singleton_self _) (by rw [duties_recv]; exact Finset.mem_singleton_self _)
    () () N rfl (amount_send m c 1 0) (amount_recv m (pk c 2) 1 0) (O₄ c) rfl
    (by rw [payload_send, set_sl0]; exact BI.Entails.refl _)
    (by rw [payload_recv, set_sl2, pointsTo_congr (land_row2 (pk c 2) c g2 (X m c))]
        unfold recvPay rowPts
        rw [show pk (pk c 2) (3 - ((1 : Fin 3) : ℕ)) = c from pk_inv2 c]
        exact BI.Entails.refl _)) $$ [S1 P2 HO Ts1 Tr2]
  · isplitr; · iexact I2
    isplitr; · iexact Ir2
    isplitl [S1]; · iapply (row_as_sl0 c (sh 1) (rowsOf c (X m c))); iexact S1
    isplitl [P2]; · iapply (row_as_sl2 (pk c 2) fullShare g2); iexact P2
    isplitl [HO]; · iexact HO
    isplitl [Ts1]; · iexact Ts1
    isplitr; · iexact Hrs1
    isplitl [Tr2]; · iexact Tr2
    iexact Hrr2
  iintro ⟨Cs1, HO⟩
  iapply (send_dev c (dev5_eq c))
  iapply (Rounds.wp_send_pointsTo 𝒱₀ ER (sched m) (c : Thread nD τ) none (c' := (pk c 1 : Thread nD τ)) (src := sl0) (dst := sl1)
    (sS := .dma (sendSem 0)) (sem := .dma (recvSem 0)) (q := sh 0) (fs := rowsOf c (X m c)) (fd := g1) (r₁ := 0) (r₂ := 0) (d₁ := (0 : Fin 4)) (d₂ := (0 : Fin 4))
    (by rw [duties_send]; exact Finset.mem_singleton_self _) (by rw [duties_recv]; exact Finset.mem_singleton_self _)
    () () N rfl (amount_send m c 0 0) (amount_recv m (pk c 1) 0 0) (O₅ c) rfl
    (by rw [payload_send, set_sl0]; exact BI.Entails.refl _)
    (by rw [payload_recv, set_sl1, pointsTo_congr (land_row1 (pk c 1) c g1 (X m c))]
        unfold recvPay rowPts
        rw [show pk (pk c 1) (3 - ((0 : Fin 3) : ℕ)) = c from pk_inv1 c]
        exact BI.Entails.refl _)) $$ [S0 P1 HO Ts0 Tr1]
  · isplitr; · iexact I1
    isplitr; · iexact Ir1
    isplitl [S0]; · iapply (row_as_sl0 c (sh 0) (rowsOf c (X m c))); iexact S0
    isplitl [P1]; · iapply (row_as_sl1 (pk c 1) fullShare g1); iexact P1
    isplitl [HO]; · iexact HO
    isplitl [Ts0]; · iexact Ts0
    isplitr; · iexact Hrs0
    isplitl [Tr1]; · iexact Tr1
    iexact Hrr1
  iintro ⟨Cs0, HO⟩
  iapply (send_dev c (dev6_eq c))
  iapply (Rounds.wp_send_pointsTo 𝒱₀ ER (sched m) (c : Thread nD τ) none (c' := (pk c 3 : Thread nD τ)) (src := sl0) (dst := sl3)
    (sS := .dma (sendSem 2)) (sem := .dma (recvSem 2)) (q := sh 2) (fs := rowsOf c (X m c)) (fd := g3) (r₁ := 0) (r₂ := 0) (d₁ := (0 : Fin 4)) (d₂ := (0 : Fin 4))
    (by rw [duties_send]; exact Finset.mem_singleton_self _) (by rw [duties_recv]; exact Finset.mem_singleton_self _)
    () () N rfl (amount_send m c 2 0) (amount_recv m (pk c 3) 2 0) 0 (zero_add _).symm
    (by rw [payload_send, set_sl0]; exact BI.Entails.refl _)
    (by rw [payload_recv, set_sl3, pointsTo_congr (land_row3 (pk c 3) c g3 (X m c))]
        unfold recvPay rowPts
        rw [show pk (pk c 3) (3 - ((2 : Fin 3) : ℕ)) = c from pk_inv3 c]
        exact BI.Entails.refl _)) $$ [S2 P3 HO Ts2 Tr3]
  · isplitr; · iexact I3
    isplitr; · iexact Ir3
    isplitl [S2]; · iapply (row_as_sl0 c (sh 2) (rowsOf c (X m c))); iexact S2
    isplitl [P3]; · iapply (row_as_sl3 (pk c 3) fullShare g3); iexact P3
    isplitl [HO]; · iexact HO
    isplitl [Ts2]; · iexact Ts2
    isplitr; · iexact Hrs2
    isplitl [Tr3]; · iexact Tr3
    iexact Hrr3
  iintro ⟨Cs2, HO⟩
  -- the projection is read
  iapply (wp_load 𝒱₀ (c : Thread nD τ) none Set.univ (m := wM) (S := Finset.univ) (q := fullShare) (f := Wp m c) (Finset.subset_univ _)) $$ Hw
  iintro Hw
  rw [read_w c]
  -- the shares of row 0 come back as the copies have been read out
  iapply (Rounds.wp_wait_rest_token 𝒱₀ ER (sched m) (c : Thread nD τ) none (wpE_waitDma2_eq 𝒱₀ (c : Thread nD τ) none Set.univ) (Set.mem_univ (K (c, 2)))
    () (R := 0) (T := ∅) (m := 0) (Eq.trans (by rfl) (expect_send m c 1).symm)) $$ [Cs1 HO A2]
  · isplitr; · iexact I2
    isplitl [Cs1]; · rw [show (sl0 : Memref sig .tc .vmem S4x64 .f32).view.dmaCredit = N from rfl]; iexact Cs1
    isplitl [HO]; · iexact HO
    isplitr; · rw [MayWait_zero]; iempintro
    iexact A2
  iintro ⟨HO, A2, -, Hrest⟩
  ihave S1 := (rest_send' m c 1) $$ Hrest
  iapply (Rounds.wp_wait_rest_token 𝒱₀ ER (sched m) (c : Thread nD τ) none (wpE_waitDma2_eq 𝒱₀ (c : Thread nD τ) none Set.univ) (Set.mem_univ (K (c, 1)))
    () (R := 0) (T := ∅) (m := 0) (Eq.trans (by rfl) (expect_send m c 0).symm)) $$ [Cs0 HO A1]
  · isplitr; · iexact I1
    isplitl [Cs0]; · rw [show (sl0 : Memref sig .tc .vmem S4x64 .f32).view.dmaCredit = N from rfl]; iexact Cs0
    isplitl [HO]; · iexact HO
    isplitr; · rw [MayWait_zero]; iempintro
    iexact A1
  iintro ⟨HO, A1, -, Hrest⟩
  ihave S0 := (rest_send' m c 0) $$ Hrest
  iapply (Rounds.wp_wait_rest_token 𝒱₀ ER (sched m) (c : Thread nD τ) none (wpE_waitDma2_eq 𝒱₀ (c : Thread nD τ) none Set.univ) (Set.mem_univ (K (c, 3)))
    () (R := 0) (T := ∅) (m := 0) (Eq.trans (by rfl) (expect_send m c 2).symm)) $$ [Cs2 HO A3]
  · isplitr; · iexact I3
    isplitl [Cs2]; · rw [show (sl0 : Memref sig .tc .vmem S4x64 .f32).view.dmaCredit = N from rfl]; iexact Cs2
    isplitl [HO]; · iexact HO
    isplitr; · rw [MayWait_zero]; iempintro
    iexact A3
  iintro ⟨HO, A3, -, Hrest⟩
  ihave S2 := (rest_send' m c 2) $$ Hrest
  -- the three others' statistics have landed
  iapply (Rounds.wp_wait_rest_token 𝒱₀ ER (sched m) (c : Thread nD τ) none (wpE_waitDma2_eq 𝒱₀ (c : Thread nD τ) none Set.univ) (Set.mem_univ (K (c, 5)))
    () (R := 0) (T := ∅) (m := 0) (Eq.trans (by rfl) (expect_recv m c 1).symm)) $$ [Cr1 HO A5]
  · isplitr; · iexact I5
    isplitl [Cr1]; · rw [show (sl2 : Memref sig .tc .vmem S4x64 .f32).view.dmaCredit = N from rfl]; iexact Cr1
    isplitl [HO]; · iexact HO
    isplitr; · rw [MayWait_zero]; iempintro
    iexact A5
  iintro ⟨HO, A5, -, Hrest⟩
  ihave Q2 := (rest_recv1' m c) $$ Hrest
  iapply (Rounds.wp_wait_rest_token 𝒱₀ ER (sched m) (c : Thread nD τ) none (wpE_waitDma2_eq 𝒱₀ (c : Thread nD τ) none Set.univ) (Set.mem_univ (K (c, 4)))
    () (R := 0) (T := ∅) (m := 0) (Eq.trans (by rfl) (expect_recv m c 0).symm)) $$ [Cr0 HO A4]
  · isplitr; · iexact I4
    isplitl [Cr0]; · rw [show (sl1 : Memref sig .tc .vmem S4x64 .f32).view.dmaCredit = N from rfl]; iexact Cr0
    isplitl [HO]; · iexact HO
    isplitr; · rw [MayWait_zero]; iempintro
    iexact A4
  iintro ⟨HO, A4, -, Hrest⟩
  ihave Q1 := (rest_recv0' m c) $$ Hrest
  iapply (Rounds.wp_wait_rest_token 𝒱₀ ER (sched m) (c : Thread nD τ) none (wpE_waitDma2_eq 𝒱₀ (c : Thread nD τ) none Set.univ) (Set.mem_univ (K (c, 6)))
    () (R := 0) (T := ∅) (m := 0) (Eq.trans (by rfl) (expect_recv m c 2).symm)) $$ [Cr2 HO A6]
  · isplitr; · iexact I6
    isplitl [Cr2]; · rw [show (sl3 : Memref sig .tc .vmem S4x64 .f32).view.dmaCredit = N from rfl]; iexact Cr2
    isplitl [HO]; · iexact HO
    isplitr; · rw [MayWait_zero]; iempintro
    iexact A6
  iintro ⟨HO, A6, -, Hrest⟩
  ihave Q3 := (rest_recv2' m c) $$ Hrest
  ihave R0 := (row0_join' c (rowsOf c (X m c))) $$ [S0 S1 S2]
  · isplitl [S0]; · iexact S0
    isplitl [S1]; · iexact S1
    iexact S2
  -- the four rows are read: the device's own statistics and the three others'
  iapply (wp_load 𝒱₀ (c : Thread nD τ) none Set.univ (m := scrM) (S := rowSet 0) (q := fullShare) (f := rowsOf c (X m c)) (Finset.subset_of_eq setOn_r0)) $$ R0
  iintro R0
  rw [load_row0 c (X m c)]
  iapply (wp_load 𝒱₀ (c : Thread nD τ) none Set.univ (m := scrM) (S := rowSet 1) (q := fullShare) (f := rowsOf c (X m (pk c 3))) (Finset.subset_of_eq setOn_r1)) $$ Q1
  iintro Q1
  rw [load_row1 c (X m (pk c 3))]
  iapply (wp_load 𝒱₀ (c : Thread nD τ) none Set.univ (m := scrM) (S := rowSet 2) (q := fullShare) (f := rowsOf c (X m (pk c 2))) (Finset.subset_of_eq setOn_r2)) $$ Q2
  iintro Q2
  rw [load_row2 c (X m (pk c 2))]
  iapply (wp_load 𝒱₀ (c : Thread nD τ) none Set.univ (m := scrM) (S := rowSet 3) (q := fullShare) (f := rowsOf c (X m (pk c 1))) (Finset.subset_of_eq setOn_r3)) $$ Q3
  iintro Q3
  rw [load_row3 c (X m (pk c 1))]
  -- the result is stored over the whole staging buffer
  iapply (wp_load 𝒱₀ (c : Thread nD τ) none Set.univ (m := oM) (S := Finset.univ) (q := fullShare) (f := fo) (Finset.subset_univ _)) $$ Hout
  iintro Hout
  iapply (wp_store 𝒱₀ (c : Thread nD τ) none Set.univ (m := oM) (r := Rect.unit (s := S2x64x64x128) ![0, 0, 0, 0] S2x64x64x128.size Facts₀.inb_S2x64x64x128_S2x64x64x128_0_0_0_0) (S := Finset.univ) (f := fo) (Finset.subset_univ _)) $$ Hout
  iintro Hout
  rw [out_stored c fo]
  -- the six own cells are closed; the exit's assertions
  rw [wp_ret]
  imod (Rounds.cell_close ER (sched m) (Set.mem_univ (K (c, 1))) id (R := 0 + 1) (duties_later m (sendCell c 0))) $$ [A1] with V0
  · isplitr; · iexact I1
    iexact A1
  imod (Rounds.cell_close ER (sched m) (Set.mem_univ (K (c, 2))) id (R := 0 + 1) (duties_later m (sendCell c 1))) $$ [A2] with V1
  · isplitr; · iexact I2
    iexact A2
  imod (Rounds.cell_close ER (sched m) (Set.mem_univ (K (c, 3))) id (R := 0 + 1) (duties_later m (sendCell c 2))) $$ [A3] with V2
  · isplitr; · iexact I3
    iexact A3
  imod (Rounds.cell_close ER (sched m) (Set.mem_univ (K (c, 4))) id (R := 0 + 1) (duties_later m (recvCell c 0))) $$ [A4] with V3
  · isplitr; · iexact I4
    iexact A4
  imod (Rounds.cell_close ER (sched m) (Set.mem_univ (K (c, 5))) id (R := 0 + 1) (duties_later m (recvCell c 1))) $$ [A5] with V4
  · isplitr; · iexact I5
    iexact A5
  imod (Rounds.cell_close ER (sched m) (Set.mem_univ (K (c, 6))) id (R := 0 + 1) (duties_later m (recvCell c 2))) $$ [A6] with V5
  · isplitr; · iexact I6
    iexact A6
  imodintro
  iapply HK
  unfold Φ₁ scrAny
  isplitl [R0 Q1 Q2 Q3 V0 V1 V2 V3 V4 V5]
  · isplitl [R0 Q1 Q2 Q3]
    · iapply (scr_join' c (rowsOf c (X m c)) (rowsOf c (X m (pk c 3))) (rowsOf c (X m (pk c 2))) (rowsOf c (X m (pk c 1))))
      isplitl [R0]; · iexact R0
      isplitl [Q1]; · iexact Q1
      isplitl [Q2]; · iexact Q2
      iexact Q3
    · iapply (closed_six c)
      isplitl [V0]; · iexact V0
      isplitl [V1]; · iexact V1
      isplitl [V2]; · iexact V2
      isplitl [V3]; · iexact V3
      isplitl [V4]; · iexact V4
      iexact V5
  isplitl [HO]
  · iexists (insert (SemLoc.dma (recvSem 2), ()) (insert (SemLoc.dma (recvSem 0), ()) (insert (SemLoc.dma (recvSem 1), ()) (insert (SemLoc.dma (sendSem 2), ())
      (insert (SemLoc.dma (sendSem 0), ()) (insert (SemLoc.dma (sendSem 1), ()) (insert (SemLoc.reg barS, ()) W)))))) : Waits sig Unit)
    isplitr; · ipureintro; exact fun x _ => Or.inl (Set.mem_univ x)
    iexact HO
  isplitl [Hx]
  · iexists _
    isplitr; · ipureintro; exact (xstg_eq m ρ c).symm
    iexact Hx
  isplitl [Hw]
  · iexists _
    isplitr; · ipureintro; exact (wstg_eq m ρ c).symm
    iexact Hw
  iexists _
  isplitr; · ipureintro; unfold outVal outOf; rfl
  iexact Hout

/-- The obligation's precondition, named. -/
def bodyPre' (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 4000 in
/-- The pipeline's body obligation on device c. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hw, Hout⟩
  iapply (sound_body m ρ K c fun _ => bodyPost m ρ c)
  unfold bodyPre
  isplitr []
  · isplitl [Hg Hrest Hscr]
    · isplitl [Hg]; · iexact Hg
      icases Hrest with ⟨H1, H2, H3, H4, H5⟩
      isplitl [H1]; · iexact H1
      isplitl [H2]; · iexact H2
      isplitl [H3]; · iexact H3
      isplitl [H4]; · iexact H4
      isplitl [H5]; · iexact H5
      iexact Hscr
    isplitl [Ho]; · iexact Ho
    isplitl [Hx]; · iexact Hx
    isplitl [Hw] <;> iassumption
  · iintro H; iexact H

/-- info: 'Cert.Kernel.Proto.body_obligation' depends on axioms: [propext, Classical.choice, Quot.sound] -/
#guard_msgs in #print axioms body_obligation

end Cert.Kernel.Proto

end
-- ==== Proof.Bits.Launch.lean ====
/- The launch: the exchange's cells allocated for all four devices at once, each device dealt the tokens of the duties
   it pays and the credit of the units it is owed, and the run of the whole program with each device's result named. -/
import proofs.«900519_g7700000000000520_dist_diff_noisepred_hshard_i_b2_h64_w64_c64_v7x_i4_bf16_1_alg».proof.Proof.Bits.Proto
import proofs.«900519_g7700000000000520_dist_diff_noisepred_hshard_i_b2_h64_w64_c64_v7x_i4_bf16_1_alg».proof.Proof.Bits.Tables
import proofs.«900519_g7700000000000520_dist_diff_noisepred_hshard_i_b2_h64_w64_c64_v7x_i4_bf16_1_alg».proof.Proof.Bits.Body

noncomputable section

namespace Cert.Kernel.Proto

open Cert.Kernel Cert.Kernel.Gen Cert.Kernel.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
/-- The exchange's cells: seven on each device. -/
def exCells : Finset (GSem nD τ sig) := Finset.univ.map ⟨kcell, kcell_injective⟩

/-- A device's own cells' duties: the barrier's 1, 2, 3; duty 0 of each send and each receive cell. -/
abbrev tokIdx : Fin 9 → Fin 7 × Fin 4
  | 0 => (0, 1) | 1 => (0, 2) | 2 => (0, 3) | 3 => (1, 0) | 4 => (2, 0) | 5 => (3, 0) | 6 => (4, 0) | 7 => (5, 0) | 8 => (6, 0)
theorem tokIdx_injective : Function.Injective tokIdx := by decide
abbrev tokOf (cj : Dev nD × Fin 9) : GSem nD τ sig × ℕ × Fin 4 := (kcell (cj.1, (tokIdx cj.2).1), 0, (tokIdx cj.2).2)
theorem tokOf_injective : Function.Injective (tokOf : Dev nD × Fin 9 → GSem nD τ sig × ℕ × Fin 4) := by
  rintro ⟨c, j⟩ ⟨c', j'⟩ h
  have h1 : ((c, (tokIdx j).1) : Dev nD × Fin 7) = (c', (tokIdx j').1) := kcell_injective (congrArg (fun x : GSem nD τ sig × ℕ × Fin 4 => x.1) h)
  have h2 : (tokIdx j).2 = (tokIdx j').2 := congrArg (fun x : GSem nD τ sig × ℕ × Fin 4 => x.2.2) h
  have hc : c = c' := congrArg Prod.fst h1
  have hi : (tokIdx j).1 = (tokIdx j').1 := congrArg Prod.snd h1
  have hj : j = j' := tokIdx_injective (Prod.ext hi h2)
  subst hc; subst hj; rfl
def exToks : Finset (GSem nD τ sig × ℕ × Fin 4) := Finset.univ.map ⟨tokOf, tokOf_injective⟩

def u₀ : UU :=
  (initOf (Pipeline.cells cfgs cellOf_inj) (Pipeline.launchToks cfgs cellOf_inj), initOf exCells exToks)

/-- The duty tokens of device c's own cells. -/
def toks (c : Dev nD) : sProp 𝕄 :=
  iprop(dutyTok ER (barCell c) 0 1 ∗ dutyTok ER (barCell c) 0 2 ∗ dutyTok ER (barCell c) 0 3
    ∗ dutyTok ER (sendCell c 0) 0 0 ∗ dutyTok ER (sendCell c 1) 0 0 ∗ dutyTok ER (sendCell c 2) 0 0
    ∗ dutyTok ER (recvCell c 0) 0 0 ∗ dutyTok ER (recvCell c 1) 0 0 ∗ dutyTok ER (recvCell c 2) 0 0)

/-- What the launch element deals device c. -/
def G (c : Dev nD) : sProp 𝕄 :=
  iprop((bigSep Finset.univ fun k : Fin 7 => roundState ER (sched m) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 7 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin9]; rfl
  iintro HX
  imod (Rounds.fund ER (sched m) exCells exToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The three send and three receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (recvCell c 0) 0 ∗ semVal (recvCell c 1) 0 ∗ semVal (recvCell c 2) 0) := by
  rw [Pipeline.ownSems0_eq_of_list c osem [0, 1, 2, 3, 4, 5] (by decide) (by decide)]; rfl
/-- and as the proof data spell them; -/
theorem ownSems0_fin6 (c : Dev nD) : (Pipeline.ownSems0 (Ix := Unit) (Name := ℕ) (U := UU) (Lvl := ℕ) (Val := Elt F) (τ := τ) osem c : sProp 𝕄)
    = bigSep Finset.univ fun i : Fin 6 => semVal ((c : Thread nD τ), osem i) 0 := rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H0, H1, H2, H3, H4, H5⟩, HB⟩
  isplitl [HB]; · iexact HB
  isplitl [H0]; · iexact H0
  isplitl [H1]; · iexact H1
  isplitl [H2]; · iexact H2
  isplitl [H3]; · iexact H3
  isplitl [H4]; · iexact H4
  iexact H5

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant at its name, and that every cell has reached round 0. -/
def records (K : Dev nD × Fin 7 → ℕ) : sProp 𝕄 :=
  iprop((bigSep Finset.univ fun ck : Dev nD × Fin 7 => cellInv ER (sched m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) :
    (bigSep Finset.univ fun ck : Dev nD × Fin 7 => (cellInv ER (sched m) (K ck) (kcell ck) : sProp 𝕄)) ⊢ cellInv ER (sched m) (K ck) (kcell ck) :=
  bigSep_elim (Finset.mem_univ ck)
theorem inv_row (K : Dev nD × Fin 7 → ℕ) (c : Dev nD) :
    (bigSep Finset.univ fun ck : Dev nD × Fin 7 => (cellInv ER (sched m) (K ck) (kcell ck) : sProp 𝕄))
      ⊢ bigSep Finset.univ fun i : Fin 7 => cellInv ER (sched m) (K (c, i)) (kcell (c, i)) := by
  rw [bigSep_univ_prod]; exact bigSep_elim (Finset.mem_univ c)
theorem inv_bar (K : Dev nD × Fin 7 → ℕ) (a : Dev nD) :
    (bigSep Finset.univ fun ck : Dev nD × Fin 7 => (cellInv ER (sched m) (K ck) (kcell ck) : sProp 𝕄)) ⊢ cellInv ER (sched m) (K (a, 0)) (barCell a) :=
  inv_at m K (a, 0)
theorem inv_recv0 (K : Dev nD × Fin 7 → ℕ) (a : Dev nD) :
    (bigSep Finset.univ fun ck : Dev nD × Fin 7 => (cellInv ER (sched m) (K ck) (kcell ck) : sProp 𝕄)) ⊢ cellInv ER (sched m) (K (a, 4)) (recvCell a 0) :=
  inv_at m K (a, 4)
theorem inv_recv1 (K : Dev nD × Fin 7 → ℕ) (a : Dev nD) :
    (bigSep Finset.univ fun ck : Dev nD × Fin 7 => (cellInv ER (sched m) (K ck) (kcell ck) : sProp 𝕄)) ⊢ cellInv ER (sched m) (K (a, 5)) (recvCell a 1) :=
  inv_at m K (a, 5)
theorem inv_recv2 (K : Dev nD × Fin 7 → ℕ) (a : Dev nD) :
    (bigSep Finset.univ fun ck : Dev nD × Fin 7 => (cellInv ER (sched m) (K ck) (kcell ck) : sProp 𝕄)) ⊢ cellInv ER (sched m) (K (a, 6)) (recvCell a 2) :=
  inv_at m K (a, 6)

/-- What stays with device c: its positions, and the tokens of the duties it pays. -/
def payToks (c : Dev nD) : sProp 𝕄 :=
  iprop(dutyTok ER (barCell (pk c 2)) 0 2 ∗ dutyTok ER (barCell (pk c 1)) 0 3 ∗ dutyTok ER (barCell (pk c 3)) 0 1
    ∗ dutyTok ER (recvCell (pk c 1) 0) 0 0 ∗ dutyTok ER (recvCell (pk c 2) 1) 0 0 ∗ dutyTok ER (recvCell (pk c 3) 2) 0 0
    ∗ dutyTok ER (sendCell c 0) 0 0 ∗ dutyTok ER (sendCell c 1) 0 0 ∗ dutyTok ER (sendCell c 2) 0 0)
def linear (c : Dev nD) : sProp 𝕄 :=
  iprop((bigSep Finset.univ fun i : Fin 7 => atPos ER (kcell (c, i)) 0 ∅ 0) ∗ payToks c)

theorem ghost_intro (K : Dev nD × Fin 7 → ℕ) (c : Dev nD) : iprop(records m K ∗ linear c) ⊢ G' m c := by
  unfold records linear payToks G' ghost invs
  iintro ⟨⟨#HI, #HR⟩, Hat, Hb2, Hb3, Hb1, Hr0, Hr1, Hr2, Hs0, Hs1, Hs2⟩
  iexists K
  isplitr
  · isplitr; · iapply (inv_row m K c); iexact HI
    isplitr; · iapply (inv_bar m K (pk c 1)); iexact HI
    isplitr; · iapply (inv_bar m K (pk c 2)); iexact HI
    isplitr; · iapply (inv_bar m K (pk c 3)); iexact HI
    isplitr; · iapply (inv_recv0 m K (pk c 1)); iexact HI
    isplitr; · iapply (inv_recv1 m K (pk c 2)); iexact HI
    iapply (inv_recv2 m K (pk c 3)); iexact HI
  isplitl [Hat]; · iexact Hat
  isplitr; · iexact HR
  isplitl [Hb2]; · iexact Hb2
  isplitl [Hb3]; · iexact Hb3
  isplitl [Hb1]; · iexact Hb1
  isplitl [Hr0]; · iexact Hr0
  isplitl [Hr1]; · iexact Hr1
  isplitl [Hr2]; · iexact Hr2
  isplitl [Hs0]; · iexact Hs0
  isplitl [Hs1]; · iexact Hs1
  iexact Hs2

/-- One, two and three places further round, as bijections of the devices. -/
def rot1 : Dev nD ≃ Dev nD := ⟨fun c => pk c 1, fun c => pk c 3, pk_inv1, pk_inv3⟩
def rot2 : Dev nD ≃ Dev nD := ⟨fun c => pk c 2, fun c => pk c 2, pk_inv2, pk_inv2⟩
def rot3 : Dev nD ≃ Dev nD := ⟨fun c => pk c 3, fun c => pk c 1, pk_inv3, pk_inv1⟩

/-- The tokens dealt round the devices: a barrier's duty d goes to the device d places further, which pays it; a receive
    cell's duty to the device that copies into it. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep',
    bigSep_univ_equiv rot3 (fun c : Dev nD => (dutyTok ER (barCell c) 0 1 : sProp 𝕄)),
    bigSep_univ_equiv rot2 (fun c : Dev nD => (dutyTok ER (barCell c) 0 2 : sProp 𝕄)),
    bigSep_univ_equiv rot1 (fun c : Dev nD => (dutyTok ER (barCell c) 0 3 : sProp 𝕄)),
    bigSep_univ_equiv rot1 (fun c : Dev nD => (dutyTok ER (recvCell c 0) 0 0 : sProp 𝕄)),
    bigSep_univ_equiv rot2 (fun c : Dev nD => (dutyTok ER (recvCell c 1) 0 0 : sProp 𝕄)),
    bigSep_univ_equiv rot3 (fun c : Dev nD => (dutyTok ER (recvCell c 2) 0 0 : sProp 𝕄))]
  iintro ⟨Hb1, Hb2, Hb3, Hs0, Hs1, Hs2, Hr0, Hr1, Hr2⟩
  isplitl [Hb2]; · iexact Hb2
  isplitl [Hb3]; · iexact Hb3
  isplitl [Hb1]; · iexact Hb1
  isplitl [Hr0]; · iexact Hr0
  isplitl [Hr1]; · iexact Hr1
  isplitl [Hr2]; · iexact Hr2
  isplitl [Hs0]; · iexact Hs0
  isplitl [Hs1]; · iexact Hs1
  iexact Hs2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (sched m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- Three units on one cell, one by one, are the three at once. -/
theorem cred_three (g : GSem nD τ sig) :
    iprop(cred (tallyAt g () 1) ∗ cred (tallyAt g () 1) ∗ cred (tallyAt g () 1)) ⊢ (cred (tallyAt g () 3) : sProp 𝕄) := by
  have e : (tallyAt g () 3 : CellTallies nD τ sig Unit) = tallyAt g () 1 + (tallyAt g () 1 + tallyAt g () 1) := by
    rw [tallyAt_add, tallyAt_add]
  rw [e]
  exact (sep_mono_right (cred_add _ _).2).trans (cred_add _ _).2

/-- What the four devices owe device c's cells at launch: a unit to its barrier cell from each of the three others, a row's
    credit to each of its receive cells from the device that copies into it. -/
theorem creds (c : Dev nD) :
    (Pipeline.launchCred O₀ c : sProp 𝕄) ⊢ iprop(cred (tallyAt (barCell c) () 3)
      ∗ cred (tallyAt (recvCell c 0) () N) ∗ cred (tallyAt (recvCell c 1) () N) ∗ cred (tallyAt (recvCell c 2) () N)) := by
  have e : (O₀ : Dev nD → CellTallies nD τ sig Unit) = fun d =>
      ((((tallyAt (recvCell (pk d 3) 2) () N + tallyAt (recvCell (pk d 1) 0) () N) + tallyAt (recvCell (pk d 2) 1) () N)
        + tallyAt (barCell (pk d 3)) () 1) + tallyAt (barCell (pk d 1)) () 1) + tallyAt (barCell (pk d 2)) () 1 := rfl
  rw [e, Pipeline.launchCred_add, Pipeline.launchCred_add, Pipeline.launchCred_add, Pipeline.launchCred_add, Pipeline.launchCred_add]
  iintro ⟨⟨⟨⟨⟨Hr2, Hr0⟩, Hr1⟩, Hb3⟩, Hb1⟩, Hb2⟩
  ihave C2 := (Pipeline.launchCred_tallyAt (SemLoc.dma (recvSem 2)) (fun d => pk d 3) (fun d => pk d 1) pk_inv1 pk_inv3 () N c) $$ Hr2
  ihave C0 := (Pipeline.launchCred_tallyAt (SemLoc.dma (recvSem 0)) (fun d => pk d 1) (fun d => pk d 3) pk_inv3 pk_inv1 () N c) $$ Hr0
  ihave C1 := (Pipeline.launchCred_tallyAt (SemLoc.dma (recvSem 1)) (fun d => pk d 2) (fun d => pk d 2) pk_inv2 pk_inv2 () N c) $$ Hr1
  ihave B3 := (Pipeline.launchCred_tallyAt (SemLoc.reg barS) (fun d => pk d 3) (fun d => pk d 1) pk_inv1 pk_inv3 () 1 c) $$ Hb3
  ihave B1 := (Pipeline.launchCred_tallyAt (SemLoc.reg barS) (fun d => pk d 1) (fun d => pk d 3) pk_inv3 pk_inv1 () 1 c) $$ Hb1
  ihave B2 := (Pipeline.launchCred_tallyAt (SemLoc.reg barS) (fun d => pk d 2) (fun d => pk d 2) pk_inv2 pk_inv2 () 1 c) $$ Hb2
  isplitl [B1 B2 B3]
  · iapply (cred_three (F := F) (barCell c))
    isplitl [B1]; · iexact B1
    isplitl [B2]; · iexact B2
    iexact B3
  isplitl [C0]; · iexact C0
  isplitl [C1]; · iexact C1
  iexact C2

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H3, HN0, HN1, HN2⟩
  imodintro
  unfold start G'
  isplitl
  · isplitl [HG]; · iexact HG
    isplitl [H3]; · iexact H3
    isplitl [HN0]; · iexact HN0
    isplitl [HN1]; · iexact HN1
    isplitl [HN2]; · iexact HN2
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scrAny
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_fin6]
  unfold Φ₁ scrAny
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ### The final arrays -/

/-- The argument arrays are the kernel's inputs: after the run they hold what they held. -/
theorem final_arg0 (c : Dev nD) : (dats m ρ 0 c).arrAt (0 : Fin 3) cfg0.N = m ((c.tc : Thread nD τ).loc main_arg0) :=
  (dats (F := F) m ρ 0 c).arrAt_in (0 : Fin 3) rfl _
theorem final_arg1 (c : Dev nD) : (dats m ρ 0 c).arrAt (1 : Fin 3) cfg0.N = m ((c.tc : Thread nD τ).loc main_arg1) :=
  (dats (F := F) m ρ 0 c).arrAt_in (1 : Fin 3) rfl _

/-- The result array's one block is the whole array: written back at the one point, it holds what the body left staged. -/
theorem final_out (c : Dev nD) : (dats m ρ 0 c).arrAt (2 : Fin 3) cfg0.N = outVal m c := by
  have hz : (fun a => (win0_2.index t₀) a * main_v1.ty.shape.size a) = fun _ => 0 := funext fun a => Nat.zero_mul _
  rw [show cfg0.N = (t₀ : Fin cfg0.N).val + 1 from rfl, (dats (F := F) m ρ 0 c).arrAt_succ (2 : Fin 3) t₀,
    if_pos (show (cfg0.win (2 : Fin 3)).flush t₀ = true by decide)]
  exact Memref.write_access_unit_zero_univ (Elt F) main_v1 hz (fun a => Nat.le_of_eq (by
      rw [show win0_2.index t₀ a * main_v1.ty.shape.size a = 0 from Nat.zero_mul _, Nat.zero_add])) _ _

/-! ### The run -/

/-- From any memory with zero counters: every weakly fair execution of the four devices' program terminates, and every
    final state has each device's result array at `outVal` and its arguments unchanged. -/
theorem run_main : θ_run (defs (F := F)) (onTc (τ := τ) (main (F := F))) ⟨m, fun _ => 0, ρ⟩ (fun r => ∀ c : Dev nD,
    r.2.mem ((c.tc : Thread nD τ).loc main_v1) = outVal m c
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun s h c => ⟨((h c).1 (2 : Fin 3)).trans (final_out m ρ c), ((h c).1 (0 : Fin 3)).trans (final_arg0 m ρ c), ((h c).1 (1 : Fin 3)).trans (final_arg1 m ρ c)⟩)

/-- info: 'Cert.Kernel.Proto.run_main' depends on axioms: [propext, Classical.choice, Quot.sound] -/
#guard_msgs in #print axioms run_main

end Cert.Kernel.Proto

end
-- ==== Proof.Spec.lean ====
/- The mathematics of the claim, stated once over the extended reals.
   `refVal` is the one-device program's result as the composition of its operations.
   `Gref` reads it entry by entry: normalise each (batch, channel) column over all 256·64 positions by its mean and
   variance, gate by x/(1+e^{-x}), project by the weight matrix.
   `Gker` is what one of the four devices computes for its 64 rows: each device sums its own rows and squares, the four
   partial sums are added, the variance is taken as mean of squares minus squared mean, and the reciprocal square root
   and the logistic function take the place of the quotients. -/
import proofs.«900519_g7700000000000520_dist_diff_noisepred_hshard_i_b2_h64_w64_c64_v7x_i4_bf16_1_alg».proof.ReferenceIdeal
import proofs.«900519_g7700000000000520_dist_diff_noisepred_hshard_i_b2_h64_w64_c64_v7x_i4_bf16_1_alg».proof.Proof.Gen.ReferenceIdeal
import Idealize.ShloMosaic.PureOps.Ideal
import Idealize.ShloMosaic.Lib.ValueIdx

noncomputable section

namespace Cert.Spec

open Idealize.ShloMosaic Idealize.SL.Sem Idealize.ShloMosaic.ValueIdx
open Cert.ReferenceIdeal Cert.ReferenceIdeal.Facts₀

/-- The reference's result: its operations composed, at the exact instance. -/
def refVal (x : FVec Ideal S2x256x64x64 .f32) (wp : FVec Ideal S64x128 .f32) : FVec Ideal S2x256x64x128 .bf16 :=
  let z : FVec Ideal S_ .f32 := constant S_ .f32 0x00000000#32
  let n : FVec Ideal S_ .f32 := constant S_ .f32 0x46800000#32
  let sum1 : FVec Ideal S2x64 .f32 := Host.reduceAdd x z reducesTo_S2x256x64x64_S2x64_d1_2 h_S_
  let mean : FVec Ideal S2x1x1x64 .f32 :=
    Host.divf (broadcastInDim S2x1x1x64 ![0, 3] bcast_S2x64_S2x1x1x64_0_3 sum1) (broadcastInDim S2x1x1x64 ![] bcast_S_S2x1x1x64 n)
  let cen : FVec Ideal S2x256x64x64 .f32 :=
    subf x (broadcastInDim S2x256x64x64 ![0, 1, 2, 3] bcast_S2x1x1x64_S2x256x64x64_0_1_2_3 mean)
  let sq : FVec Ideal S2x256x64x64 .f32 := mulf cen cen
  let cnt : FVec Ideal S_ .f32 := subf n (sitofp .f32 (constantI S_ 32 0#32))
  let sum2 : FVec Ideal S2x64 .f32 := Host.reduceAdd sq z reducesTo_S2x256x64x64_S2x64_d1_2 h_S_
  let quo : FVec Ideal S2x1x1x64 .f32 :=
    Host.divf (broadcastInDim S2x1x1x64 ![0, 3] bcast_S2x64_S2x1x1x64_0_3 sum2) (broadcastInDim S2x1x1x64 ![] bcast_S_S2x1x1x64 cnt)
  let pos : IVec S_ 1 := cmpf .ogt cnt z
  let nan : FVec Ideal S_ .f32 := constant S_ .f32 0x7FC00000#32
  let var : FVec Ideal S2x1x1x64 .f32 :=
    select (broadcastInDim S2x1x1x64 ![] bcast_S_S2x1x1x64 pos) quo (broadcastInDim S2x1x1x64 ![] bcast_S_S2x1x1x64 (id nan))
  let eps : FVec Ideal S_ .f32 := constant S_ .f32 0x3727C5AC#32
  let sd : FVec Ideal S2x1x1x64 .f32 := Host.sqrt (addf var (broadcastInDim S2x1x1x64 ![] bcast_S_S2x1x1x64 eps))
  let h : FVec Ideal S2x256x64x64 .f32 :=
    Host.divf cen (broadcastInDim S2x256x64x64 ![0, 1, 2, 3] bcast_S2x1x1x64_S2x256x64x64_0_1_2_3 sd)
  let one : FVec Ideal S_ .f32 := constant S_ .f32 0x3F800000#32
  let den : FVec Ideal S2x256x64x64 .f32 := addf (broadcastInDim S2x256x64x64 ![] bcast_S_S2x256x64x64 one) (Host.exp (Host.negf h))
  let a : FVec Ideal S2x256x64x64 .f32 := Host.divf h den
  let flat : FVec Ideal S32768x64 .f32 := shapeCast S32768x64 a shapeCasts_S2x256x64x64_S32768x64
  let prod : FVec Ideal S32768x128 .f32 := Host.dotGeneral dot_S32768x64_S64x128_S32768x128_1_0_0_1_n_n none flat wp
  truncf .bf16 (shapeCast S2x256x64x128 prod shapeCasts_S32768x128_S2x256x64x128) bitsLt_bf16_f32

/-! ## Entry by entry -/

/-- The position count 256·64 and the stabiliser, as the two programs spell them. -/
def cN : EReal := Ideal.ofBits .f32 0x46800000#32
def cEps : EReal := Ideal.ofBits .f32 0x3727C5AC#32
def cOne : EReal := Ideal.ofBits .f32 0x3F800000#32

/-- The reference, entry by entry, over the whole array `x b r w ch` (batch, row, column, channel) and `wp ch o`. -/
def rMean (x : Fin 2 → Fin 256 → Fin 64 → Fin 64 → EReal) (b : Fin 2) (ch : Fin 64) : EReal :=
  Ideal.div (∑ r : Fin 256, ∑ w : Fin 64, x b r w ch) cN
def rVar (x : Fin 2 → Fin 256 → Fin 64 → Fin 64 → EReal) (b : Fin 2) (ch : Fin 64) : EReal :=
  Ideal.div (∑ r : Fin 256, ∑ w : Fin 64, (x b r w ch - rMean x b ch) * (x b r w ch - rMean x b ch)) cN
def rH (x : Fin 2 → Fin 256 → Fin 64 → Fin 64 → EReal) (b : Fin 2) (r : Fin 256) (w ch : Fin 64) : EReal :=
  Ideal.div (x b r w ch - rMean x b ch) (Ideal.sqrt (rVar x b ch + cEps))
def rA (x : Fin 2 → Fin 256 → Fin 64 → Fin 64 → EReal) (b : Fin 2) (r : Fin 256) (w ch : Fin 64) : EReal :=
  Ideal.div (rH x b r w ch) (cOne + Ideal.exp (-(rH x b r w ch)))
def Gref (x : Fin 2 → Fin 256 → Fin 64 → Fin 64 → EReal) (wp : Fin 64 → Fin 128 → EReal) (b : Fin 2) (r : Fin 256) (w : Fin 64) (o : Fin 128) : EReal :=
  ∑ ch : Fin 64, rA x b r w ch * wp ch o

/-- One device, entry by entry: `own` its block, `s0 … s3` the four devices' sums (rows 0–1) and sums of squares
    (rows 2–3) in the order they are added. -/
def kS1 (xb : Fin 2 → Fin 64 → Fin 64 → Fin 64 → EReal) (b : Fin 2) (ch : Fin 64) : EReal := ∑ r : Fin 64, ∑ w : Fin 64, xb b r w ch
def kS2 (xb : Fin 2 → Fin 64 → Fin 64 → Fin 64 → EReal) (b : Fin 2) (ch : Fin 64) : EReal := ∑ r : Fin 64, ∑ w : Fin 64, xb b r w ch * xb b r w ch
def kMean (t1 : Fin 2 → Fin 64 → EReal) (b : Fin 2) (ch : Fin 64) : EReal := Ideal.div (t1 b ch) cN
def kVar (t1 t2 : Fin 2 → Fin 64 → EReal) (b : Fin 2) (ch : Fin 64) : EReal := Ideal.div (t2 b ch) cN - kMean t1 b ch * kMean t1 b ch
def kH (own : Fin 2 → Fin 64 → Fin 64 → Fin 64 → EReal) (t1 t2 : Fin 2 → Fin 64 → EReal) (b : Fin 2) (r w ch : Fin 64) : EReal :=
  (own b r w ch - kMean t1 b ch) * Ideal.rsqrt (kVar t1 t2 b ch + cEps)
def kA (own : Fin 2 → Fin 64 → Fin 64 → Fin 64 → EReal) (t1 t2 : Fin 2 → Fin 64 → EReal) (b : Fin 2) (r w ch : Fin 64) : EReal :=
  kH own t1 t2 b r w ch * Ideal.logistic (kH own t1 t2 b r w ch)
/-- `t1 b ch`, `t2 b ch`: the totals over the four devices. -/
def Gker (own : Fin 2 → Fin 64 → Fin 64 → Fin 64 → EReal) (t1 t2 : Fin 2 → Fin 64 → EReal) (wp : Fin 64 → Fin 128 → EReal)
    (b : Fin 2) (r w : Fin 64) (o : Fin 128) : EReal :=
  ∑ ch : Fin 64, kA own t1 t2 b r w ch * wp ch o

end Cert.Spec

end
-- ==== Proof.RefRun.lean ====
/- The one-device program run: every operation of its main function in order, each result the operation's value of
   its operands, so the last buffer ends at the composed term `Cert.Spec.refVal` of the two arguments. -/
import proofs.«900519_g7700000000000520_dist_diff_noisepred_hshard_i_b2_h64_w64_c64_v7x_i4_bf16_1_alg».proof.Proof.Spec
import Idealize.ShloMosaic.Lib.StableHlo.Run

noncomputable section

namespace Cert.ReferenceIdeal.RefRun

open Idealize.ShloMosaic Idealize.SL.Sem Cert.ReferenceIdeal

section Line

open Idealize.ShloMosaic.StableHlo Cert.ReferenceIdeal.Facts₀

variable {F : FTy → Type} [FloatOps F]

/-- The program's forty-eight operations in order, the two calls unfolded at their sites: seven of the main function
    (the zero, the column sums and their mean, the integer zero), then the variance function's twenty over its own
    buffers (the mean again, the centred array and its square, the count less the integer zero, the sum of squares
    over it, the test that the count is positive, the not-a-number constant), then the selection function's three
    (the constant at its own type, its broadcast, the select, whose result is the main function's variance buffer),
    then the main function's remaining eighteen (centring, the stabilised square root, the quotient, the gate
    x / (1 + e^{-x}), the flattening, the product with the weights, the unflattening, the rounding to 16 bits). -/
abbrev ops : List (HloOp τ sig (Elt F)) :=
  [
    StableHlo.nullary main_cst (constant S_ .f32 0x00000000#32),
    StableHlo.binary main_arg0 main_cst main_v0 ((fun x v => Host.reduceAdd x v reducesTo_S2x256x64x64_S2x64_d1_2 h_S_) : (⟨S2x256x64x64, .f32⟩ : BufTy).Contents (Elt F) → (⟨S_, .f32⟩ : BufTy).Contents (Elt F) → (⟨S2x64, .f32⟩ : BufTy).Contents (Elt F)),
    StableHlo.unary main_v0 main_v1 (broadcastInDim S2x1x1x64 ![0, 3] bcast_S2x64_S2x1x1x64_0_3 : (⟨S2x64, .f32⟩ : BufTy).Contents (Elt F) → (⟨S2x1x1x64, .f32⟩ : BufTy).Contents (Elt F)),
    StableHlo.nullary main_cst_0 (constant S_ .f32 0x46800000#32),
    StableHlo.unary main_cst_0 main_v2 (broadcastInDim S2x1x1x64 ![] bcast_S_S2x1x1x64 : (⟨S_, .f32⟩ : BufTy).Contents (Elt F) → (⟨S2x1x1x64, .f32⟩ : BufTy).Contents (Elt F)),
    StableHlo.binary main_v1 main_v2 main_v3 (Host.divf : (⟨S2x1x1x64, .f32⟩ : BufTy).Contents (Elt F) → (⟨S2x1x1x64, .f32⟩ : BufTy).Contents (Elt F) → (⟨S2x1x1x64, .f32⟩ : BufTy).Contents (Elt F)),
    StableHlo.nullary main_c (constantI S_ 32 0#32),
    StableHlo.TRef.nullary main_call0.cst (constant S_ .f32 0x00000000#32),
    StableHlo.TRef.binary (TRef.of main_arg0 : TRef sig ⟨S2x256x64x64, .f32⟩) main_call0.cst main_call0.v0 (fun x v => Host.reduceAdd x v reducesTo_S2x256x64x64_S2x64_d1_2 h_S_),
    StableHlo.TRef.unary main_call0.v0 main_call0.v1 (broadcastInDim S2x1x1x64 ![0, 3] bcast_S2x64_S2x1x1x64_0_3),
    StableHlo.TRef.nullary main_call0.cst_0 (constant S_ .f32 0x46800000#32),
    StableHlo.TRef.unary main_call0.cst_0 main_call0.v2 (broadcastInDim S2x1x1x64 ![] bcast_S_S2x1x1x64),
    StableHlo.TRef.binary main_call0.v1 main_call0.v2 main_call0.v3 Host.divf,
    StableHlo.TRef.unary main_call0.v3 main_call0.v4 (broadcastInDim S2x256x64x64 ![0, 1, 2, 3] bcast_S2x1x1x64_S2x256x64x64_0_1_2_3),
    StableHlo.TRef.binary (TRef.of main_arg0 : TRef sig ⟨S2x256x64x64, .f32⟩) main_call0.v4 main_call0.v5 subf,
    StableHlo.TRef.binary main_call0.v5 main_call0.v5 main_call0.v6 mulf,
    StableHlo.TRef.unary (TRef.of main_c : TRef sig ⟨S_, .i32⟩) main_call0.v7 (sitofp .f32),
    StableHlo.TRef.nullary main_call0.cst_1 (constant S_ .f32 0x46800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S2x256x64x64_S2x64_d1_2 h_S_),
    StableHlo.TRef.unary main_call0.v9 main_call0.v10 (broadcastInDim S2x1x1x64 ![0, 3] bcast_S2x64_S2x1x1x64_0_3),
    StableHlo.TRef.unary main_call0.v8 main_call0.v11 (broadcastInDim S2x1x1x64 ![] bcast_S_S2x1x1x64),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S2x1x1x64 ![] bcast_S_S2x1x1x64),
    StableHlo.TRef.ternary main_call0.v13 main_call0.v12 main_call0.call0.v1 main_call0.call0.v2 (fun p a b => select (broadcastInDim S2x1x1x64 ![] bcast_S_S2x1x1x64 p) a b),
    StableHlo.unary main_v3 main_v5 (broadcastInDim S2x256x64x64 ![0, 1, 2, 3] bcast_S2x1x1x64_S2x256x64x64_0_1_2_3 : (⟨S2x1x1x64, .f32⟩ : BufTy).Contents (Elt F) → (⟨S2x256x64x64, .f32⟩ : BufTy).Contents (Elt F)),
    StableHlo.binary main_arg0 main_v5 main_v6 (subf : (⟨S2x256x64x64, .f32⟩ : BufTy).Contents (Elt F) → (⟨S2x256x64x64, .f32⟩ : BufTy).Contents (Elt F) → (⟨S2x256x64x64, .f32⟩ : BufTy).Contents (Elt F)),
    StableHlo.nullary main_cst_1 (constant S_ .f32 0x3727C5AC#32),
    StableHlo.unary main_cst_1 main_v7 (broadcastInDim S2x1x1x64 ![] bcast_S_S2x1x1x64 : (⟨S_, .f32⟩ : BufTy).Contents (Elt F) → (⟨S2x1x1x64, .f32⟩ : BufTy).Contents (Elt F)),
    StableHlo.binary main_v4 main_v7 main_v8 (addf : (⟨S2x1x1x64, .f32⟩ : BufTy).Contents (Elt F) → (⟨S2x1x1x64, .f32⟩ : BufTy).Contents (Elt F) → (⟨S2x1x1x64, .f32⟩ : BufTy).Contents (Elt F)),
    StableHlo.unary main_v8 main_v9 (Host.sqrt : (⟨S2x1x1x64, .f32⟩ : BufTy).Contents (Elt F) → (⟨S2x1x1x64, .f32⟩ : BufTy).Contents (Elt F)),
    StableHlo.unary main_v9 main_v10 (broadcastInDim S2x256x64x64 ![0, 1, 2, 3] bcast_S2x1x1x64_S2x256x64x64_0_1_2_3 : (⟨S2x1x1x64, .f32⟩ : BufTy).Contents (Elt F) → (⟨S2x256x64x64, .f32⟩ : BufTy).Contents (Elt F)),
    StableHlo.binary main_v6 main_v10 main_v11 (Host.divf : (⟨S2x256x64x64, .f32⟩ : BufTy).Contents (Elt F) → (⟨S2x256x64x64, .f32⟩ : BufTy).Contents (Elt F) → (⟨S2x256x64x64, .f32⟩ : BufTy).Contents (Elt F)),
    StableHlo.unary main_v11 main_v12 (Host.negf : (⟨S2x256x64x64, .f32⟩ : BufTy).Contents (Elt F) → (⟨S2x256x64x64, .f32⟩ : BufTy).Contents (Elt F)),
    StableHlo.unary main_v12 main_v13 (Host.exp : (⟨S2x256x64x64, .f32⟩ : BufTy).Contents (Elt F) → (⟨S2x256x64x64, .f32⟩ : BufTy).Contents (Elt F)),
    StableHlo.nullary main_cst_2 (constant S_ .f32 0x3F800000#32),
    StableHlo.unary main_cst_2 main_v14 (broadcastInDim S2x256x64x64 ![] bcast_S_S2x256x64x64 : (⟨S_, .f32⟩ : BufTy).Contents (Elt F) → (⟨S2x256x64x64, .f32⟩ : BufTy).Contents (Elt F)),
    StableHlo.binary main_v14 main_v13 main_v15 (addf : (⟨S2x256x64x64, .f32⟩ : BufTy).Contents (Elt F) → (⟨S2x256x64x64, .f32⟩ : BufTy).Contents (Elt F) → (⟨S2x256x64x64, .f32⟩ : BufTy).Contents (Elt F)),
    StableHlo.binary main_v11 main_v15 main_v16 (Host.divf : (⟨S2x256x64x64, .f32⟩ : BufTy).Contents (Elt F) → (⟨S2x256x64x64, .f32⟩ : BufTy).Contents (Elt F) → (⟨S2x256x64x64, .f32⟩ : BufTy).Contents (Elt F)),
    StableHlo.reshape main_v16 main_v17 rfl shapeCasts_S2x256x64x64_S32768x64,
    StableHlo.binary main_v17 main_arg1 main_v18 ((fun l r => Host.dotGeneral dot_S32768x64_S64x128_S32768x128_1_0_0_1_n_n none l r) : (⟨S32768x64, .f32⟩ : BufTy).Contents (Elt F) → (⟨S64x128, .f32⟩ : BufTy).Contents (Elt F) → (⟨S32768x128, .f32⟩ : BufTy).Contents (Elt F)),
    StableHlo.reshape main_v18 main_v19 rfl shapeCasts_S32768x128_S2x256x64x128,
    StableHlo.unary main_v19 main_v20 ((truncf .bf16 · bitsLt_bf16_f32) : (⟨S2x256x64x128, .f32⟩ : BufTy).Contents (Elt F) → (⟨S2x256x64x128, .bf16⟩ : BufTy).Contents (Elt F)) ]

set_option maxRecDepth 4096 in
/-- The main function is that straight line: the two functions' definitions unfolded at their calls, both sides
    are one chain of steps once sequencing is reassociated. -/
theorem main_eq (c : Dev nD) : main (F := F) c = seq ops := by
  simp only [main, fn_var.body, fn_where.body, seq, bind_assoc, pure_bind]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨
    nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., nullary_bufs_sub .., unary_bufs_sub ..,
    binary_bufs_sub .., binary_bufs_sub .., reshape_bufs_sub .., binary_bufs_sub .., reshape_bufs_sub .., unary_bufs_sub ..⟩

end Line

theorem run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v20) = Cert.Spec.refVal (m' ((c.tc : Thread nD τ).loc main_arg0)) (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1)) := by
  -- The run of a straight line leaves every buffer at the fold of the operations' results over the launch contents;
  -- at the last buffer that fold, each result read at its own buffer and every other buffer left as it was, is the
  -- composition of the operations, which is `refVal` by definition; no operation writes an argument's buffer.
  open Idealize.ShloMosaic.StableHlo in
  exact (θ_run (defs (F := Ideal)) _ _).mono
    (fun _ h c => ⟨(h c main_v20).trans (by after_results_simp; rfl),
      (h c main_arg0).trans (by after_results_simp),
      (h c main_arg1).trans (by after_results_simp)⟩)
    (run_seq scopedRefs_eq scopedSems_eq defs main (fun _ => ops) main_eq (fun _ => ops_sub) m' ρ')

/-- info: 'Cert.ReferenceIdeal.RefRun.run' depends on axioms: [propext, Classical.choice, Quot.sound] -/
#guard_msgs in #print axioms Cert.ReferenceIdeal.RefRun.run

end Cert.ReferenceIdeal.RefRun

end
-- ==== Proof.KStat.lean ====
/- One device's statistics read at an entry: the 0/1 selector matrix times the flattened rows is, per batch and
   channel, the sum of the block's entries (rows 0–1) and of their squares (rows 2–3). -/
import proofs.«900519_g7700000000000520_dist_diff_noisepred_hshard_i_b2_h64_w64_c64_v7x_i4_bf16_1_alg».proof.Proof.Spec
import proofs.«900519_g7700000000000520_dist_diff_noisepred_hshard_i_b2_h64_w64_c64_v7x_i4_bf16_1_alg».proof.Proof.KSpec
import Idealize.ShloMosaic.PureOps.Ideal.Laws
import Idealize.ShloMosaic.Lib.Pipeline.Value
import Idealize.ShloMosaic.Lib.ValueLayout

noncomputable section

namespace Cert.KernelIdeal.KVal

open Idealize.ShloMosaic Idealize.SL.Sem Idealize.ShloMosaic.ValueIdx
open Cert.KernelIdeal Cert.KernelIdeal.Gen Cert.Spec

namespace Stat

/-! ## The selector's integer word -/

/-- A number below 8192 read back signed from its 32-bit word. -/
theorem toInt_ofNat_small (n : Nat) (hn : n < 8192) : (BitVec.ofNat 32 n).toInt = (n : Int) := by
  rw [BitVec.toInt_ofNat']
  exact Int.bmod_eq_of_le (by omega) (by omega)

theorem msb_ofNat_small (n : Nat) (hn : n < 8192) : (BitVec.ofNat 32 n).msb = false := by
  rw [BitVec.msb_eq_false_iff_two_mul_lt, BitVec.toNat_ofNat]
  omega

/-- Signed division of a small non-negative word by 4096 is the quotient. -/
theorem divsi_small (n : Nat) (hn : n < 8192) :
    IntOp.divsi .vector (BitVec.ofNat 32 n) 4096#32 = BitVec.ofNat 32 (n / 4096) := by
  have hc : ¬IntOp.SDivCorner (BitVec.ofNat 32 n) 4096#32 := by
    rintro (h0 | ⟨-, h1⟩)
    · exact absurd h0 (by decide)
    · exact absurd h1 (by decide)
  have hmb : (4096#32 : BitVec 32).msb = false := by decide
  rw [IntOp.divsi, if_neg hc, BitVec.sdiv_eq, msb_ofNat_small n hn, hmb]
  dsimp only
  rw [BitVec.udiv_eq]
  apply BitVec.eq_of_toNat_eq
  rw [BitVec.toNat_udiv, BitVec.toNat_ofNat, BitVec.toNat_ofNat, BitVec.toNat_ofNat,
    Nat.mod_eq_of_lt (show n < 2 ^ 32 by omega), Nat.mod_eq_of_lt (show 4096 < 2 ^ 32 by decide),
    Nat.mod_eq_of_lt (show n / 4096 < 2 ^ 32 by omega)]

/-- The sign fix-up of the floor division never fires on a non-negative dividend. -/
theorem fixup_small (n : Nat) (hn : n < 8192) :
    IntOp.andi
        (IntOp.cmpi .ne
          (IntOp.subi ((IntOp.cmpi .sgt (BitVec.ofNat 32 n) 0#32).setWidth 32)
                      ((IntOp.cmpi .slt (BitVec.ofNat 32 n) 0#32).setWidth 32))
          (Scalar.subi (Scalar.extui (Scalar.cmpi .sgt 4096#32 0#32)) (Scalar.extui (Scalar.cmpi .slt 4096#32 0#32))))
        (IntOp.cmpi .ne (IntOp.remsi .vector (BitVec.ofNat 32 n) 4096#32) 0#32) = 0#1 := by
  rcases Nat.eq_zero_or_pos n with h0 | hpos
  · subst h0; decide
  · have h1 : IntOp.cmpi .sgt (BitVec.ofNat 32 n) 0#32 = 1#1 := by
      have : (0#32).slt (BitVec.ofNat 32 n) = true := by
        rw [BitVec.slt, toInt_ofNat_small n hn]
        simp only [BitVec.toInt_zero, decide_eq_true_eq]
        omega
      show BitVec.ofBool ((0#32).slt (BitVec.ofNat 32 n)) = 1#1
      rw [this]; rfl
    have h2 : IntOp.cmpi .slt (BitVec.ofNat 32 n) 0#32 = 0#1 := by
      have : (BitVec.ofNat 32 n).slt 0#32 = false := by
        rw [BitVec.slt, toInt_ofNat_small n hn]
        simp only [BitVec.toInt_zero, decide_eq_false_iff_not]
        omega
      show BitVec.ofBool ((BitVec.ofNat 32 n).slt 0#32) = 0#1
      rw [this]; rfl
    rw [h1, h2]
    have h3 : IntOp.cmpi .ne (IntOp.subi ((1#1 : BitVec 1).setWidth 32) ((0#1 : BitVec 1).setWidth 32))
        (Scalar.subi (Scalar.extui (Scalar.cmpi .sgt 4096#32 0#32)) (Scalar.extui (Scalar.cmpi .slt 4096#32 0#32))) = 0#1 := by
      decide
    rw [h3]
    exact BitVec.zero_and

/-- The kernel's row-block number: entry (a, j) of the floor-divided column count is ⌊j / 4096⌋. -/
theorem pay3_apply (a : Fin 2) (j : Fin 8192) :
    (k0_pay3 (ix2 a j) : BitVec 32) = BitVec.ofNat 32 (j.val / 4096) := by
  unfold k0_pay3
  simp only [select_apply]
  have hi : iota Kind.tc S2x8192 32 [1] iota_S2x8192_d1_w32 (ix2 a j) = BitVec.ofNat 32 j.val :=
    iota_single_apply _ _ _ _ _ _
  show Scalar.select
      (IntOp.andi
        (IntOp.cmpi .ne
          (IntOp.subi ((IntOp.cmpi .sgt (iota Kind.tc S2x8192 32 [1] iota_S2x8192_d1_w32 (ix2 a j)) 0#32).setWidth 32)
                      ((IntOp.cmpi .slt (iota Kind.tc S2x8192 32 [1] iota_S2x8192_d1_w32 (ix2 a j)) 0#32).setWidth 32))
          (Scalar.subi (Scalar.extui (Scalar.cmpi .sgt 4096#32 0#32)) (Scalar.extui (Scalar.cmpi .slt 4096#32 0#32))))
        (IntOp.cmpi .ne (IntOp.remsi .vector (iota Kind.tc S2x8192 32 [1] iota_S2x8192_d1_w32 (ix2 a j)) 4096#32) 0#32))
      (IntOp.subi (IntOp.divsi .vector (iota Kind.tc S2x8192 32 [1] iota_S2x8192_d1_w32 (ix2 a j)) 4096#32) 1#32)
      (IntOp.divsi .vector (iota Kind.tc S2x8192 32 [1] iota_S2x8192_d1_w32 (ix2 a j)) 4096#32) = _
  rw [hi, fixup_small j.val j.isLt, select_zero, divsi_small j.val j.isLt]

/-! ## The selector matrix and the flattened rows at an index -/

/-- The 0/1 selector matrix: entry (a, j) is 1 when column j lies in row block a, else 0. -/
def maskM : FVec Ideal S2x8192 .bf16 :=
  truncf .bf16 (sitofp .f32 (extui 32 (cmpi .eq k0_pay3 (iota .tc S2x8192 32 [0] iota_S2x8192_d0_w32)) natLt_1_32)) bitsLt_bf16_f32

theorem maskM_apply (a : Fin 2) (j : Fin 8192) :
    maskM (ix2 a j) = if j.val / 4096 = a.val then (1 : EReal) else 0 := by
  unfold maskM
  rw [truncf_apply, sitofp_apply, extui_apply]
  have hi : iota Kind.tc S2x8192 32 [0] iota_S2x8192_d0_w32 (ix2 a j) = BitVec.ofNat 32 a.val :=
    iota_single_apply _ _ _ _ _ _
  show (((((IntOp.cmpi .eq (k0_pay3 (ix2 a j)) (iota Kind.tc S2x8192 32 [0] iota_S2x8192_d0_w32 (ix2 a j))).setWidth 32).toInt : ℤ) : ℝ) : EReal) = _
  rw [pay3_apply, hi]
  have hq : j.val / 4096 = 0 ∨ j.val / 4096 = 1 := by have := j.isLt; omega
  have ha : a.val = 0 ∨ a.val = 1 := by have := a.isLt; omega
  rcases hq with hq | hq <;> rcases ha with ha | ha <;> rw [hq, ha]
  · rw [if_pos rfl, show ((IntOp.cmpi .eq (BitVec.ofNat 32 0) (BitVec.ofNat 32 0)).setWidth 32).toInt = 1 by decide]
    simp
  · rw [if_neg (by decide), show ((IntOp.cmpi .eq (BitVec.ofNat 32 0) (BitVec.ofNat 32 1)).setWidth 32).toInt = 0 by decide]
    simp
  · rw [if_neg (by decide), show ((IntOp.cmpi .eq (BitVec.ofNat 32 1) (BitVec.ofNat 32 0)).setWidth 32).toInt = 0 by decide]
    simp
  · rw [if_pos rfl, show ((IntOp.cmpi .eq (BitVec.ofNat 32 1) (BitVec.ofNat 32 1)).setWidth 32).toInt = 1 by decide]
    simp

/-- The block flattened to rows: row a·4096 + r·64 + w, column ch, is entry (a, r, w, ch) of the block. -/
theorem pay2_apply (x : Vec Ideal S2x64x64x64 .f32) (a : Fin 2) (r w ch : Fin 64) (j : Fin 8192)
    (hj : j.val = a.val * 4096 + r.val * 64 + w.val) :
    (k0_pay2 x : FVec Ideal S8192x64 .bf16) (ix2 j ch) = x (ix4 a r w ch) := by
  unfold k0_pay2 k0_pay1
  rw [shapeCast_apply _ _ (ix2 j ch) (ix4 a r w ch) ?_, truncf_apply, shapeCast_self]
  rw [Shape.rowMajor_val_four, Shape.rowMajor_val_two]
  show ((a.val * 64 + r.val) * 64 + w.val) * 64 + ch.val = j.val * 64 + ch.val
  omega

/-! ## The selector product at an index -/

theorem lhs_stat_0 (i : S2x64.Idx) (q : dot_S2x8192_S8192x64_S2x64_1_0_0_1_n_n.contr.Idx) :
    (dot_S2x8192_S8192x64_S2x64_1_0_0_1_n_n.lhsIdx i q 0).val = (i 0).val := by
  unfold DotDims.lhsIdx
  rw [dif_neg (show ¬(0 : Fin S2x8192.rank) ∈ dot_S2x8192_S8192x64_S2x64_1_0_0_1_n_n.lhsBatch by decide),
    dif_pos (show (0 : Fin S2x8192.rank) ∈ dot_S2x8192_S8192x64_S2x64_1_0_0_1_n_n.lhsNonContracting by decide)]
  rfl
theorem lhs_stat_1 (i : S2x64.Idx) (q : dot_S2x8192_S8192x64_S2x64_1_0_0_1_n_n.contr.Idx) :
    (dot_S2x8192_S8192x64_S2x64_1_0_0_1_n_n.lhsIdx i q 1).val = (q ⟨0, by decide⟩).val :=
  dot_S2x8192_S8192x64_S2x64_1_0_0_1_n_n.lhsIdx_val_of_single rfl i q
theorem rhs_stat_0 (i : S2x64.Idx) (q : dot_S2x8192_S8192x64_S2x64_1_0_0_1_n_n.contr.Idx) :
    (dot_S2x8192_S8192x64_S2x64_1_0_0_1_n_n.rhsIdx i q 0).val = (q ⟨0, by decide⟩).val :=
  dot_S2x8192_S8192x64_S2x64_1_0_0_1_n_n.rhsIdx_val_of_single rfl i q
theorem rhs_stat_1 (i : S2x64.Idx) (q : dot_S2x8192_S8192x64_S2x64_1_0_0_1_n_n.contr.Idx) :
    (dot_S2x8192_S8192x64_S2x64_1_0_0_1_n_n.rhsIdx i q 1).val = (i 1).val := by
  unfold DotDims.rhsIdx
  rw [dif_neg (show ¬(1 : Fin S8192x64.rank) ∈ dot_S2x8192_S8192x64_S2x64_1_0_0_1_n_n.rhsBatch by decide),
    dif_pos (show (1 : Fin S8192x64.rank) ∈ dot_S2x8192_S8192x64_S2x64_1_0_0_1_n_n.rhsNonContracting by decide)]
  rfl

/-- A [2,8192] × [8192,64] product into the zero matrix, at entry (a, ch): the sum over the 8192 columns. -/
theorem matmul_stat_apply (Lm : FVec Ideal S2x8192 .bf16) (Rm : FVec Ideal S8192x64 .bf16) (a : Fin 2) (ch : Fin 64) :
    (matmul dot_S2x8192_S8192x64_S2x64_1_0_0_1_n_n none Lm Rm (constant (F := Ideal) S2x64 .f32 0x00000000#32) : FVec Ideal S2x64 .f32) (ix2 a ch)
      = ∑ j : Fin 8192, Lm (ix2 a j) * Rm (ix2 j ch) := by
  simp only [matmul]
  rw [Ideal.matmul_constant_zero_apply,
    ← Equiv.sum_comp (contrEquiv1 dot_S2x8192_S8192x64_S2x64_1_0_0_1_n_n 8192 rfl rfl).symm]
  refine Finset.sum_congr rfl fun k _ => ?_
  have hk := contrEquiv1_symm_val dot_S2x8192_S8192x64_S2x64_1_0_0_1_n_n 8192 rfl rfl k
  have el : dot_S2x8192_S8192x64_S2x64_1_0_0_1_n_n.lhsIdx (ix2 a ch)
      ((contrEquiv1 dot_S2x8192_S8192x64_S2x64_1_0_0_1_n_n 8192 rfl rfl).symm k) = ix2 a k := funext fun b => Fin.ext (by
    match b with
    | ⟨0, _⟩ => exact lhs_stat_0 _ _
    | ⟨1, _⟩ => exact (lhs_stat_1 _ _).trans hk)
  have er : dot_S2x8192_S8192x64_S2x64_1_0_0_1_n_n.rhsIdx (ix2 a ch)
      ((contrEquiv1 dot_S2x8192_S8192x64_S2x64_1_0_0_1_n_n 8192 rfl rfl).symm k) = ix2 k ch := funext fun b => Fin.ext (by
    match b with
    | ⟨0, _⟩ => exact (rhs_stat_0 _ _).trans hk
    | ⟨1, _⟩ => exact rhs_stat_1 _ _)
  rw [el, er]

/-! ## Summing the selected columns -/

/-- Column j = a·4096 + r·64 + w of the flattened rows, as its block, row and position. -/
def flatEquiv : Fin 8192 ≃ Fin 2 × Fin 64 × Fin 64 where
  toFun j := (⟨j.val / 4096, by have := j.isLt; omega⟩, ⟨j.val / 64 % 64, by omega⟩, ⟨j.val % 64, by omega⟩)
  invFun p := ⟨p.1.val * 4096 + p.2.1.val * 64 + p.2.2.val, by
    have := p.1.isLt; have := p.2.1.isLt; have := p.2.2.isLt; omega⟩
  left_inv j := Fin.ext (by show j.val / 4096 * 4096 + j.val / 64 % 64 * 64 + j.val % 64 = j.val; omega)
  right_inv p := by
    obtain ⟨a, r, w⟩ := p
    have := a.isLt; have := r.isLt; have := w.isLt
    refine Prod.ext (Fin.ext ?_) (Prod.ext (Fin.ext ?_) (Fin.ext ?_))
    · show (a.val * 4096 + r.val * 64 + w.val) / 4096 = a.val; omega
    · show (a.val * 4096 + r.val * 64 + w.val) / 64 % 64 = r.val; omega
    · show (a.val * 4096 + r.val * 64 + w.val) % 64 = w.val; omega

/-- A 0/1 selector of row block a times the flattened rows sums to the block's entries:
    the other block's terms are 0 · y = 0. -/
theorem sum_select (f : Fin 2 → Fin 64 → Fin 64 → EReal) (Lm Rm : Fin 8192 → EReal) (a : Fin 2)
    (hL : ∀ j : Fin 8192, Lm j = if j.val / 4096 = a.val then (1 : EReal) else 0)
    (hR : ∀ (a' : Fin 2) (r w : Fin 64) (j : Fin 8192), j.val = a'.val * 4096 + r.val * 64 + w.val → Rm j = f a' r w) :
    ∑ j : Fin 8192, Lm j * Rm j = ∑ r : Fin 64, ∑ w : Fin 64, f a r w := by
  rw [← Equiv.sum_comp flatEquiv.symm (fun j => Lm j * Rm j), Fintype.sum_prod_type, Finset.sum_eq_single a]
  · rw [Fintype.sum_prod_type]
    refine Finset.sum_congr rfl fun r _ => Finset.sum_congr rfl fun w _ => ?_
    have hv : (flatEquiv.symm (a, r, w)).val = a.val * 4096 + r.val * 64 + w.val := rfl
    rw [hL, hR a r w _ hv, if_pos (by rw [hv]; have := r.isLt; have := w.isLt; omega), one_mul]
  · intro a' _ hne
    refine Finset.sum_eq_zero fun p _ => ?_
    have hv : (flatEquiv.symm (a', p)).val = a'.val * 4096 + p.1.val * 64 + p.2.val := rfl
    rw [hL, if_neg (by
      rw [hv]; have := p.1.isLt; have := p.2.isLt
      intro h; exact hne (Fin.ext (by omega))), zero_mul]
  · intro h; exact absurd (Finset.mem_univ a) h

end Stat

open Stat

/-! ## The statistics at an entry -/

theorem stat_apply_lo (x : Vec Ideal S2x64x64x64 .f32) (b : Fin 2) (ch : Fin 64) :
    KSpec.stat x (ix3 (0 : Fin 1) (⟨b.val, by omega⟩ : Fin 4) ch) = kS1 (fun b r w ch => x (ix4 b r w ch)) b ch := by
  unfold KSpec.stat k0_pay4 kS1
  rw [shapeCast_apply _ _ _ (ix2 (⟨b.val, by omega⟩ : Fin 4) ch) ?hk]
  case hk =>
    rw [Shape.rowMajor_val_two, Shape.rowMajor_val_three]
    show b.val * 64 + ch.val = (0 * 4 + b.val) * 64 + ch.val
    omega
  rw [concatenate_pair_apply_left (s₁ := S2x64) (s₂ := S2x64) (0 : Fin S4x64.rank) _ _ _ _ rfl (ix2 b ch) ?hi]
  case hi =>
    intro b'
    match b' with
    | ⟨0, _⟩ => rfl
    | ⟨1, _⟩ => rfl
  rw [matmul_stat_apply]
  exact sum_select (fun a r w => x (ix4 a r w ch)) _ _ b (fun j => maskM_apply b j)
    (fun a' r w j hj => pay2_apply x a' r w ch j hj)

theorem stat_apply_hi (x : Vec Ideal S2x64x64x64 .f32) (b : Fin 2) (ch : Fin 64) :
    KSpec.stat x (ix3 (0 : Fin 1) (⟨b.val + 2, by omega⟩ : Fin 4) ch) = kS2 (fun b r w ch => x (ix4 b r w ch)) b ch := by
  unfold KSpec.stat k0_pay4 kS2
  rw [shapeCast_apply _ _ _ (ix2 (⟨b.val + 2, by omega⟩ : Fin 4) ch) ?hk]
  case hk =>
    rw [Shape.rowMajor_val_two, Shape.rowMajor_val_three]
    show (b.val + 2) * 64 + ch.val = (0 * 4 + (b.val + 2)) * 64 + ch.val
    omega
  rw [concatenate_pair_apply_right (s₁ := S2x64) (s₂ := S2x64) (0 : Fin S4x64.rank) _ _ _ _ rfl rfl (ix2 b ch) ?hi ?ha]
  case hi =>
    intro b' hb'
    match b', hb' with
    | ⟨0, _⟩, h => exact absurd rfl h
    | ⟨1, _⟩, _ => rfl
  case ha => rfl
  rw [matmul_stat_apply]
  exact sum_select (fun a r w => x (ix4 a r w ch) * x (ix4 a r w ch)) _ _ b (fun j => maskM_apply b j)
    (fun a' r w j hj => by rw [mulf_apply, pay2_apply x a' r w ch j hj])

/-- info: 'Cert.KernelIdeal.KVal.stat_apply_lo' depends on axioms: [propext, Classical.choice, Quot.sound] -/
#guard_msgs in #print axioms stat_apply_lo

/-- info: 'Cert.KernelIdeal.KVal.stat_apply_hi' depends on axioms: [propext, Classical.choice, Quot.sound] -/
#guard_msgs in #print axioms stat_apply_hi

end Cert.KernelIdeal.KVal

end
-- ==== Proof.KOut.lean ====
/- The result block read at an entry, from the device's own rows, the projection and the four statistics. -/
import proofs.«900519_g7700000000000520_dist_diff_noisepred_hshard_i_b2_h64_w64_c64_v7x_i4_bf16_1_alg».proof.Proof.Spec
import proofs.«900519_g7700000000000520_dist_diff_noisepred_hshard_i_b2_h64_w64_c64_v7x_i4_bf16_1_alg».proof.Proof.KSpec
import Idealize.ShloMosaic.PureOps.Ideal.Laws
import Idealize.ShloMosaic.Lib.Pipeline.Value
import Idealize.ShloMosaic.Lib.ValueLayout

noncomputable section

namespace Cert.KernelIdeal.KVal

open Idealize.ShloMosaic Idealize.SL.Sem Idealize.ShloMosaic.ValueIdx
open Cert.KernelIdeal Cert.KernelIdeal.Gen Cert.Spec

/-- Row `j` of the four statistics added in order. -/
def tot (s0 s1 s2 s3 : Vec Ideal S1x4x64 .f32) (j : Fin 4) (ch : Fin 64) : EReal :=
  s0 (ix3 (0 : Fin 1) j ch) + s1 (ix3 (0 : Fin 1) j ch) + s2 (ix3 (0 : Fin 1) j ch) + s3 (ix3 (0 : Fin 1) j ch)

/-! ## The stages of the payload, each read at an entry -/

/-- The four statistics added in order, as one [4,64] array. -/
def totV (s0 s1 s2 s3 : Vec Ideal S1x4x64 .f32) : FVec Ideal S4x64 .f32 :=
  addf (addf (addf (shapeCast S4x64 s0 shapeCasts_S1x4x64_S4x64 : FVec Ideal S4x64 .f32) (shapeCast S4x64 s1 shapeCasts_S1x4x64_S4x64))
    (shapeCast S4x64 s2 shapeCasts_S1x4x64_S4x64)) (shapeCast S4x64 s3 shapeCasts_S1x4x64_S4x64)

/-- Rows 0–1 over the position count: the mean. -/
def meanV (T : FVec Ideal S4x64 .f32) : FVec Ideal S2x64 .f32 :=
  divf (extractStridedSlice S2x64 ![0, 0] T slices_S4x64_o0_0_S2x64) (broadcast S2x64 (Scalar.ofBits .f32 0x46800000#32))

/-- Rows 2–3 over the position count: the mean of squares. -/
def msqV (T : FVec Ideal S4x64 .f32) : FVec Ideal S2x64 .f32 :=
  divf (extractStridedSlice S2x64 ![2, 0] T slices_S4x64_o2_0_S2x64) (broadcast S2x64 (Scalar.ofBits .f32 0x46800000#32))

/-- The reciprocal square root of the stabilised variance. -/
def rsV (T : FVec Ideal S4x64 .f32) : FVec Ideal S2x64 .f32 :=
  rsqrt (addf (subf (msqV T) (mulf (meanV T) (meanV T))) (broadcast S2x64 (Scalar.ofBits .f32 0x3727C5AC#32)))

/-- The rows centred by the mean and scaled. -/
def normV (v : FVec Ideal S2x64x64x64 .bf16) (M R : FVec Ideal S2x64 .f32) : FVec Ideal S2x64x64x64 .bf16 :=
  mulf (subf v (broadcastTo S2x64x64x64 (shapeCast S2x1x1x64 (truncf .bf16 M bitsLt_bf16_f32 : FVec Ideal S2x64 .bf16) shapeCasts_S2x64_S2x1x1x64 : FVec Ideal S2x1x1x64 .bf16)
      broadcasts_S2x1x1x64_S2x64x64x64))
    (broadcastTo S2x64x64x64 (shapeCast S2x1x1x64 (truncf .bf16 R bitsLt_bf16_f32 : FVec Ideal S2x64 .bf16) shapeCasts_S2x64_S2x1x1x64 : FVec Ideal S2x1x1x64 .bf16)
      broadcasts_S2x1x1x64_S2x64x64x64)

/-- The gate h · logistic h. -/
def gateV (H : FVec Ideal S2x64x64x64 .bf16) : FVec Ideal S2x64x64x64 .bf16 := mulf H (logistic H)

/-- The projection of the flattened rows by the weight matrix. -/
def projV (A : FVec Ideal S2x64x64x64 .bf16) (B : FVec Ideal S64x128 .bf16) : FVec Ideal S2x64x64x128 .bf16 :=
  truncf .bf16 (shapeCast S2x64x64x128
    (matmul dot_S8192x64_S64x128_S8192x128_1_0_0_1_n_n none (shapeCast S8192x64 A shapeCasts_S2x64x64x64_S8192x64 : FVec Ideal S8192x64 .bf16) B
      (constant S8192x128 .f32 0x00000000#32) : FVec Ideal S8192x128 .f32)
    shapeCasts_S8192x128_S2x64x64x128 : FVec Ideal S2x64x64x128 .f32) bitsLt_bf16_f32

/-- The payload is the composition of the stages. -/
theorem pay6_eq (v45 : FVec Ideal S2x64x64x64 .bf16) (v149 : FVec Ideal S64x128 .bf16) (s0 s1 s2 s3 : Vec Ideal S1x4x64 .f32) :
    k0_pay6 v45 v149 s0 s1 s2 s3
      = projV (gateV (normV v45 (meanV (totV s0 s1 s2 s3)) (rsV (totV s0 s1 s2 s3)))) v149 := rfl

/-! ## Each stage at an entry -/

theorem totV_apply (s0 s1 s2 s3 : Vec Ideal S1x4x64 .f32) (j : Fin 4) (ch : Fin 64) :
    totV s0 s1 s2 s3 (ix2 j ch) = tot s0 s1 s2 s3 j ch := by
  show shapeCast S4x64 s0 shapeCasts_S1x4x64_S4x64 (ix2 j ch) + shapeCast S4x64 s1 shapeCasts_S1x4x64_S4x64 (ix2 j ch)
      + shapeCast S4x64 s2 shapeCasts_S1x4x64_S4x64 (ix2 j ch) + shapeCast S4x64 s3 shapeCasts_S1x4x64_S4x64 (ix2 j ch) = _
  rw [shapeCast_1ab_ab_apply s0, shapeCast_1ab_ab_apply s1, shapeCast_1ab_ab_apply s2, shapeCast_1ab_ab_apply s3]
  rfl

theorem meanV_apply (T : FVec Ideal S4x64 .f32) (b : Fin 2) (ch : Fin 64) :
    meanV T (ix2 b ch) = Ideal.div (T (ix2 (⟨b.val, by omega⟩ : Fin 4) ch)) cN := by
  show Ideal.div (extractStridedSlice S2x64 ![0, 0] T slices_S4x64_o0_0_S2x64 (ix2 b ch)) cN = _
  rw [slice2_axis0_apply 0 T slices_S4x64_o0_0_S2x64 b ch (⟨b.val, by omega⟩ : Fin 4) (Nat.zero_add _).symm]

theorem msqV_apply (T : FVec Ideal S4x64 .f32) (b : Fin 2) (ch : Fin 64) :
    msqV T (ix2 b ch) = Ideal.div (T (ix2 (⟨b.val + 2, by omega⟩ : Fin 4) ch)) cN := by
  show Ideal.div (extractStridedSlice S2x64 ![2, 0] T slices_S4x64_o2_0_S2x64 (ix2 b ch)) cN = _
  rw [slice2_axis0_apply 2 T slices_S4x64_o2_0_S2x64 b ch (⟨b.val + 2, by omega⟩ : Fin 4) (Nat.add_comm _ _)]

theorem rsV_apply (T : FVec Ideal S4x64 .f32) (i : S2x64.Idx) :
    rsV T i = Ideal.rsqrt (msqV T i - meanV T i * meanV T i + cEps) := rfl

/-- A [2,64] array viewed [2,1,1,64] and spread over the rows and columns reads, at (b, r, w, ch), its entry (b, ch). -/
theorem spread_apply {α : Type} (X : S2x64.Idx → α) (h1 : S2x64.ShapeCasts S2x1x1x64) (h2 : S2x1x1x64.Broadcasts S2x64x64x64)
    (b : Fin 2) (r w ch : Fin 64) :
    broadcastTo S2x64x64x64 (shapeCast S2x1x1x64 X h1) h2 (ix4 b r w ch) = X (ix2 b ch) := by
  refine (broadcastTo_apply _ h2 (ix4 b r w ch) (ix4 b (0 : Fin 1) (0 : Fin 1) ch) fun a => ?_).trans ?_
  · match a with
    | ⟨0, _⟩ => rfl
    | ⟨1, _⟩ => rfl
    | ⟨2, _⟩ => rfl
    | ⟨3, _⟩ => rfl
  · refine shapeCast_apply X h1 _ (ix2 b ch) ?_
    rw [Shape.rowMajor_val_two, Shape.rowMajor_val_four]
    show b.val * 64 + ch.val = ((b.val * 1 + 0) * 1 + 0) * 64 + ch.val
    omega

theorem normV_apply (v : FVec Ideal S2x64x64x64 .bf16) (M R : FVec Ideal S2x64 .f32) (b : Fin 2) (r w ch : Fin 64) :
    normV v M R (ix4 b r w ch) = (v (ix4 b r w ch) - M (ix2 b ch)) * R (ix2 b ch) := by
  show (v (ix4 b r w ch) - broadcastTo S2x64x64x64 (shapeCast S2x1x1x64 (truncf .bf16 M bitsLt_bf16_f32 : FVec Ideal S2x64 .bf16) shapeCasts_S2x64_S2x1x1x64) broadcasts_S2x1x1x64_S2x64x64x64 (ix4 b r w ch))
      * broadcastTo S2x64x64x64 (shapeCast S2x1x1x64 (truncf .bf16 R bitsLt_bf16_f32 : FVec Ideal S2x64 .bf16) shapeCasts_S2x64_S2x1x1x64) broadcasts_S2x1x1x64_S2x64x64x64 (ix4 b r w ch) = _
  rw [spread_apply, spread_apply]
  rfl

theorem gateV_apply (H : FVec Ideal S2x64x64x64 .bf16) (i : S2x64x64x64.Idx) :
    gateV H i = H i * Ideal.logistic (H i) := rfl

/-! ## The projection at an entry -/

/-- The operand indices of the product at a result entry and a contraction position, axis by axis. -/
theorem lhs_axis0 (j : S8192x128.Idx) (k : dot_S8192x64_S64x128_S8192x128_1_0_0_1_n_n.contr.Idx) :
    ((dot_S8192x64_S64x128_S8192x128_1_0_0_1_n_n.lhsIdx j k) 0).val = (j 0).val := rfl

theorem lhs_axis1 (j : S8192x128.Idx) (k : dot_S8192x64_S64x128_S8192x128_1_0_0_1_n_n.contr.Idx) :
    ((dot_S8192x64_S64x128_S8192x128_1_0_0_1_n_n.lhsIdx j k) 1).val = (k ⟨0, by decide⟩).val :=
  dot_S8192x64_S64x128_S8192x128_1_0_0_1_n_n.lhsIdx_val_of_single rfl j k

theorem rhs_axis0 (j : S8192x128.Idx) (k : dot_S8192x64_S64x128_S8192x128_1_0_0_1_n_n.contr.Idx) :
    ((dot_S8192x64_S64x128_S8192x128_1_0_0_1_n_n.rhsIdx j k) 0).val = (k ⟨0, by decide⟩).val :=
  dot_S8192x64_S64x128_S8192x128_1_0_0_1_n_n.rhsIdx_val_of_single rfl j k

theorem rhs_axis1 (j : S8192x128.Idx) (k : dot_S8192x64_S64x128_S8192x128_1_0_0_1_n_n.contr.Idx) :
    ((dot_S8192x64_S64x128_S8192x128_1_0_0_1_n_n.rhsIdx j k) 1).val = (j 1).val := rfl

/-- The product into the zero accumulator, at (p, o): the sum over the channel of the operands' products. -/
theorem matmul_ix (A : FVec Ideal S8192x64 .bf16) (B : FVec Ideal S64x128 .bf16) (p : Fin 8192) (o : Fin 128) :
    matmul dot_S8192x64_S64x128_S8192x128_1_0_0_1_n_n none A B (constant S8192x128 .f32 0x00000000#32) (ix2 p o)
      = ∑ ch : Fin 64, A (ix2 p ch) * B (ix2 ch o) := by
  show FloatOps.matmul dot_S8192x64_S64x128_S8192x128_1_0_0_1_n_n none A B (constant S8192x128 .f32 0x00000000#32) (ix2 p o) = _
  rw [Ideal.matmul_constant_zero_apply,
    ← Equiv.sum_comp (contrEquiv1 dot_S8192x64_S64x128_S8192x128_1_0_0_1_n_n 64 rfl rfl).symm]
  refine Finset.sum_congr rfl fun c _ => ?_
  have hc := contrEquiv1_symm_val dot_S8192x64_S64x128_S8192x128_1_0_0_1_n_n 64 rfl rfl c
  have hl : dot_S8192x64_S64x128_S8192x128_1_0_0_1_n_n.lhsIdx (ix2 p o)
      ((contrEquiv1 dot_S8192x64_S64x128_S8192x128_1_0_0_1_n_n 64 rfl rfl).symm c) = ix2 p c := by
    funext ax; apply Fin.ext
    match ax with
    | ⟨0, _⟩ => exact lhs_axis0 _ _
    | ⟨1, _⟩ => exact (lhs_axis1 _ _).trans hc
  have hr : dot_S8192x64_S64x128_S8192x128_1_0_0_1_n_n.rhsIdx (ix2 p o)
      ((contrEquiv1 dot_S8192x64_S64x128_S8192x128_1_0_0_1_n_n 64 rfl rfl).symm c) = ix2 c o := by
    funext ax; apply Fin.ext
    match ax with
    | ⟨0, _⟩ => exact (rhs_axis0 _ _).trans hc
    | ⟨1, _⟩ => exact rhs_axis1 _ _
  rw [hl, hr]

theorem projV_apply (A : FVec Ideal S2x64x64x64 .bf16) (B : FVec Ideal S64x128 .bf16) (b : Fin 2) (r w : Fin 64) (o : Fin 128) :
    projV A B (ix4 b r w o) = ∑ ch : Fin 64, A (ix4 b r w ch) * B (ix2 ch o) := by
  have hp : (b.val * 64 + r.val) * 64 + w.val < 8192 := by omega
  show shapeCast S2x64x64x128
    (matmul dot_S8192x64_S64x128_S8192x128_1_0_0_1_n_n none (shapeCast S8192x64 A shapeCasts_S2x64x64x64_S8192x64 : FVec Ideal S8192x64 .bf16) B
      (constant S8192x128 .f32 0x00000000#32) : FVec Ideal S8192x128 .f32)
    shapeCasts_S8192x128_S2x64x64x128 (ix4 b r w o) = _
  refine (shapeCast_apply _ shapeCasts_S8192x128_S2x64x64x128 (ix4 b r w o) (ix2 (⟨(b.val * 64 + r.val) * 64 + w.val, hp⟩ : Fin 8192) o) ?_).trans ?_
  · rw [Shape.rowMajor_val_two, Shape.rowMajor_val_four]
    rfl
  · rw [matmul_ix]
    refine Finset.sum_congr rfl fun ch _ => ?_
    refine congrArg (· * B (ix2 ch o)) ?_
    refine shapeCast_apply A shapeCasts_S2x64x64x64_S8192x64 _ (ix4 b r w ch) ?_
    rw [Shape.rowMajor_val_two, Shape.rowMajor_val_four]
    rfl

/-- The device's rows and the projection enter the payload unchanged. -/
theorem pay1_apply (x : Vec Ideal S2x64x64x64 .f32) (i : S2x64x64x64.Idx) : k0_pay1 x i = x i := by
  show shapeCast S2x64x64x64 x shapeCasts_S2x64x64x64_S2x64x64x64 i = x i
  rw [shapeCast_self]

theorem pay5_apply (wp : Vec Ideal S64x128 .f32) (i : S64x128.Idx) : k0_pay5 wp i = wp i := by
  show shapeCast S64x128 wp shapeCasts_S64x128_S64x128 i = wp i
  rw [shapeCast_self]

theorem outOf_apply (x : Vec Ideal S2x64x64x64 .f32) (wp : Vec Ideal S64x128 .f32) (s0 s1 s2 s3 : Vec Ideal S1x4x64 .f32)
    (b : Fin 2) (r w : Fin 64) (o : Fin 128) :
    KSpec.outOf x wp s0 s1 s2 s3 (ix4 b r w o)
      = Gker (fun b r w ch => x (ix4 b r w ch)) (fun b ch => tot s0 s1 s2 s3 ⟨b.val, by omega⟩ ch) (fun b ch => tot s0 s1 s2 s3 ⟨b.val + 2, by omega⟩ ch)
          (fun ch o => wp (ix2 ch o)) b r w o := by
  unfold KSpec.outOf
  rw [pay6_eq]
  refine (projV_apply _ _ b r w o).trans ?_
  unfold Gker
  refine Finset.sum_congr rfl fun ch _ => ?_
  rw [pay5_apply, gateV_apply, normV_apply, pay1_apply, rsV_apply, msqV_apply, meanV_apply, totV_apply, totV_apply]
  rfl

/-- info: 'Cert.KernelIdeal.KVal.outOf_apply' depends on axioms: [propext, Classical.choice, Quot.sound] -/
#guard_msgs in #print axioms Cert.KernelIdeal.KVal.outOf_apply

end Cert.KernelIdeal.KVal

end
-- ==== Proof.RefRead.lean ====
/- The one-device program's result read at an entry: the composed operations are the entrywise formula `Gref`.
   Outside in: the format change is the identity; the reshape to [2, 256, 64, 128] reads flat row (b·256 + r)·64 + w;
   the projection is the sum over the 64 channels; the reshape to [32768, 64] reads position (b, r, w) back; the gate,
   the normalisation, the variance and the mean are pointwise in the per-(batch, channel) statistics, each a double
   sum over the 256 rows and 64 columns from the zero word; the variance's guard holds because its divisor is the
   position count 16384 less zero. -/
import proofs.«900519_g7700000000000520_dist_diff_noisepred_hshard_i_b2_h64_w64_c64_v7x_i4_bf16_1_alg».proof.Proof.Spec
import Idealize.ShloMosaic.PureOps.Ideal.Laws
import Idealize.ShloMosaic.Lib.Pipeline.Value
import Idealize.ShloMosaic.Lib.ValueLayout
import Idealize.ShloMosaic.Lib.IdealHost
import Idealize.ShloMosaic.Lib.StackMember

noncomputable section

namespace Cert.Spec

open Idealize.ShloMosaic Idealize.SL.Sem Idealize.ShloMosaic.ValueIdx
open Cert.ReferenceIdeal Cert.ReferenceIdeal.Facts₀

namespace RefRead

/-! ## Layout and reduction, entry by entry -/

/-- Dropping the row and column coordinates of an index leaves its batch and channel. -/
theorem drop12_ix4 (h : S2x256x64x64.ReducesTo [1, 2] S2x64) (a : Fin 2) (r : Fin 256) (w : Fin 64) (c : Fin 64) :
    h.drop (ix4 a r w c) = ix2 a c := by
  funext d; apply Fin.ext
  match d with
  | ⟨0, _⟩ => rfl
  | ⟨1, _⟩ => rfl

/-- The indices that reduce to (batch, channel) are the 256·64 positions of that column: the sum over them is the
    double sum over rows and columns. -/
theorem sum_filter_drop12 (h : S2x256x64x64.ReducesTo [1, 2] S2x64) (v : S2x256x64x64.Idx → EReal) (b : Fin 2) (ch : Fin 64) :
    ∑ i ∈ Finset.univ.filter (fun i => h.drop i = ix2 b ch), v i = ∑ r : Fin 256, ∑ w : Fin 64, v (ix4 b r w ch) := by
  refine Eq.trans ?_ (Fintype.sum_prod_type' (fun (r : Fin 256) (w : Fin 64) => v (ix4 b r w ch)))
  refine Finset.sum_nbij' (fun i => ((i 1 : Fin 256), (i 2 : Fin 64))) (fun p => ix4 b p.1 p.2 ch) ?_ ?_ ?_ ?_ ?_
  · intro i _; exact Finset.mem_univ _
  · intro p _; exact Finset.mem_filter.mpr ⟨Finset.mem_univ _, drop12_ix4 h b p.1 p.2 ch⟩
  · intro i hi
    obtain ⟨a, r, w, c, rfl⟩ : ∃ (a : Fin 2) (r : Fin 256) (w : Fin 64) (c : Fin 64), i = ix4 a r w c :=
      ⟨i 0, i 1, i 2, i 3, eq_ix4 i⟩
    have e := (Finset.mem_filter.mp hi).2
    rw [drop12_ix4] at e
    have ea : a = b := congrFun e 0
    have ec : c = ch := congrFun e 1
    subst ea; subst ec; rfl
  · intro p _; rfl
  · intro i hi
    obtain ⟨a, r, w, c, rfl⟩ : ∃ (a : Fin 2) (r : Fin 256) (w : Fin 64) (c : Fin 64), i = ix4 a r w c :=
      ⟨i 0, i 1, i 2, i 3, eq_ix4 i⟩
    have e := (Finset.mem_filter.mp hi).2
    rw [drop12_ix4] at e
    have ea : a = b := congrFun e 0
    have ec : c = ch := congrFun e 1
    subst ea; subst ec; rfl

/-- The sum over rows and columns from the zero word, read at (batch, channel). -/
theorem reduce12_apply (h : S2x256x64x64.ReducesTo [1, 2] S2x64) (hu : 0 < S_.numel) (v : FVec Ideal S2x256x64x64 .f32)
    (b : Fin 2) (ch : Fin 64) :
    Host.reduceAdd v (constant (F := Ideal) S_ .f32 0x00000000#32) h hu (ix2 b ch)
      = ∑ r : Fin 256, ∑ w : Fin 64, v (ix4 b r w ch) := by
  rw [hostReduceAdd_apply, constant_apply, Ideal.ofBits_zero_f32]
  unfold Ideal.hostReduceAdd
  rw [zero_add]
  exact sum_filter_drop12 h v b ch

/-- A per-(batch, channel) statistic placed on the unit axes reads that statistic. -/
theorem bc03_apply {α : Type} (h : S2x64.BroadcastsInDim S2x1x1x64 (![0, 3] : Fin 2 → Fin S2x1x1x64.rank))
    (s : S2x64.Idx → α) (b : Fin 2) (u v : Fin 1) (ch : Fin 64) :
    broadcastInDim S2x1x1x64 ![0, 3] h s (ix4 b u v ch) = s (ix2 b ch) :=
  broadcastInDim_apply _ h s _ _ fun a => match a with | ⟨0, _⟩ => rfl | ⟨1, _⟩ => rfl

/-- A per-(batch, channel) statistic spread over all positions reads that statistic. -/
theorem bc0123_apply {α : Type}
    (h : S2x1x1x64.BroadcastsInDim S2x256x64x64 (![0, 1, 2, 3] : Fin 4 → Fin S2x256x64x64.rank))
    (m : S2x1x1x64.Idx → α) (b : Fin 2) (r : Fin 256) (w : Fin 64) (ch : Fin 64) :
    broadcastInDim S2x256x64x64 ![0, 1, 2, 3] h m (ix4 b r w ch) = m (ix4 b (0 : Fin 1) (0 : Fin 1) ch) :=
  broadcastInDim_apply _ h m _ _ fun a => match a with | ⟨0, _⟩ => rfl | ⟨1, _⟩ => rfl | ⟨2, _⟩ => rfl | ⟨3, _⟩ => rfl

/-- The flat row (b·256 + r)·64 + w of the [32768, 64] view is position (b, r, w). -/
theorem flat_apply {α : Type} (h : S2x256x64x64.ShapeCasts S32768x64) (a : S2x256x64x64.Idx → α)
    (b : Fin 2) (r : Fin 256) (w : Fin 64) (ch : Fin 64) (p : Fin 32768) (hp : p.val = (b.val * 256 + r.val) * 64 + w.val) :
    shapeCast S32768x64 a h (ix2 p ch) = a (ix4 b r w ch) :=
  shapeCast_apply a h _ _ (by
    rw [Shape.rowMajor_val_four, Shape.rowMajor_val_two]
    show ((b.val * 256 + r.val) * 64 + w.val) * 64 + ch.val = p.val * 64 + ch.val
    rw [hp])

/-- Position (b, r, w) of the [2, 256, 64, 128] view is the flat row (b·256 + r)·64 + w. -/
theorem unflat_apply {α : Type} (h : S32768x128.ShapeCasts S2x256x64x128) (a : S32768x128.Idx → α)
    (b : Fin 2) (r : Fin 256) (w : Fin 64) (o : Fin 128) (p : Fin 32768) (hp : p.val = (b.val * 256 + r.val) * 64 + w.val) :
    shapeCast S2x256x64x128 a h (ix4 b r w o) = a (ix2 p o) :=
  shapeCast_apply a h _ _ (by
    rw [Shape.rowMajor_val_four, Shape.rowMajor_val_two]
    show p.val * 128 + o.val = ((b.val * 256 + r.val) * 64 + w.val) * 128 + o.val
    rw [hp])

/-- The projection: a row of the flat array against a column of the weights. -/
theorem dot_apply (A : FVec Ideal S32768x64 .f32) (B : FVec Ideal S64x128 .f32) (p : Fin 32768) (o : Fin 128) :
    Host.dotGeneral dot_S32768x64_S64x128_S32768x128_1_0_0_1_n_n none A B (ix2 p o) = ∑ c : Fin 64, A (ix2 p c) * B (ix2 c o) :=
  StackMember.dotGeneral_plain_apply none A B p o

/-! ## The stages of the reference -/

/-- The sum over rows and columns, from the zero word. -/
def sumV (v : FVec Ideal S2x256x64x64 .f32) : FVec Ideal S2x64 .f32 :=
  Host.reduceAdd v (constant (F := Ideal) S_ .f32 0x00000000#32) reducesTo_S2x256x64x64_S2x64_d1_2 h_S_

/-- The mean of each (batch, channel) column. -/
def meanV (x : FVec Ideal S2x256x64x64 .f32) : FVec Ideal S2x1x1x64 .f32 :=
  Host.divf (broadcastInDim S2x1x1x64 ![0, 3] bcast_S2x64_S2x1x1x64_0_3 (sumV x))
    (broadcastInDim S2x1x1x64 ![] bcast_S_S2x1x1x64 (constant (F := Ideal) S_ .f32 0x46800000#32))

/-- The entries less their column's mean. -/
def cenV (x : FVec Ideal S2x256x64x64 .f32) : FVec Ideal S2x256x64x64 .f32 :=
  subf x (broadcastInDim S2x256x64x64 ![0, 1, 2, 3] bcast_S2x1x1x64_S2x256x64x64_0_1_2_3 (meanV x))

/-- The variance's divisor: the position count less zero degrees of freedom. -/
def cntV : FVec Ideal S_ .f32 :=
  subf (constant (F := Ideal) S_ .f32 0x46800000#32) (sitofp .f32 (constantI S_ 32 0#32))

/-- The variance of each column, guarded by the divisor's sign. -/
def varV (x : FVec Ideal S2x256x64x64 .f32) : FVec Ideal S2x1x1x64 .f32 :=
  select (broadcastInDim S2x1x1x64 ![] bcast_S_S2x1x1x64 (cmpf .ogt cntV (constant (F := Ideal) S_ .f32 0x00000000#32)))
    (Host.divf (broadcastInDim S2x1x1x64 ![0, 3] bcast_S2x64_S2x1x1x64_0_3 (sumV (mulf (cenV x) (cenV x))))
      (broadcastInDim S2x1x1x64 ![] bcast_S_S2x1x1x64 cntV))
    (broadcastInDim S2x1x1x64 ![] bcast_S_S2x1x1x64 (id (constant (F := Ideal) S_ .f32 0x7FC00000#32)))

/-- The normalised entries. -/
def hV (x : FVec Ideal S2x256x64x64 .f32) : FVec Ideal S2x256x64x64 .f32 :=
  Host.divf (cenV x) (broadcastInDim S2x256x64x64 ![0, 1, 2, 3] bcast_S2x1x1x64_S2x256x64x64_0_1_2_3
    (Host.sqrt (addf (varV x) (broadcastInDim S2x1x1x64 ![] bcast_S_S2x1x1x64 (constant (F := Ideal) S_ .f32 0x3727C5AC#32)))))

/-- The gated entries. -/
def aV (x : FVec Ideal S2x256x64x64 .f32) : FVec Ideal S2x256x64x64 .f32 :=
  Host.divf (hV x) (addf (broadcastInDim S2x256x64x64 ![] bcast_S_S2x256x64x64 (constant (F := Ideal) S_ .f32 0x3F800000#32))
    (Host.exp (Host.negf (hV x))))

/-- The reference is the projection of the gated entries, reshaped to rows and back. -/
theorem refVal_eq (x : FVec Ideal S2x256x64x64 .f32) (wp : FVec Ideal S64x128 .f32) :
    refVal x wp = truncf .bf16 (shapeCast S2x256x64x128
      (Host.dotGeneral dot_S32768x64_S64x128_S32768x128_1_0_0_1_n_n none
        (shapeCast S32768x64 (aV x) shapeCasts_S2x256x64x64_S32768x64) wp) shapeCasts_S32768x128_S2x256x64x128) bitsLt_bf16_f32 := rfl

/-! ## The constants -/

/-- The position count is positive. -/
theorem cN_pos : 0 < cN := by
  have e : cN = ((16384 : ℝ) : EReal) := by
    unfold cN
    simp [Ideal.ofBits, Ideal.ieee, -EReal.coe_mul]; norm_num
  rw [e]; exact EReal.coe_pos.mpr (by norm_num)

/-- Zero degrees of freedom removed leaves the position count. -/
theorem cntV_apply (i : S_.Idx) : cntV i = cN := by
  show cN - ((((0#32 : BitVec 32).toInt : ℝ)) : EReal) = cN
  simp

/-- The guard holds: the divisor is positive. -/
theorem guard_apply (i : S_.Idx) : cmpf .ogt cntV (constant (F := Ideal) S_ .f32 0x00000000#32) i = 1#1 := by
  rw [cmpf_apply, cntV_apply, constant_apply, Ideal.ofBits_zero_f32]
  show Ideal.cmp .ogt cN 0 = 1#1
  simp [Ideal.cmp, cN_pos]

/-! ## The stages, entry by entry -/

section Stages
variable (x : FVec Ideal S2x256x64x64 .f32)

theorem sumV_apply (v : FVec Ideal S2x256x64x64 .f32) (b : Fin 2) (ch : Fin 64) :
    sumV v (ix2 b ch) = ∑ r : Fin 256, ∑ w : Fin 64, v (ix4 b r w ch) :=
  reduce12_apply _ _ v b ch

theorem meanV_apply (b : Fin 2) (u v : Fin 1) (ch : Fin 64) :
    meanV x (ix4 b u v ch) = rMean (fun b r w ch => x (ix4 b r w ch)) b ch := by
  unfold meanV
  rw [hostDivf_apply, bc03_apply, sumV_apply, broadcastInDim_scalar_apply, constant_apply]
  rfl

theorem cenV_apply (b : Fin 2) (r : Fin 256) (w : Fin 64) (ch : Fin 64) :
    cenV x (ix4 b r w ch) = x (ix4 b r w ch) - rMean (fun b r w ch => x (ix4 b r w ch)) b ch := by
  unfold cenV
  rw [subf_apply, bc0123_apply, meanV_apply]

theorem varV_apply (b : Fin 2) (u v : Fin 1) (ch : Fin 64) :
    varV x (ix4 b u v ch) = rVar (fun b r w ch => x (ix4 b r w ch)) b ch := by
  unfold varV
  rw [select_apply, broadcastInDim_scalar_apply, guard_apply, select_one, hostDivf_apply, bc03_apply, sumV_apply,
    broadcastInDim_scalar_apply, cntV_apply]
  unfold rVar
  refine congrArg (fun s => Ideal.div s cN) ?_
  refine Finset.sum_congr rfl fun r _ => Finset.sum_congr rfl fun w _ => ?_
  rw [mulf_apply, cenV_apply]

theorem hV_apply (b : Fin 2) (r : Fin 256) (w : Fin 64) (ch : Fin 64) :
    hV x (ix4 b r w ch) = rH (fun b r w ch => x (ix4 b r w ch)) b r w ch := by
  unfold hV
  rw [hostDivf_apply, cenV_apply, bc0123_apply]
  show Ideal.div _ (Ideal.sqrt (varV x (ix4 b (0 : Fin 1) (0 : Fin 1) ch) + cEps)) = _
  rw [varV_apply]
  rfl

theorem aV_apply (b : Fin 2) (r : Fin 256) (w : Fin 64) (ch : Fin 64) :
    aV x (ix4 b r w ch) = rA (fun b r w ch => x (ix4 b r w ch)) b r w ch := by
  unfold aV
  rw [hostDivf_apply]
  show Ideal.div (hV x (ix4 b r w ch)) (cOne + Ideal.exp (-(hV x (ix4 b r w ch)))) = _
  rw [hV_apply]
  rfl

end Stages

end RefRead

open RefRead

theorem refVal_apply (x : FVec Ideal S2x256x64x64 .f32) (wp : FVec Ideal S64x128 .f32) (b : Fin 2) (r : Fin 256) (w : Fin 64) (o : Fin 128) :
    refVal x wp (ix4 b r w o) = Gref (fun b r w ch => x (ix4 b r w ch)) (fun ch o => wp (ix2 ch o)) b r w o := by
  have hlt : (b.val * 256 + r.val) * 64 + w.val < 32768 := by
    have := b.isLt; have := r.isLt; have := w.isLt; omega
  rw [refVal_eq, truncf_apply,
    unflat_apply _ _ b r w o ⟨(b.val * 256 + r.val) * 64 + w.val, hlt⟩ rfl, dot_apply]
  unfold Gref
  refine Finset.sum_congr rfl fun ch _ => ?_
  rw [flat_apply _ _ b r w ch ⟨(b.val * 256 + r.val) * 64 + w.val, hlt⟩ rfl, aV_apply]

/-- info: 'Cert.Spec.refVal_apply' depends on axioms: [propext, Classical.choice, Quot.sound] -/
#guard_msgs in #print axioms refVal_apply

end Cert.Spec

end
-- ==== Proof.Algebra.lean ====
/- The law that joins the two sides, over real entries: the four devices' partial sums add up to the sum over all 256
   rows; the mean of squares minus the squared mean is the mean squared deviation; multiplying by the reciprocal square
   root is dividing by the square root; and x·(1/(1+e^{-x})) is x/(1+e^{-x}). -/
import proofs.«900519_g7700000000000520_dist_diff_noisepred_hshard_i_b2_h64_w64_c64_v7x_i4_bf16_1_alg».proof.Proof.Spec

noncomputable section

namespace Cert.Spec

open Idealize.ShloMosaic

/-- Rows `64 d … 64 d + 63` of the whole array. -/
def blk (x : Fin 2 → Fin 256 → Fin 64 → Fin 64 → EReal) (d : Fin 4) : Fin 2 → Fin 64 → Fin 64 → Fin 64 → EReal :=
  fun b r w ch => x b ⟨d.val * 64 + r.val, by omega⟩ w ch

/-- `k` places further round the four devices. -/
def rot (c : Fin 4) (k : Nat) : Fin 4 := ⟨(c.val + k) % 4, Nat.mod_lt _ (by decide)⟩

/-! ## The constants -/

theorem cN_eq : cN = ((16384 : ℝ) : EReal) := by
  simp [cN, Ideal.ofBits, Ideal.ieee, -EReal.coe_mul]; norm_num

theorem cOne_eq : cOne = ((1 : ℝ) : EReal) := by
  simp [cOne, Ideal.ofBits, Ideal.ieee, -EReal.coe_mul]; norm_num

theorem cEps_eq : ∃ e : ℝ, 0 < e ∧ cEps = (e : EReal) := by
  simp [cEps, Ideal.ofBits, Ideal.ieee, -EReal.coe_mul]

/-! ## Splitting the sum over the rows -/

/-- A sum over 256 rows is the sum over four blocks of 64 rows. -/
theorem sum_rows {M : Type*} [AddCommMonoid M] (f : Fin 256 → M) :
    ∑ r : Fin 256, f r = ∑ d : Fin 4, ∑ r : Fin 64, f ⟨d.val * 64 + r.val, by omega⟩ := by
  rw [← Fintype.sum_prod_type' (f := fun (d : Fin 4) (r : Fin 64) => f ⟨d.val * 64 + r.val, by omega⟩)]
  symm
  refine Fintype.sum_equiv (finProdFinEquiv (m := 4) (n := 64)) _ _ ?_
  rintro ⟨d, r⟩
  congr 1
  apply Fin.ext
  simp [finProdFinEquiv]
  omega

/-- The four rotations of a device index run through all four devices. -/
theorem sum_rot {M : Type*} [AddCommMonoid M] (g : Fin 4 → M) (c : Fin 4) :
    g c + g (rot c 3) + g (rot c 2) + g (rot c 1) = ∑ d : Fin 4, g d := by
  rw [Fin.sum_univ_four]
  fin_cases c <;> simp [rot] <;> abel

/-- The four devices' partial sums add up to the sum over all rows. -/
theorem total_S1 (x : Fin 2 → Fin 256 → Fin 64 → Fin 64 → EReal) (c : Fin 4) (b : Fin 2) (ch : Fin 64) :
    kS1 (blk x c) b ch + kS1 (blk x (rot c 3)) b ch + kS1 (blk x (rot c 2)) b ch + kS1 (blk x (rot c 1)) b ch
      = ∑ r : Fin 256, ∑ w : Fin 64, x b r w ch := by
  rw [sum_rot (fun d => kS1 (blk x d) b ch) c, sum_rows (fun r => ∑ w : Fin 64, x b r w ch)]
  rfl

theorem total_S2 (x : Fin 2 → Fin 256 → Fin 64 → Fin 64 → EReal) (c : Fin 4) (b : Fin 2) (ch : Fin 64) :
    kS2 (blk x c) b ch + kS2 (blk x (rot c 3)) b ch + kS2 (blk x (rot c 2)) b ch + kS2 (blk x (rot c 1)) b ch
      = ∑ r : Fin 256, ∑ w : Fin 64, x b r w ch * x b r w ch := by
  rw [sum_rot (fun d => kS2 (blk x d) b ch) c, sum_rows (fun r => ∑ w : Fin 64, x b r w ch * x b r w ch)]
  rfl

/-! ## The real identity -/

/-- The coercion of a finite sum of reals. -/
theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The sum of squared deviations from any level, expanded. -/
theorem sum_sq_dev (v : Fin 256 → Fin 64 → ℝ) (μ : ℝ) :
    ∑ r, ∑ w, (v r w - μ) * (v r w - μ)
      = (∑ r, ∑ w, v r w * v r w) - 2 * μ * (∑ r, ∑ w, v r w) + 16384 * (μ * μ) := by
  have h : ∀ r w, (v r w - μ) * (v r w - μ) = v r w * v r w - 2 * μ * v r w + μ * μ := by intros; ring
  simp_rw [h, Finset.sum_add_distrib, Finset.sum_sub_distrib, ← Finset.mul_sum, Finset.sum_const, Finset.card_univ,
    Fintype.card_fin, nsmul_eq_mul]
  push_cast; ring

/-- Mean squared deviation from the mean is mean of squares minus squared mean. -/
theorem var_identity (v : Fin 256 → Fin 64 → ℝ) :
    (∑ r, ∑ w, (v r w - (∑ r, ∑ w, v r w) / 16384) * (v r w - (∑ r, ∑ w, v r w) / 16384)) / 16384
      = (∑ r, ∑ w, v r w * v r w) / 16384 - (∑ r, ∑ w, v r w) / 16384 * ((∑ r, ∑ w, v r w) / 16384) := by
  rw [sum_sq_dev]; ring

/-! ## The two sides on real entries -/

section Model
variable (v : Fin 2 → Fin 256 → Fin 64 → Fin 64 → ℝ)

/-- An array of reals, read in the extended reals. -/
def cx : Fin 2 → Fin 256 → Fin 64 → Fin 64 → EReal := fun b r w ch => (v b r w ch : EReal)

/-- Over the reals: the column's sum, sum of squares, mean, mean squared deviation, the normalised entry and the gated
    entry. -/
def mS1 (b : Fin 2) (ch : Fin 64) : ℝ := ∑ r : Fin 256, ∑ w : Fin 64, v b r w ch
def mS2 (b : Fin 2) (ch : Fin 64) : ℝ := ∑ r : Fin 256, ∑ w : Fin 64, v b r w ch * v b r w ch
def mMean (b : Fin 2) (ch : Fin 64) : ℝ := mS1 v b ch / 16384
def mVar (b : Fin 2) (ch : Fin 64) : ℝ :=
  (∑ r : Fin 256, ∑ w : Fin 64, (v b r w ch - mMean v b ch) * (v b r w ch - mMean v b ch)) / 16384
def mH (e : ℝ) (b : Fin 2) (r : Fin 256) (w ch : Fin 64) : ℝ :=
  (v b r w ch - mMean v b ch) / Real.sqrt (mVar v b ch + e)
def mA (e : ℝ) (b : Fin 2) (r : Fin 256) (w ch : Fin 64) : ℝ :=
  mH v e b r w ch / (1 + Real.exp (-(mH v e b r w ch)))

theorem mVar_nonneg (b : Fin 2) (ch : Fin 64) : 0 ≤ mVar v b ch :=
  div_nonneg (Finset.sum_nonneg fun r _ => Finset.sum_nonneg fun w _ => mul_self_nonneg _) (by norm_num)

theorem mVar_eq (b : Fin 2) (ch : Fin 64) : mVar v b ch = mS2 v b ch / 16384 - mMean v b ch * mMean v b ch :=
  var_identity (fun r w => v b r w ch)

/-- Division of a real by the position count, and by a nonzero real. -/
theorem div_cN (a : ℝ) : Ideal.div (a : EReal) cN = ((a / 16384 : ℝ) : EReal) := by
  rw [cN_eq, Ideal.div_coe (by norm_num), ← EReal.coe_mul, mul_one_div]

theorem div_coe_coe (a s : ℝ) (hs : s ≠ 0) : Ideal.div (a : EReal) (s : EReal) = ((a / s : ℝ) : EReal) := by
  rw [Ideal.div_coe hs, ← EReal.coe_mul, mul_one_div]

theorem sum_cx (b : Fin 2) (ch : Fin 64) : ∑ r : Fin 256, ∑ w : Fin 64, cx v b r w ch = (mS1 v b ch : EReal) := by
  simp only [cx, coe_sum, mS1]

theorem sum_cx_sq (b : Fin 2) (ch : Fin 64) :
    ∑ r : Fin 256, ∑ w : Fin 64, cx v b r w ch * cx v b r w ch = (mS2 v b ch : EReal) := by
  simp only [cx, ← EReal.coe_mul, coe_sum, mS2]

/-! ### The reference -/

theorem rMean_cx (b : Fin 2) (ch : Fin 64) : rMean (cx v) b ch = (mMean v b ch : EReal) := by
  rw [rMean, sum_cx, div_cN, mMean]

theorem rVar_cx (b : Fin 2) (ch : Fin 64) : rVar (cx v) b ch = (mVar v b ch : EReal) := by
  unfold rVar
  rw [rMean_cx]
  simp only [cx, ← EReal.coe_sub, ← EReal.coe_mul, coe_sum]
  rw [div_cN, mVar]

variable (e : ℝ) (he : 0 < e) (hE : cEps = (e : EReal))
include he hE

theorem rH_cx (b : Fin 2) (r : Fin 256) (w ch : Fin 64) : rH (cx v) b r w ch = (mH v e b r w ch : EReal) := by
  have hpos : 0 < mVar v b ch + e := add_pos_of_nonneg_of_pos (mVar_nonneg v b ch) he
  unfold rH
  rw [rMean_cx, rVar_cx, hE, ← EReal.coe_add, Ideal.sqrt_coe, if_neg (not_lt.mpr hpos.le)]
  show Ideal.div ((v b r w ch : EReal) - _) _ = _
  rw [← EReal.coe_sub, div_coe_coe _ _ (Real.sqrt_pos.mpr hpos).ne', mH]

theorem rA_cx (b : Fin 2) (r : Fin 256) (w ch : Fin 64) : rA (cx v) b r w ch = (mA v e b r w ch : EReal) := by
  unfold rA
  rw [rH_cx v e he hE, cOne_eq, ← EReal.coe_neg, Ideal.exp_coe, ← EReal.coe_add,
    div_coe_coe _ _ (by positivity), mA]

/-! ### One device, given the totals -/

omit he hE in
theorem kMean_m (b : Fin 2) (ch : Fin 64) :
    kMean (fun b ch => (mS1 v b ch : EReal)) b ch = (mMean v b ch : EReal) := by
  show Ideal.div (mS1 v b ch : EReal) cN = _
  rw [div_cN, mMean]

omit he hE in
theorem kVar_m (b : Fin 2) (ch : Fin 64) :
    kVar (fun b ch => (mS1 v b ch : EReal)) (fun b ch => (mS2 v b ch : EReal)) b ch = (mVar v b ch : EReal) := by
  unfold kVar
  rw [kMean_m]
  show Ideal.div (mS2 v b ch : EReal) cN - _ = _
  rw [div_cN, ← EReal.coe_mul, ← EReal.coe_sub, mVar_eq]

theorem kH_m (own : Fin 2 → Fin 64 → Fin 64 → Fin 64 → EReal) (b : Fin 2) (r w ch : Fin 64) (R : Fin 256)
    (hown : own b r w ch = (v b R w ch : EReal)) :
    kH own (fun b ch => (mS1 v b ch : EReal)) (fun b ch => (mS2 v b ch : EReal)) b r w ch = (mH v e b R w ch : EReal) := by
  have hpos : 0 < mVar v b ch + e := add_pos_of_nonneg_of_pos (mVar_nonneg v b ch) he
  unfold kH
  rw [kMean_m, kVar_m, hE, hown, ← EReal.coe_add, Ideal.rsqrt_coe, if_neg (not_lt.mpr hpos.le), if_neg hpos.ne',
    ← EReal.coe_sub, ← EReal.coe_mul, mH, div_eq_mul_inv]

theorem kA_m (own : Fin 2 → Fin 64 → Fin 64 → Fin 64 → EReal) (b : Fin 2) (r w ch : Fin 64) (R : Fin 256)
    (hown : own b r w ch = (v b R w ch : EReal)) :
    kA own (fun b ch => (mS1 v b ch : EReal)) (fun b ch => (mS2 v b ch : EReal)) b r w ch = (mA v e b R w ch : EReal) := by
  unfold kA
  rw [kH_m v e he hE own b r w ch R hown, Ideal.logistic_coe, ← EReal.coe_mul, mA, div_eq_mul_inv]

end Model

theorem Gker_eq_Gref (x : Fin 2 → Fin 256 → Fin 64 → Fin 64 → EReal) (wp : Fin 64 → Fin 128 → EReal)
    (hx : ∀ b r w ch, ∃ v : ℝ, x b r w ch = (v : EReal)) (c : Fin 4) (b : Fin 2) (r w : Fin 64) (o : Fin 128) :
    Gker (blk x c)
        (fun b ch => kS1 (blk x c) b ch + kS1 (blk x (rot c 3)) b ch + kS1 (blk x (rot c 2)) b ch + kS1 (blk x (rot c 1)) b ch)
        (fun b ch => kS2 (blk x c) b ch + kS2 (blk x (rot c 3)) b ch + kS2 (blk x (rot c 2)) b ch + kS2 (blk x (rot c 1)) b ch)
        wp b r w o
      = Gref x wp b ⟨c.val * 64 + r.val, by omega⟩ w o := by
  choose v hv using hx
  obtain rfl : x = cx v := by funext b r w ch; exact hv b r w ch
  obtain ⟨e, he, hE⟩ := cEps_eq
  have h1 : (fun b ch => kS1 (blk (cx v) c) b ch + kS1 (blk (cx v) (rot c 3)) b ch + kS1 (blk (cx v) (rot c 2)) b ch
      + kS1 (blk (cx v) (rot c 1)) b ch) = fun b ch => (mS1 v b ch : EReal) := by
    funext b ch; rw [total_S1, sum_cx]
  have h2 : (fun b ch => kS2 (blk (cx v) c) b ch + kS2 (blk (cx v) (rot c 3)) b ch + kS2 (blk (cx v) (rot c 2)) b ch
      + kS2 (blk (cx v) (rot c 1)) b ch) = fun b ch => (mS2 v b ch : EReal) := by
    funext b ch; rw [total_S2, sum_cx_sq]
  rw [h1, h2]
  unfold Gker Gref
  refine Finset.sum_congr rfl fun ch _ => ?_
  rw [kA_m v e he hE (blk (cx v) c) b r w ch ⟨c.val * 64 + r.val, by omega⟩ rfl, rA_cx v e he hE]

/-- info: 'Cert.Spec.Gker_eq_Gref' depends on axioms: [propext, Classical.choice, Quot.sound] -/
#guard_msgs in #print axioms Cert.Spec.Gker_eq_Gref

end Cert.Spec

end
-- ==== Proof.Finite.lean ====
/- From the precondition — every device's argument blocks hold finite numbers — to: every entry is a real. -/
import proofs.«900519_g7700000000000520_dist_diff_noisepred_hshard_i_b2_h64_w64_c64_v7x_i4_bf16_1_alg».proof.Defs
import proofs.«900519_g7700000000000520_dist_diff_noisepred_hshard_i_b2_h64_w64_c64_v7x_i4_bf16_1_alg».proof.Proof.Gen.KernelIdeal
import proofs.«900519_g7700000000000520_dist_diff_noisepred_hshard_i_b2_h64_w64_c64_v7x_i4_bf16_1_alg».proof.Proof.Gen.Pre_finite_inputs_Kernel
import Idealize.ShloMosaic.Lib.ReduceAll

noncomputable section

namespace Cert.Finite

open Idealize.ShloMosaic Idealize.SL.Sem Cert.KernelIdeal

/-- The rank-0 shape has exactly one index. -/
local instance : Subsingleton Cert.Pre_finite_inputs_Kernel.S_.Idx := ⟨fun a b => funext fun d => d.elim0⟩

/-- An extended real whose absolute value `max x (-x)` lies strictly below `+∞` (the value the f32 pattern
    `0x7F800000` denotes) is neither `⊥` nor `⊤`: it is a real number. -/
theorem real_of_abs_lt_inf (x : EReal)
    (hx : Ideal.cmp .olt (max x (-x)) (Ideal.ofBits .f32 0x7F800000#32) = 1#1) : ∃ v : ℝ, x = (v : EReal) := by
  have htop : Ideal.ofBits .f32 0x7F800000#32 = ⊤ := by simp [Ideal.ofBits, Ideal.ieee]
  rw [htop] at hx
  induction x using EReal.rec with
  | bot => simp [Ideal.cmp] at hx
  | coe r => exact ⟨r, rfl⟩
  | top => simp [Ideal.cmp] at hx

theorem real_of_pre (m : (ℓ : Loc nD τ sig) → Buf (Elt Ideal) ℓ)
    (h : Cert.Pre_KernelIdeal (hPre_finite_inputs_Kernel := Cert.Pre_finite_inputs_Kernel.Gen.facts) m) (c : Dev nD) :
    (∀ i, ∃ v : ℝ, (m ((c.tc : Thread nD τ).loc main_arg0) i : EReal) = (v : EReal))
    ∧ (∀ i, ∃ v : ℝ, (m ((c.tc : Thread nD τ).loc main_arg1) i : EReal) = (v : EReal)) := by
  -- the precondition at device `c`, read at the one index of its rank-0 result
  have h0 := congrFun (h c) (fun d => d.elim0 : Cert.Pre_finite_inputs_Kernel.S_.Idx)
  dsimp only [Cert.Pre_finite_inputs_Kernel.fn] at h0
  -- the conjunction of the two `all`s
  obtain ⟨ha, hb⟩ := IntOp.andi_eq_one.1 h0
  refine ⟨fun i => ?_, fun i => ?_⟩
  · exact real_of_abs_lt_inf _ (Host.reduce_andi_all _ _ _ _ _ ha i)
  · exact real_of_abs_lt_inf _ (Host.reduce_andi_all _ _ _ _ _ hb i)

/-- info: 'Cert.Finite.real_of_pre' depends on axioms: [propext, Classical.choice, Quot.sound] -/
#guard_msgs in #print axioms real_of_pre

end Cert.Finite

end
-- ==== Proof.Value.lean ====
/- Device `c`'s result is its block of the one-device program's result: both read entry by entry, joined by the
   algebraic law over real entries, the whole array's rows 64c … 64c+63 being device `c`'s block. -/
import proofs.«900519_g7700000000000520_dist_diff_noisepred_hshard_i_b2_h64_w64_c64_v7x_i4_bf16_1_alg».proof.Defs
import proofs.«900519_g7700000000000520_dist_diff_noisepred_hshard_i_b2_h64_w64_c64_v7x_i4_bf16_1_alg».proof.Proof.KStat
import proofs.«900519_g7700000000000520_dist_diff_noisepred_hshard_i_b2_h64_w64_c64_v7x_i4_bf16_1_alg».proof.Proof.KOut
import proofs.«900519_g7700000000000520_dist_diff_noisepred_hshard_i_b2_h64_w64_c64_v7x_i4_bf16_1_alg».proof.Proof.RefRead
import proofs.«900519_g7700000000000520_dist_diff_noisepred_hshard_i_b2_h64_w64_c64_v7x_i4_bf16_1_alg».proof.Proof.Algebra
import proofs.«900519_g7700000000000520_dist_diff_noisepred_hshard_i_b2_h64_w64_c64_v7x_i4_bf16_1_alg».proof.Proof.Finite
import Idealize.ShloMosaic.Lib.Layout

noncomputable section

namespace Cert.Value

open Idealize.ShloMosaic Idealize.SL.Sem Idealize.ShloMosaic.ValueIdx

/-- Where entry (b, r, w, o) of block `c` lies in the whole array cut along its rows: at row 64c + r. -/
theorem idx_cut {n : Nat} (h : Layout.Tiles ⟨4, ![2, 64, 64, n]⟩ ⟨4, ![2, 256, 64, n]⟩ 1 4) (c : Fin 4)
    (b : Fin 2) (r w : Fin 64) (o : Fin n) :
    h.idx c (ix4 b r w o) = ix4 b (⟨c.val * 64 + r.val, by omega⟩ : Fin 256) w o := by
  funext a
  match a with
  | ⟨0, _⟩ => exact Fin.ext rfl
  | ⟨1, _⟩ => exact Fin.ext rfl
  | ⟨2, _⟩ => exact Fin.ext rfl
  | ⟨3, _⟩ => exact Fin.ext rfl

/-- Block `d` of the whole array, read by coordinates, is rows 64d … 64d+63 of the whole array read by coordinates. -/
theorem block_coords (A : (⟨4, ![2, 256, 64, 64]⟩ : Shape).Idx → EReal) (d : Fin 4) (b : Fin 2) (r w ch : Fin 64) :
    (Layout.block ⟨4, ![2, 64, 64, 64]⟩ ⟨4, ![2, 256, 64, 64]⟩ 1 4 d A) (ix4 b r w ch)
      = Cert.Spec.blk (fun b R w ch => A (ix4 b R w ch)) d b r w ch := by
  rw [Layout.block_apply, idx_cut]
  rfl

/-- If every block holds reals, so does the whole array: row R lies in block ⌊R/64⌋ at row R mod 64. -/
theorem whole_real (A : (⟨4, ![2, 256, 64, 64]⟩ : Shape).Idx → EReal)
    (h : ∀ d : Fin 4, ∀ i, ∃ v : ℝ, (Layout.block ⟨4, ![2, 64, 64, 64]⟩ ⟨4, ![2, 256, 64, 64]⟩ 1 4 d A) i = (v : EReal))
    (b : Fin 2) (R : Fin 256) (w ch : Fin 64) : ∃ v : ℝ, A (ix4 b R w ch) = (v : EReal) := by
  obtain ⟨v, hv⟩ := h ⟨R.val / 64, by omega⟩ (ix4 b ⟨R.val % 64, Nat.mod_lt _ (by decide)⟩ w ch)
  refine ⟨v, ?_⟩
  rw [Layout.block_apply, idx_cut] at hv
  have hR : R = ⟨R.val / 64 * 64 + R.val % 64, by omega⟩ := Fin.ext (Nat.div_add_mod' R.val 64).symm
  exact (congrArg (fun X => A (ix4 b X w ch)) hR).trans hv

theorem outVal_eq_block
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_finite_inputs_Kernel := Cert.Pre_finite_inputs_Kernel.Gen.facts) m)
    (hagree : ∀ c : Dev Cert.KernelIdeal.nD,
      m ((c.tc : Thread Cert.KernelIdeal.nD Cert.KernelIdeal.τ).loc Cert.KernelIdeal.main_arg0) = Layout.block ⟨4, ![2, 64, 64, 64]⟩ ⟨4, ![2, 256, 64, 64]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1))
    (c : Dev Cert.KernelIdeal.nD) :
    Cert.KernelIdeal.KSpec.outVal m c
      = Layout.block ⟨4, ![2, 64, 64, 128]⟩ ⟨4, ![2, 256, 64, 128]⟩ 1 4 c
          (Cert.Spec.refVal (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))) := by
  funext i
  obtain ⟨b, r, w, o, rfl⟩ : ∃ b r w o, i = ix4 b r w o := ⟨_, _, _, _, eq_ix4 i⟩
  -- every device's block by coordinates is its rows of the whole first argument
  have hX : ∀ d : Fin 4, (fun b r w ch => Cert.KernelIdeal.KSpec.X m d (ix4 b r w ch))
      = Cert.Spec.blk (fun b R w ch => m' (((0 : Dev Cert.ReferenceIdeal.nD).tc : Thread Cert.ReferenceIdeal.nD Cert.ReferenceIdeal.τ).loc Cert.ReferenceIdeal.main_arg0) (ix4 b R w ch)) d := by
    intro d; funext b r w ch
    exact (congrFun (hagree d).1 (ix4 b r w ch)).trans (block_coords _ d b r w ch)
  have hW : Cert.KernelIdeal.KSpec.Wp m c = m' (((0 : Dev Cert.ReferenceIdeal.nD).tc : Thread Cert.ReferenceIdeal.nD Cert.ReferenceIdeal.τ).loc Cert.ReferenceIdeal.main_arg1) := (hagree c).2
  -- the whole first argument holds reals
  have hx : ∀ b R w ch, ∃ v : ℝ, (m' (((0 : Dev Cert.ReferenceIdeal.nD).tc : Thread Cert.ReferenceIdeal.nD Cert.ReferenceIdeal.τ).loc Cert.ReferenceIdeal.main_arg0) (ix4 b R w ch) : EReal) = (v : EReal) := by
    refine whole_real _ ?_
    intro d i
    have h := (Cert.Finite.real_of_pre m hpre d).1 i
    rw [(hagree d).1] at h
    exact h
  unfold Cert.KernelIdeal.KSpec.outVal
  rw [Cert.KernelIdeal.KVal.outOf_apply]
  simp only [Cert.KernelIdeal.KVal.tot, Cert.KernelIdeal.KVal.stat_apply_lo, Cert.KernelIdeal.KVal.stat_apply_hi]
  rw [hX c, hX (Cert.KernelIdeal.KSpec.pk c 3), hX (Cert.KernelIdeal.KSpec.pk c 2), hX (Cert.KernelIdeal.KSpec.pk c 1), hW,
    Layout.block_apply, idx_cut, Cert.Spec.refVal_apply]
  exact Cert.Spec.Gker_eq_Gref _ _ hx c b r w o

/-- info: 'Cert.Value.outVal_eq_block' depends on axioms: [propext, Classical.choice, Quot.sound] -/
#guard_msgs in #print axioms Cert.Value.outVal_eq_block

end Cert.Value

end
-- ==== Proof.lean ====
/- The claim: the four-device kernel and its one-device reference agree over the extended reals, block by block.
   Each device normalises its 64 rows with statistics summed over all four devices (exchanged by signals and row copies),
   gates them and projects them; the reference does the same over all 256 rows at once. The frames are the runs with
   the results dropped; the kernel's run names each device's result as a function of the four devices' blocks, the
   reference's run composes its operations, and the two are joined entry by entry over real entries: partial sums add
   up, the mean of squares less the squared mean is the mean squared deviation, multiplying by the reciprocal square
   root is dividing by the square root, and x times the logistic of x is x over 1 + e^{-x}. The word-level program's
   frame is the same run read at the word-level instance. -/
import proofs.«900519_g7700000000000520_dist_diff_noisepred_hshard_i_b2_h64_w64_c64_v7x_i4_bf16_1_alg».proof.Defs
import proofs.«900519_g7700000000000520_dist_diff_noisepred_hshard_i_b2_h64_w64_c64_v7x_i4_bf16_1_alg».proof.Proof.Gen.Kernel
import proofs.«900519_g7700000000000520_dist_diff_noisepred_hshard_i_b2_h64_w64_c64_v7x_i4_bf16_1_alg».proof.Proof.Gen.KernelIdeal
import proofs.«900519_g7700000000000520_dist_diff_noisepred_hshard_i_b2_h64_w64_c64_v7x_i4_bf16_1_alg».proof.Proof.Gen.ReferenceIdeal
import proofs.«900519_g7700000000000520_dist_diff_noisepred_hshard_i_b2_h64_w64_c64_v7x_i4_bf16_1_alg».proof.Proof.Gen.Pre_finite_inputs_Kernel
import proofs.«900519_g7700000000000520_dist_diff_noisepred_hshard_i_b2_h64_w64_c64_v7x_i4_bf16_1_alg».proof.Proof.Gen.Pre_finite_inputs_ReferenceIdeal
import proofs.«900519_g7700000000000520_dist_diff_noisepred_hshard_i_b2_h64_w64_c64_v7x_i4_bf16_1_alg».proof.Proof.Launch
import proofs.«900519_g7700000000000520_dist_diff_noisepred_hshard_i_b2_h64_w64_c64_v7x_i4_bf16_1_alg».proof.Proof.Bits.Launch
import proofs.«900519_g7700000000000520_dist_diff_noisepred_hshard_i_b2_h64_w64_c64_v7x_i4_bf16_1_alg».proof.Proof.RefRun
import proofs.«900519_g7700000000000520_dist_diff_noisepred_hshard_i_b2_h64_w64_c64_v7x_i4_bf16_1_alg».proof.Proof.Value

noncomputable section

namespace Cert.Proof

open Idealize.ShloMosaic Idealize.SL.Sem

/-- The word-level program runs and leaves its arguments unchanged. -/
theorem frame_k : Cert.frame_Kernel := fun m g _ =>
  (θ_run Cert.Kernel.defs _ _).mono (fun _ h c => (h c).2) (Cert.Kernel.Proto.run_main (F := Bits) m g)

/-- So does the idealized program. -/
theorem frame_ki : Cert.frame_KernelIdeal := fun m g _ =>
  (θ_run Cert.KernelIdeal.defs _ _).mono (fun _ h c => (h c).2) (Cert.KernelIdeal.Proto.run_main (F := Ideal) m g)

/-- And the reference. -/
theorem frame_ri : Cert.frame_ReferenceIdeal := fun m g _ =>
  (θ_run Cert.ReferenceIdeal.defs _ _).mono (fun _ h c => (h c).2) (Cert.ReferenceIdeal.RefRun.run m g)

/-- Both run; the reference's result is the composition of its operations, and each device's result is its block of it. -/
theorem algebraic : Cert.algebraic_KernelIdeal_ReferenceIdeal := by
  intro m g m' g' hpre hagree
  refine ⟨Cert.Spec.refVal (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h c).1.trans (Cert.Value.outVal_eq_block m m' hpre hagree c), (h c).2⟩)
      (Cert.KernelIdeal.Proto.run_main (F := Ideal) m g)
  · exact (θ_run Cert.ReferenceIdeal.defs _ _).mono (fun _ h => h 0) (Cert.ReferenceIdeal.RefRun.run m' g')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
